-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64x512x512 : Shape := ⟨3, ![64, 512, 512]⟩
abbrev S3x768 : Shape := ⟨2, ![3, 768]⟩
abbrev S768 : Shape := ⟨1, ![768]⟩
abbrev S768x768 : Shape := ⟨2, ![768, 768]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel
  bcast_S_S3x768 : S_.BroadcastsInDim S3x768 (![] : Fin 0 → Fin S3x768.rank)
  reducesTo_S3x768_S_d0_1 : S3x768.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S64x512x512 : S_.BroadcastsInDim S64x512x512 (![] : Fin 0 → Fin S64x512x512.rank)
  reducesTo_S64x512x512_S_d0_1_2 : S64x512x512.ReducesTo [0, 1, 2] S_

variable [Facts]

def fn_part1 {F : FTy → Type} [FloatOps F] (main_arg1 : IVec S64x512x512 32) (main_arg5 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_c_8 : IVec S_ 32 := constantI S_ 32 0#32
  let main_v24 : IVec S64x512x512 32 := broadcastInDim S64x512x512 ![] bcast_S_S64x512x512 main_c_8
  let main_v25 : IVec S64x512x512 1 := cmpi .sge main_arg1 main_v24
  let main_c_9 : IVec S_ 32 := constantI S_ 32 256#32
  let main_v26 : IVec S64x512x512 32 := broadcastInDim S64x512x512 ![] bcast_S_S64x512x512 main_c_9
  let main_v27 : IVec S64x512x512 1 := cmpi .slt main_arg1 main_v26
  let main_v28 : IVec S64x512x512 1 := andi main_v25 main_v27
  let main_c_10 : IVec S_ 1 := constantI S_ 1 1#1
  let main_v29 : IVec S_ 1 := (fun x v => Host.reduce IntOp.andi x v reducesTo_S64x512x512_S_d0_1_2 h_S_) main_v28 main_c_10
  let main_v30 : IVec S_ 1 := andi main_v23 main_v29
  main_v30

def fn {F : FTy → Type} [FloatOps F] (main_arg0 : FVec F S64x3x512x512 .f32) (main_arg1 : IVec S64x512x512 32) (main_arg2 : FVec F S3x768 .f32) (main_arg3 : FVec F S768 .f32) (main_arg4 : FVec F S768x768 .f32) (main_arg5 : FVec F S768 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S3x768 .f32 := Host.absf main_arg2
  let main_cst_0 : FVec F S_ .f32 := constant S_ .f32 0x7F800000#32
  let main_v5 : FVec F S3x768 .f32 := broadcastInDim S3x768 ![] bcast_S_S3x768 main_cst_0
  let main_v6 : IVec S3x768 1 := cmpf .olt main_v4 main_v5
  let main_c_1 : IVec S_ 1 := constantI S_ 1 1#1
  let main_v7 : IVec S_ 1 := (fun x v => Host.reduce IntOp.andi x v reducesTo_S3x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg1 main_arg5 main_v13 main_v16
-- ==== Kernel.lean ====
abbrev S64x3x512x512 : Shape := ⟨4, ![64, 3, 512, 512]⟩
abbrev S64x512x512 : Shape := ⟨3, ![64, 512, 512]⟩
abbrev S3x768 : Shape := ⟨2, ![3, 768]⟩
abbrev S768 : Shape := ⟨1, ![768]⟩
abbrev S768x768 : Shape := ⟨2, ![768, 768]⟩
abbrev S64x3x262144 : Shape := ⟨3, ![64, 3, 262144]⟩
abbrev S64x1x262144 : Shape := ⟨3, ![64, 1, 262144]⟩
abbrev S64x3x256 : Shape := ⟨3, ![64, 3, 256]⟩
abbrev S1x3x32768 : Shape := ⟨3, ![1, 3, 32768]⟩
abbrev S1x1x32768 : Shape := ⟨3, ![1, 1, 32768]⟩
abbrev S1x3x256 : Shape := ⟨3, ![1, 3, 256]⟩
abbrev S4x256 : Shape := ⟨2, ![4, 256]⟩
abbrev S256x1 : Shape := ⟨2, ![256, 1]⟩
abbrev S3x32768 : Shape := ⟨2, ![3, 32768]⟩
abbrev S3x8192 : Shape := ⟨2, ![3, 8192]⟩
abbrev S1x8192 : Shape := ⟨2, ![1, 8192]⟩
abbrev S4x8192 : Shape := ⟨2, ![4, 8192]⟩
abbrev S1x32768 : Shape := ⟨2, ![1, 32768]⟩
abbrev S256x8192 : Shape := ⟨2, ![256, 8192]⟩
abbrev S1x256 : Shape := ⟨2, ![1, 256]⟩
abbrev S3x256 : Shape := ⟨2, ![3, 256]⟩
abbrev S1x768 : Shape := ⟨2, ![1, 768]⟩
abbrev S64x256x768 : Shape := ⟨3, ![64, 256, 768]⟩
abbrev S1x256x768 : Shape := ⟨3, ![1, 256, 768]⟩
abbrev S256x768 : Shape := ⟨2, ![256, 768]⟩

abbrev nBuf : Space → Nat
  | .hbm => 12
  | .vmem => 15
  | .smem => 0
  | _ => 0

abbrev bufTy : (tb : Table) → Fin (tcTables nBuf tb) → BufTy
  | .hbm, ⟨0, _⟩ => ⟨S64x3x512x512, .f32⟩
  | .hbm, ⟨1, _⟩ => ⟨S64x512x512, .i32⟩
  | .hbm, ⟨2, _⟩ => ⟨S3x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S64x3x262144, .f32⟩
  | .hbm, ⟨7, _⟩ => ⟨S64x1x262144, .i32⟩
  | .hbm, ⟨8, _⟩ => ⟨S64x3x256, .f32⟩
  | .hbm, ⟨9, _⟩ => ⟨S1x768, .f32⟩
  | .hbm, ⟨10, _⟩ => ⟨S1x768, .f32⟩
  | .hbm, ⟨11, _⟩ => ⟨S64x256x768, .f32⟩
  | .local _ .vmem, ⟨0, _⟩ => ⟨S1x3x32768, .f32⟩
  | .local _ .vmem, ⟨1, _⟩ => ⟨S1x3x32768, .f32⟩
  | .local _ .vmem, ⟨2, _⟩ => ⟨S1x1x32768, .i32⟩
  | .local _ .vmem, ⟨3, _⟩ => ⟨S1x1x32768, .i32⟩
  | .local _ .vmem, ⟨4, _⟩ => ⟨S1x3x256, .f32⟩
  | .local _ .vmem, ⟨5, _⟩ => ⟨S1x3x256, .f32⟩
  | .local _ .vmem, ⟨6, _⟩ => ⟨S4x256, .f32⟩
  | .local _ .vmem, ⟨7, _⟩ => ⟨S1x3x256, .f32⟩
  | .local _ .vmem, ⟨8, _⟩ => ⟨S1x3x256, .f32⟩
  | .local _ .vmem, ⟨9, _⟩ => ⟨S3x768, .f32⟩
  | .local _ .vmem, ⟨10, _⟩ => ⟨S1x768, .f32⟩
  | .local _ .vmem, ⟨11, _⟩ => ⟨S768x768, .f32⟩
  | .local _ .vmem, ⟨12, _⟩ => ⟨S1x768, .f32⟩
  | .local _ .vmem, ⟨13, _⟩ => ⟨S1x256x768, .f32⟩
  | .local _ .vmem, ⟨14, _⟩ => ⟨S1x256x768, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![64, 8], ![false, false]⟩

@[reducible] def k0_t1_loop : Scf.Loop 32 :=
  let c0_i32_3 : BitVec 32 := 0#32
  let c4_i32 : BitVec 32 := 4#32
  let v5 : BitVec 32 := Scalar.addi c0_i32_3 c4_i32
  let c1_i32 : BitVec 32 := 1#32
  ⟨c0_i32_3, v5, c1_i32⟩
def k0_mult1 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c8192_i32 : BitVec 32 := 8192#32
  let v9 : BitVec 32 := Scalar.muli arg6 c8192_i32
  v9
def k0_off1 (k0_t1 : Fin k0_t1_loop.trips) : Fin 2 → Nat :=
  let c0 : Index := 0#32
  let c0_i32_3 : BitVec 32 := 0#32
  let c1_i32 : BitVec 32 := 1#32
  let arg6 : BitVec 32 := Scf.iv c0_i32_3 c1_i32 k0_t1
  let c8192_i32 : BitVec 32 := 8192#32
  let v9 : BitVec 32 := Scalar.muli arg6 c8192_i32
  let v10 : BitVec 32 := v9
  let v13 : Index := Scalar.indexCast v10
  ![0, v13.toNat]
def k0_off2 (k0_t1 : Fin k0_t1_loop.trips) : Fin 2 → Nat :=
  let c0_10 : Index := 0#32
  let c0_i32_3 : BitVec 32 := 0#32
  let c1_i32 : BitVec 32 := 1#32
  let arg6 : BitVec 32 := Scf.iv c0_i32_3 c1_i32 k0_t1
  let c8192_i32 : BitVec 32 := 8192#32
  let v9 : BitVec 32 := Scalar.muli arg6 c8192_i32
  let v10 : BitVec 32 := v9
  let v21 : Index := Scalar.indexCast v10
  ![0, v21.toNat]
def k0_cond2 (i : grid0.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_5 : BitVec 32 := 0#32
  let v8 : BitVec 1 := Scalar.cmpi .ne v7 c0_i32_5
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64x3x512x512_S64x3x262144 : S64x3x512x512.ShapeCasts S64x3x262144
  shapeCasts_S64x512x512_S64x1x262144 : S64x512x512.ShapeCasts S64x1x262144
  inb_S4x256_S4x256_0_0 : ∀ a, (![0, 0] : Fin 2 → Nat) a + S4x256.size a ≤ S4x256.size a
  h_S4x256 : 0 < S4x256.numel
  shapeCasts_S4x256_S4x256 : S4x256.ShapeCasts S4x256
  iota_S256x1_d0_w32 : S256x1.Iotas .tc 32 [0]
  inb_S1x3x32768_S1x3x32768_0_0_0 : ∀ a, (![0, 0, 0] : Fin 3 → Nat) a + S1x3x32768.size a ≤ S1x3x32768.size a
  squeezes_S1x3x32768_S3x32768 : S1x3x32768.Squeezes S3x32768
  h_S3x8192 : 0 < S3x8192.numel
  shapeCasts_S3x8192_S3x8192 : S3x8192.ShapeCasts S3x8192
  bitsLt_bf16_f32 : FTy.bits .bf16 < FTy.bits .f32
  concatenates_S3x8192_S1x8192_S4x8192_d0 : Shape.Concatenates [S3x8192, S1x8192] S4x8192 0
  inb_S1x1x32768_S1x1x32768_0_0_0 : ∀ a, (![0, 0, 0] : Fin 3 → Nat) a + S1x1x32768.size a ≤ S1x1x32768.size a
  squeezes_S1x1x32768_S1x32768 : S1x1x32768.Squeezes S1x32768
  h_S1x8192 : 0 < S1x8192.numel
  shapeCasts_S1x8192_S1x8192 : S1x8192.ShapeCasts S1x8192
  broadcasts_S1x8192_S256x8192 : S1x8192.Broadcasts S256x8192
  broadcasts_S256x1_S256x8192 : S256x1.Broadcasts S256x8192
  natLt_1_32 : 1 < 32
  inb_S4x256_S1x256_3_0 : ∀ a, (![3, 0] : Fin 2 → Nat) a + S1x256.size a ≤ S4x256.size a
  h_S1x256 : 0 < S1x256.numel
  inb_S4x256_S3x256_0_0 : ∀ a, (![0, 0] : Fin 2 → Nat) a + S3x256.size a ≤ S4x256.size a
  h_S3x256 : 0 < S3x256.numel
  broadcasts_S1x256_S3x256 : S1x256.Broadcasts S3x256
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  shapeCasts_S3x256_S1x3x256 : S3x256.ShapeCasts S1x3x256
  shapeCasts_S768_S1x768 : S768.ShapeCasts S1x768
  inb_S3x768_S3x768_0_0 : ∀ a, (![0, 0] : Fin 2 → Nat) a + S3x768.size a ≤ S3x768.size a
  h_S3x768 : 0 < S3x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S768x768_S768x768_0_0 : ∀ a, (![0, 0] : Fin 2 → Nat) a + S768x768.size a ≤ S768x768.size a
  h_S768x768 : 0 < S768x768.numel
  reduces_S256x768_S768 : S256x768.Reduces [0] S768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  shapeCasts_S256x768_S1x256x768 : S256x768.ShapeCasts S1x256x768
  dot_S4x8192_S256x8192_S4x256_1_1_0_0_n_n_wf : DotDims.WF S4x8192 S256x8192 S4x256 [1] [1] [0] [0] [] []
  dot_S3x256_S3x768_S256x768_0_0_1_1_n_n_wf : DotDims.WF S3x256 S3x768 S256x768 [0] [0] [1] [1] [] []
  dot_S256x768_S768x768_S256x768_1_0_0_1_n_n_wf : DotDims.WF S256x768 S768x768 S256x768 [1] [0] [0] [1] [] []
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S3x8192.size a ≤ S3x32768.size a
  k0_off2_inb : ∀ k0_t1 : Fin k0_t1_loop.trips, ∀ a, (k0_off2 k0_t1) a + S1x8192.size a ≤ S1x32768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x32768.size a ≤ S64x3x262144.size a
  hwx0_0 : ∀ i : grid0.Coords, EltTy.bits .f32 = 32 ∨ (Rect.block (s := S64x3x262144) S1x3x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32768.size a ≤ S64x1x262144.size a
  hwx0_1 : ∀ i : grid0.Coords, EltTy.bits .i32 = 32 ∨ (Rect.block (s := S64x1x262144) S1x1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x256.size a ≤ S64x3x256.size a
  hwx0_2 : ∀ i : grid0.Coords, EltTy.bits .f32 = 32 ∨ (Rect.block (s := S64x3x256) S1x3x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x256.size a ≤ S64x3x256.size a
  hwx1_0 : ∀ i : grid1.Coords, EltTy.bits .f32 = 32 ∨ (Rect.block (s := S64x3x256) S1x3x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x768.size a ≤ S3x768.size a
  hwx1_1 : ∀ i : grid1.Coords, EltTy.bits .f32 = 32 ∨ (Rect.block (s := S3x768) S3x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .f32 = 32 ∨ (Rect.block (s := S768x768) S768x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x768.size a ≤ S64x256x768.size a
  hwx1_5 : ∀ i : grid1.Coords, EltTy.bits .f32 = 32 ∨ (Rect.block (s := S64x256x768) S1x256x768.size (cc1_transform_5 i) (hinb1_5 i)).WholeWords (EltTy.packing .f32)

variable [Facts₀]

def dot_S4x8192_S256x8192_S4x256_1_1_0_0_n_n : DotDims S4x8192 S256x8192 S4x256 where
  lhsContracting := [1]
  rhsContracting := [1]
  lhsNonContracting := [0]
  rhsNonContracting := [0]
  lhsBatch := []
  rhsBatch := []
  wf := dot_S4x8192_S256x8192_S4x256_1_1_0_0_n_n_wf
def dot_S3x256_S3x768_S256x768_0_0_1_1_n_n : DotDims S3x256 S3x768 S256x768 where
  lhsContracting := [0]
  rhsContracting := [0]
  lhsNonContracting := [1]
  rhsNonContracting := [1]
  lhsBatch := []
  rhsBatch := []
  wf := dot_S3x256_S3x768_S256x768_0_0_1_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_v0) S1x3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S1x3x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S3x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x3x512x512 : Shape := ⟨4, ![64, 3, 512, 512]⟩
abbrev S64x512x512 : Shape := ⟨3, ![64, 512, 512]⟩
abbrev S3x768 : Shape := ⟨2, ![3, 768]⟩
abbrev S768 : Shape := ⟨1, ![768]⟩
abbrev S768x768 : Shape := ⟨2, ![768, 768]⟩
abbrev S64x512x512x3 : Shape := ⟨4, ![64, 512, 512, 3]⟩
abbrev S16777216x3 : Shape := ⟨2, ![16777216, 3]⟩
abbrev S64x262144 : Shape := ⟨2, ![64, 262144]⟩
abbrev S64 : Shape := ⟨1, ![64]⟩
abbrev S_ : Shape := ⟨0, ![]⟩
abbrev S64x1 : Shape := ⟨2, ![64, 1]⟩
abbrev S16777216 : Shape := ⟨1, ![16777216]⟩
abbrev S16384x3 : Shape := ⟨2, ![16384, 3]⟩
abbrev S16777216x1 : Shape := ⟨2, ![16777216, 1]⟩
abbrev S16384 : Shape := ⟨1, ![16384]⟩
abbrev S16384x1 : Shape := ⟨2, ![16384, 1]⟩
abbrev S64x256x3 : Shape := ⟨3, ![64, 256, 3]⟩
abbrev S64x256x768 : Shape := ⟨3, ![64, 256, 768]⟩
abbrev S1x1x768 : Shape := ⟨3, ![1, 1, 768]⟩
abbrev S64x768 : Shape := ⟨2, ![64, 768]⟩
abbrev S64x1x768 : Shape := ⟨3, ![64, 1, 768]⟩

abbrev nBuf : Space → Nat
  | .hbm => 50
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x512x512, .i32⟩
  | .hbm, ⟨2, _⟩ => ⟨S3x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S64x512x512x3, .f32⟩
  | .hbm, ⟨7, _⟩ => ⟨S16777216x3, .f32⟩
  | .hbm, ⟨8, _⟩ => ⟨S64x262144, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x262144, .i32⟩
  | .hbm, ⟨15, _⟩ => ⟨S64x262144, .i32⟩
  | .hbm, ⟨16, _⟩ => ⟨S16777216, .i32⟩
  | .hbm, ⟨17, _⟩ => ⟨S_, .f32⟩
  | .hbm, ⟨18, _⟩ => ⟨S16384x3, .f32⟩
  | .hbm, ⟨19, _⟩ => ⟨S16777216x1, .i32⟩
  | .hbm, ⟨20, _⟩ => ⟨S16384x3, .f32⟩
  | .hbm, ⟨21, _⟩ => ⟨S_, .f32⟩
  | .hbm, ⟨22, _⟩ => ⟨S16777216, .f32⟩
  | .hbm, ⟨23, _⟩ => ⟨S_, .f32⟩
  | .hbm, ⟨24, _⟩ => ⟨S16384, .f32⟩
  | .hbm, ⟨25, _⟩ => ⟨S16777216x1, .i32⟩
  | .hbm, ⟨26, _⟩ => ⟨S16384, .f32⟩
  | .hbm, ⟨27, _⟩ => ⟨S_, .i32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x1, .f32⟩
  | .hbm, ⟨32, _⟩ => ⟨S16384x3, .f32⟩
  | .hbm, ⟨33, _⟩ => ⟨S16384x3, .f32⟩
  | .hbm, ⟨34, _⟩ => ⟨S64x256x3, .f32⟩
  | .hbm, ⟨35, _⟩ => ⟨S64x256x768, .f32⟩
  | .hbm, ⟨36, _⟩ => ⟨S1x1x768, .f32⟩
  | .hbm, ⟨37, _⟩ => ⟨S64x256x768, .f32⟩
  | .hbm, ⟨38, _⟩ => ⟨S64x256x768, .f32⟩
  | .hbm, ⟨39, _⟩ => ⟨S64x256x768, .f32⟩
  | .hbm, ⟨40, _⟩ => ⟨S_, .f32⟩
  | .hbm, ⟨41, _⟩ => ⟨S64x768, .f32⟩
  | .hbm, ⟨42, _⟩ => ⟨S64x1x768, .f32⟩
  | .hbm, ⟨43, _⟩ => ⟨S_, .f32⟩
  | .hbm, ⟨44, _⟩ => ⟨S64x1x768, .f32⟩
  | .hbm, ⟨45, _⟩ => ⟨S64x1x768, .f32⟩
  | .hbm, ⟨46, _⟩ => ⟨S1x1x768, .f32⟩
  | .hbm, ⟨47, _⟩ => ⟨S64x1x768, .f32⟩
  | .hbm, ⟨48, _⟩ => ⟨S64x1x768, .f32⟩
  | .hbm, ⟨49, _⟩ => ⟨S64x256x768, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  transposes_S64x3x512x512_S64x512x512x3_0_2_3_1 : S64x3x512x512.Transposes [0, 2, 3, 1] S64x512x512x3
  shapeCasts_S64x512x512x3_S16777216x3 : S64x512x512x3.ShapeCasts S16777216x3
  shapeCasts_S64x512x512_S64x262144 : S64x512x512.ShapeCasts S64x262144
  bcast_S_S64 : S_.BroadcastsInDim S64 (![] : Fin 0 → Fin S64.rank)
  bcast_S64_S64x1_0 : S64.BroadcastsInDim S64x1 (![0] : Fin 1 → Fin S64x1.rank)
  bcast_S64x1_S64x262144_0_1 : S64x1.BroadcastsInDim S64x262144 (![0, 1] : Fin 2 → Fin S64x262144.rank)
  shapeCasts_S64x262144_S16777216 : S64x262144.ShapeCasts S16777216
  bcast_S_S16384x3 : S_.BroadcastsInDim S16384x3 (![] : Fin 0 → Fin S16384x3.rank)
  bcast_S16777216_S16777216x1_0 : S16777216.BroadcastsInDim S16777216x1 (![0] : Fin 1 → Fin S16777216x1.rank)
  bcast_S_S16777216 : S_.BroadcastsInDim S16777216 (![] : Fin 0 → Fin S16777216.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x3_0_1 : S16384x1.BroadcastsInDim S16384x3 (![0, 1] : Fin 2 → Fin S16384x3.rank)
  shapeCasts_S16384x3_S64x256x3 : S16384x3.ShapeCasts S64x256x3
  bcast_S768_S1x1x768_2 : S768.BroadcastsInDim S1x1x768 (![2] : Fin 1 → Fin S1x1x768.rank)
  bcast_S1x1x768_S64x256x768_0_1_2 : S1x1x768.BroadcastsInDim S64x256x768 (![0, 1, 2] : Fin 3 → Fin S64x256x768.rank)
  reducesTo_S64x256x768_S64x768_d1 : S64x256x768.ReducesTo [1] S64x768
  h_S_ : 0 < S_.numel
  bcast_S64x768_S64x1x768_0_2 : S64x768.BroadcastsInDim S64x1x768 (![0, 2] : Fin 2 → Fin S64x1x768.rank)
  bcast_S_S64x1x768 : S_.BroadcastsInDim S64x1x768 (![] : Fin 0 → Fin S64x1x768.rank)
  bcast_S1x1x768_S64x1x768_0_1_2 : S1x1x768.BroadcastsInDim S64x1x768 (![0, 1, 2] : Fin 3 → Fin S64x1x768.rank)
  bcast_S64x1x768_S64x256x768_0_1_2 : S64x1x768.BroadcastsInDim S64x256x768 (![0, 1, 2] : Fin 3 → Fin S64x256x768.rank)
  scatter_S16384x3_S16777216x1_S16777216x3_1_0_0_1_wf : ScatterDims.WF S16384x3 S16777216x1 S16777216x3 [1] [0] [0] 1
  scatter_S16384_S16777216x1_S16777216_n_0_0_1_wf : ScatterDims.WF S16384 S16777216x1 S16777216 [] [0] [0] 1
  dot_S64x256x3_S3x768_S64x256x768_2_0_01_1_n_n_wf : DotDims.WF S64x256x3 S3x768 S64x256x768 [2] [0] [0, 1] [1] [] []
  dot_S64x256x768_S768x768_S64x256x768_2_0_01_1_n_n_wf : DotDims.WF S64x256x768 S768x768 S64x256x768 [2] [0] [0, 1] [1] [] []

variable [Facts₀]

def scatter_S16384x3_S16777216x1_S16777216x3_1_0_0_1 : ScatterDims S16384x3 S16777216x1 S16777216x3 where
  updateWindowDims := [1]
  insertedWindowDims := [0]
  scatterDimsToOperandDims := [0]
  indexVectorDim := 1
  wf := scatter_S16384x3_S16777216x1_S16777216x3_1_0_0_1_wf
def scatter_S16384_S16777216x1_S16777216_n_0_0_1 : ScatterDims S16384 S16777216x1 S16777216 where
  updateWindowDims := []
  insertedWindowDims := [0]
  scatterDimsToOperandDims := [0]
  indexVectorDim := 1
  wf := scatter_S16384_S16777216x1_S16777216_n_0_0_1_wf
def dot_S64x256x3_S3x768_S64x256x768_2_0_01_1_n_n : DotDims S64x256x3 S3x768 S64x256x768 where
  lhsContracting := [2]
  rhsContracting := [0]
  lhsNonContracting := [0, 1]
  rhsNonContracting := [1]
  lhsBatch := []
  rhsBatch := []
  wf := dot_S64x256x3_S3x768_S64x256x768_2_0_01_1_n_n_wf
def dot_S64x256x768_S768x768_S64x256x768_2_0_01_1_n_n : DotDims S64x256x768 S768x768 S64x256x768 where
  lhsContracting := [2]
  rhsContracting := [0]
  lhsNonContracting := [0, 1]
  rhsNonContracting := [1]
  lhsBatch := []
  rhsBatch := []
  wf := dot_S64x256x768_S768x768_S64x256x768_2_0_01_1_n_n_wf

class Facts : Prop extends Facts₀ where

variable [Facts]
-- ==== Proof.K.R0Conds.lean ====
/-
  The first kernel's grid is 64 images × 8 pixel tiles, the tile the inner axis: point t is tile t % 8 of image
  t / 8. The body clears its accumulator at an image's first tile, adds the tile's four chunks, and at the image's
  last tile divides the sums by the clamped counts and stores the image's block of means. So a point is of one of
  three kinds: first tile (clear, accumulate), middle tile (accumulate), last tile (accumulate, store): the closed
  forms of the two branch conditions over the grid, where the output window rests, and the names of the buffers the
  body is called with.
-/
import proofs.«410070_j4063039062509_3_alg».proof.Proof.Gen.Kernel.Launch
import proofs.«410070_j4063039062509_3_alg».proof.Proof.Gen.Kernel.Skeleton
import proofs.«410070_j4063039062509_3_alg».proof.Proof.Gen.Kernel.Points
import proofs.«410070_j4063039062509_3_alg».proof.Proof.Gen.Kernel.Loops
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears the accumulator: the tile coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body stores the means: the tile coordinate is the last. -/
abbrev cond0_1 (i : grid0.Coords) : Prop := k0_cond2 i = 1#1
/-- That is at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows never rest. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output window rests, and is not written back, at every point but an image's last tile. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At an image's last tile it is stored into. -/
theorem liveAt0_2 : ∀ t : Fin cfg0.N, cond0_1 (grid0.coords t) → cfg0.idle 2 (grid0.coords t) = false := by decide +kernel

/-- Each window's current buffer at point t, as the body is called with it. -/
abbrev ms0_0 (t : Fin cfg0.N) : Memref sig .tc .vmem S1x3x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x256 .f32 := win0_2.stage (cfg0.slots t 2)
abbrev hs0_2 (t : Fin cfg0.N) : (ms0_2 t).IsWhole := hstage0_2 ((cfg0.slots t 2).cast nbuf0_2)
/-- The accumulator: a whole buffer of the kernel's own. -/
abbrev scM0_0 : Memref sig .tc .vmem S4x256 .f32 := Memref.whole cc0_scratch0
abbrev VS0_0 : View sig .tc .vmem S4x256 .f32 := scM0_0.view
abbrev VO0_2 : View sig .tc .vmem S1x3x256 .f32 := (Memref.whole cc0_stg2_0 : Memref sig .tc .vmem S1x3x256 .f32).view

/-- The other buffers the region holds and the body never touches (the second kernel's staging buffers), each at some contents. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The loop reads a tile's pixels through the tile buffer with its unit image axis dropped, and the labels likewise:
    the same buffers, the same elements. -/
def mvv12 (arg2 : Memref sig .tc .vmem S1x3x32768 .f32) : Memref sig .tc .vmem S3x32768 .f32 :=
  (arg2.slice (Rect.unit (s := S1x3x32768) ![0, 0, 0] S1x3x32768.size inb_S1x3x32768_S1x3x32768_0_0_0) (fun _ => rfl)).squeeze S3x32768 squeezes_S1x3x32768_S3x32768
def mvv20 (arg3 : Memref sig .tc .vmem S1x1x32768 .i32) : Memref sig .tc .vmem S1x32768 .i32 :=
  (arg3.slice (Rect.unit (s := S1x1x32768) ![0, 0, 0] S1x1x32768.size inb_S1x1x32768_S1x1x32768_0_0_0) (fun _ => rfl)).squeeze S1x32768 squeezes_S1x1x32768_S1x32768

theorem set12 (arg2 : Memref sig .tc .vmem S1x3x32768 .f32) : (mvv12 arg2).view.set = arg2.view.set := by
  unfold mvv12
  rw [Memref.set_view_squeeze]
  show (arg2.view.slice _).set = _
  rw [View.set_slice, Finset.eq_univ_iff_forall.mpr (fun y => View.mem_set_unit_zero (S := S1x3x32768) (by funext a; fin_cases a <;> rfl) inb_S1x3x32768_S1x3x32768_0_0_0 y)]
  rfl
theorem set20 (arg3 : Memref sig .tc .vmem S1x1x32768 .i32) : (mvv20 arg3).view.set = arg3.view.set := by
  unfold mvv20
  rw [Memref.set_view_squeeze]
  show (arg3.view.slice _).set = _
  rw [View.set_slice, Finset.eq_univ_iff_forall.mpr (fun y => View.mem_set_unit_zero (S := S1x1x32768) (by funext a; fin_cases a <;> rfl) inb_S1x1x32768_S1x1x32768_0_0_0 y)]
  rfl

/-- Holding the tile buffer is holding it through that view. -/
theorem pt12 (c : Dev nD) (arg2 : Memref sig .tc .vmem S1x3x32768 .f32) (f : BufTy.Contents (Elt F) arg2.view.ty) :
    (arg2.view.loc (c : Thread nD τ) ↦[arg2.view.set]{fullShare} f : sProp 𝕄)
      = ((mvv12 arg2).view.loc (c : Thread nD τ) ↦[(mvv12 arg2).view.set]{fullShare} f) := by
  rw [set12]; first | done | rfl
theorem pt20 (c : Dev nD) (arg3 : Memref sig .tc .vmem S1x1x32768 .i32) (f : BufTy.Contents (Elt F) arg3.view.ty) :
    (arg3.view.loc (c : Thread nD τ) ↦[arg3.view.set]{fullShare} f : sProp 𝕄)
      = ((mvv20 arg3).view.loc (c : Thread nD τ) ↦[(mvv20 arg3).view.set]{fullShare} f) := by
  rw [set20]; first | done | rfl

/-- What the region hands the body besides the windows: the accumulator at some contents, those other buffers, the generator register. -/
theorem PhiA0_eq (c : Dev nD) :
    (Pipeline.ΦA spec0 c : sProp 𝕄)
      = iprop(iprop((∃ d, owns (c : Thread nD τ) scM0_0 fullShare d) ∗ others c) ∗ (∃ r, prngReg c r)) := by
  unfold Pipeline.ΦA; rw [scopedRest0_eq]; simp only [scM0_0, owns_whole]; try rfl

end Cert.Kernel.R0

end
-- ==== Proof.K.R0Runs.lean ====
/-
  The first kernel's body run once per kind of point, on any whole buffers: the inputs' buffers at given contents come
  back as they were; the accumulator ends with the pieces the run's stores leave in it (at a first tile over anything,
  otherwise over what the tile before left); the output's buffer is handed back untouched except at a last tile, where
  it ends with the one piece the body stores. The four chunks of a tile go through the counted loop by its invariant.
-/
import proofs.«410070_j4063039062509_3_alg».proof.Proof.Gen.Kernel.Launch
import proofs.«410070_j4063039062509_3_alg».proof.Proof.Gen.Kernel.Skeleton
import proofs.«410070_j4063039062509_3_alg».proof.Proof.Gen.Kernel.Points
import proofs.«410070_j4063039062509_3_alg».proof.Proof.Gen.Kernel.Loops
import proofs.«410070_j4063039062509_3_alg».proof.Proof.K.R0Conds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first tile: the accumulator is cleared, then the tile's chunks are added. -/
noncomputable def kernelRun0_A (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : cond0_0 i) (hc1 : ¬cond0_1 i)
    (x0 : Vec F S1x3x32768 .f32) (x1 : Vec F S1x1x32768 .i32) :
    { LS0 : List (View.Piece (Elt F) S4x256 .f32) //
      ∀ (xi2 : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__seg_mean_kernel i arg2 harg2 arg3 harg3 arg4 harg4 arg5 harg5) K } := by
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  refine ⟨?_, fun xi2 E K => ?run⟩
  case run =>
    simp only [cc0__seg_mean_kernel_eq_skeleton]; unfold cc0__seg_mean_kernel_skel
    unfold owns
    simp only [pt12 c arg2, pt20 c arg3]
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists arg5.view.junk; iexact HS0

set_option maxHeartbeats 4000000 in
/-- A middle tile: the tile's chunks are added to what the tile before left. -/
noncomputable def kernelRun0_B (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : ¬cond0_1 i)
    (x0 : Vec F S1x3x32768 .f32) (x1 : Vec F S1x1x32768 .i32) (xs0 : Vec F S4x256 .f32) :
    { LS0 : List (View.Piece (Elt F) S4x256 .f32) //
      ∀ (xi2 : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__seg_mean_kernel i arg2 harg2 arg3 harg3 arg4 harg4 arg5 harg5) K } := by
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  refine ⟨?_, fun xi2 E K => ?run⟩
  case run =>
    simp only [cc0__seg_mean_kernel_eq_skeleton]; unfold cc0__seg_mean_kernel_skel
    unfold owns
    simp only [pt12 c arg2, pt20 c arg3]
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists (harg5.unread xs0); iexact HS0

set_option maxHeartbeats 4000000 in
/-- A last tile: the tile's chunks are added, then the sums are divided by the clamped counts and stored. -/
noncomputable def kernelRun0_C (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) :
    Σ' (L2 : List (View.Piece (Elt F) S1x3x256 .f32)), { LS0 : List (View.Piece (Elt F) S4x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__seg_mean_kernel i arg2 harg2 arg3 harg3 arg4 harg4 arg5 harg5) K } := by
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  refine ⟨?_, ?_, fun E K => ?run⟩
  case run =>
    simp only [cc0__seg_mean_kernel_eq_skeleton]; unfold cc0__seg_mean_kernel_skel
    unfold owns
    simp only [pt12 c arg2, pt20 c arg3]
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists (harg5.unread xs0); iexact HS0

end Cert.Kernel.R0

end
-- ==== Proof.K.R0.lean ====
/-
  The first kernel region at its entry contents. A grid point is tile t % 8 of image t / 8. What the accumulator holds
  after each point is defined by recursion on the point: a first tile starts from a cleared accumulator, every other
  tile adds to what the tile before left; what the output window's buffer holds after an image's last tile is the
  block of means the body stores there, and at the other points the buffer rests. From these: the region's proof
  data, the invariant that carries the accumulator from point to point, and the body obligation at every point —
  stated at a parameter V (the contents the region is entered with) and at any float instance.
-/
import proofs.«410070_j4063039062509_3_alg».proof.Proof.K.R0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pixel window's current buffer holds its block at every point: it is fetched at every point, and the body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the label window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each kind of point leaves in the accumulator and in the output window's buffer -/

/-- At a first or a middle tile nothing is stored into the output window's buffer, and nothing reads it before the
    image's last tile stores all of it: a placeholder nothing consults. -/
def out0_rest_2 : Vec F S1x3x256 .f32 := VO0_2.read (Elt F) VO0_2.junk

/-- A first tile's stores into the accumulator cover it. -/
theorem scover0_A_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : cond0_0 i) (hc1 : ¬cond0_1 i)
    (x0 : Vec F S1x3x32768 .f32) (x1 : Vec F S1x1x32768 .i32) (y : S4x256.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S4x256.size (by sl_kernel_rfl) y

/-- What a first tile leaves in the accumulator: its stores read back. -/
def sout0_A_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : cond0_0 i) (hc1 : ¬cond0_1 i)
    (x0 : Vec F S1x3x32768 .f32) (x1 : Vec F S1x1x32768 .i32) : Vec F S4x256 .f32 :=
  VS0_0.read (Elt F) (VS0_0.writes (Elt F) VS0_0.junk (kernelRun0_A c i arg2 harg2 arg3 harg3 arg4 harg4 arg5 harg5 hc0 hc1 x0 x1).1)

/-- A middle tile's stores into the accumulator cover it. -/
theorem scover0_B_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : ¬cond0_1 i)
    (x0 : Vec F S1x3x32768 .f32) (x1 : Vec F S1x1x32768 .i32) (xs0 : Vec F S4x256 .f32) (y : S4x256.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S4x256.size (by sl_kernel_rfl) y

/-- What a middle tile leaves in the accumulator, over what the tile before left (xs0). -/
def sout0_B_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : ¬cond0_1 i)
    (x0 : Vec F S1x3x32768 .f32) (x1 : Vec F S1x1x32768 .i32) (xs0 : Vec F S4x256 .f32) : Vec F S4x256 .f32 :=
  VS0_0.read (Elt F) (VS0_0.writes (Elt F) VS0_0.junk (kernelRun0_B c i arg2 harg2 arg3 harg3 arg4 harg4 arg5 harg5 hc0 hc1 x0 x1 xs0).1)

/-- A last tile's one store into the output window's buffer covers it. -/
theorem cover0_C_2 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) (y : S1x3x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x3x256.size (by sl_kernel_rfl) y

/-- What a last tile leaves in the output window's buffer: the image's block of means. -/
def out0_C_2 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) : Vec F S1x3x256 .f32 :=
  VO0_2.read (Elt F) (VO0_2.writes (Elt F) VO0_2.junk (kernelRun0_C c i arg2 harg2 arg3 harg3 arg4 harg4 arg5 harg5 hc0 hc1 x0 x1 xs0).1)

/-- A last tile's stores into the accumulator cover it. -/
theorem scover0_C_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) (y : S4x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4x256.size (by sl_kernel_rfl) y

/-- What a last tile leaves in the accumulator, over what the tile before left (xs0). -/
def sout0_C_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) : Vec F S4x256 .f32 :=
  VS0_0.read (Elt F) (VS0_0.writes (Elt F) VS0_0.junk (kernelRun0_C c i arg2 harg2 arg3 harg3 arg4 harg4 arg5 harg5 hc0 hc1 x0 x1 xs0).2.1)

/-! ## What the output window's buffer and the accumulator hold after each point -/

/-- THE ACCUMULATION. What the output window's buffer and the accumulator hold after the body at position n: the kind of
    point the closed forms select at n (first tile: n ≡ 0, last tile: n ≡ 7 (mod 8), else a middle tile), run at the
    point's buffers and input blocks, a middle or last tile over what position n - 1 left in the accumulator. A point
    cannot be both first and last. -/
def outsAt0 (c : Dev nD) : (n : ℕ) → n < cfg0.N → Vec F S1x3x256 .f32 × Vec F S4x256 .f32
  | 0, hn => (out0_rest_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_rest_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_rest_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first tile: that kind's contents. -/
theorem outsAt0_A (c : Dev nD) (t : Fin cfg0.N) (h0 : t.val % 8 = 0) (h1 : ¬t.val % 8 = 7) :
    outsAt0 V c t.val t.isLt = (out0_rest_2, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle tile: that kind's contents, over what the point before left. -/
theorem outsAt0_B (c : Dev nD) (t : Fin cfg0.N) (h0 : ¬t.val % 8 = 0) (h1 : ¬t.val % 8 = 7) :
    outsAt0 V c t.val t.isLt = (out0_rest_2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: that kind's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region (the accumulator
    at anything); afterwards the accumulator at what the point before left in it, the other buffers, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others c) ∗ (∃ r, prngReg c r))

theorem PhiS_zero (c : Dev nD) (n : ℕ) (h : n ≤ cfg0.N) (hz : n = 0) : PhiS V c n h = Pipeline.ΦA spec0 c := by
  subst hz; rfl

/-- After point n (before point n + 1): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ others c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others c) ∗ (∃ r, prngReg c r)) := by
  cases n with
  | zero => exact absurd rfl hz
  | succ n => rfl

/-! ## The pipeline's proof data -/

/-- The proof data of the region on core c: the arrays as the region finds them; after the body at point t each input's
    buffer at its block and the output's at outsAt0's first component; the invariant PhiS; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which kind the point is; the
    invariant hands the body the accumulator at what the point before left (at anything at the first point) and takes it
    back at this point's contents, the stores covering it; the other buffers and the generator register pass through
    unread; at a first or middle tile the resting output buffer is handed back as it was found, at a last tile it comes
    back at the one store that covers it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 512 := lt_of_lt_of_eq t.isLt (show cfg0.N = 512 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _)
            iexact Hoth
          iexact Hg
        isplitl [Ho]; · iexact Ho
        isplitl [H0]; · iexact H0
        isplitl [H1]; · iexact H1
        iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 512 := N_0; omega)

end Cert.Kernel.R0

end
-- ==== Proof.K.R1.lean ====
/-
  The second kernel region at its entry contents: what each window's staging buffer holds at a grid point, what
  the body leaves in the output window's buffer as a function of the five input blocks, the body's triple, and
  the body obligation at every point — stated at a parameter V (the contents the region is entered with) and at
  any float instance.
-/
import proofs.«410070_j4063039062509_3_alg».proof.Proof.Gen.Kernel.Launch
import proofs.«410070_j4063039062509_3_alg».proof.Proof.Gen.Kernel.Skeleton
import proofs.«410070_j4063039062509_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of window 1, whose one block is fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same of window 4. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole-block rectangle per window -/

abbrev r1_0 : Rect S1x3x256 := Rect.unit (s := S1x3x256) ![0, 0, 0] S1x3x256.size inb_S1x3x256_S1x3x256_0_0_0
abbrev r1_1 : Rect S3x768 := Rect.unit (s := S3x768) ![0, 0] S3x768.size inb_S3x768_S3x768_0_0
abbrev r1_2 : Rect S1x768 := Rect.unit (s := S1x768) ![0, 0] S1x768.size inb_S1x768_S1x768_0_0
abbrev r1_3 : Rect S768x768 := Rect.unit (s := S768x768) ![0, 0] S768x768.size inb_S768x768_S768x768_0_0
abbrev r1_4 : Rect S1x768 := Rect.unit (s := S1x768) ![0, 0] S1x768.size inb_S1x768_S1x768_0_0
abbrev r1_5 : Rect S1x256x768 := Rect.unit (s := S1x256x768) ![0, 0, 0] S1x256x768.size inb_S1x256x768_S1x256x768_0_0_0

/-! ## What the body leaves in the output window's buffer -/

/-- Window 5's staging buffer after the body, from the five input windows' blocks: its one store, the payload of
    the blocks as the loads read them. -/
def out1_5 (x0 : Vec F S1x3x256 .f32) (x1 : Vec F S3x768 .f32) (x2 : Vec F S1x768 .f32) (x3 : Vec F S768x768 .f32)
    (x4 : Vec F S1x768 .f32) : Vec F S1x256x768 .f32 :=
  View.canon [⟨r1_5, k1_pay1 (View.ld x0 r1_0) (View.ld x1 r1_1) (View.ld x2 r1_2) (View.ld x3 r1_3) (View.ld x4 r1_4)⟩]

/-- The one store is the whole block, so it covers the buffer. -/
theorem cover1_5 (p0 : Vec F S1x256x768 .f32) (y : S1x256x768.Idx) :
    ∃ pc ∈ ([⟨r1_5, p0⟩] : List (View.Piece (Elt F) S1x256x768 .f32)), y ∈ pc.1.set :=
  View.cover_of_tiled [⟨r1_5, p0⟩] S1x256x768.size (by rfl) y

/-! ## The body's triple -/

set_option maxHeartbeats 1000000 in
/-- The kernel body on whole staging memrefs, the inputs' at read contents xW and the output's at anything, runs to
    the continuation holding the inputs' as they were and the output's at out1_5 of the inputs'. -/
theorem sound_kernel1 (c : Dev nD) (E : Set ℕ) (i : grid1.Coords)
    (arg1 : Memref sig .tc .vmem S1x3x256 .f32) (harg1 : arg1.IsWhole)
    (arg2 : Memref sig .tc .vmem S3x768 .f32) (harg2 : arg2.IsWhole)
    (arg3 : Memref sig .tc .vmem S1x768 .f32) (harg3 : arg3.IsWhole)
    (arg4 : Memref sig .tc .vmem S768x768 .f32) (harg4 : arg4.IsWhole)
    (arg5 : Memref sig .tc .vmem S1x768 .f32) (harg5 : arg5.IsWhole)
    (arg6 : Memref sig .tc .vmem S1x256x768 .f32) (harg6 : arg6.IsWhole)
    (x0 : Vec F S1x3x256 .f32) (x1 : Vec F S3x768 .f32) (x2 : Vec F S1x768 .f32) (x3 : Vec F S768x768 .f32)
    (x4 : Vec F S1x768 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__gcn_kernel i arg1 harg1 arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region on core c: the arrays as the region finds them; after the body at point t each
    input's buffer at its block and the output's at out1_5 of the input blocks; the invariant the untouched scoped
    rest and generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.K.Launch.lean ====
/-
  The program's launch: @main is two host stretches of reshapes, each followed by a kernel region. Between two items
  a core holds every unscoped buffer whole at a known valuation: the launch memory, then after each stretch what its
  reshapes write, then after each region the region's output array at what its pipeline's write-backs leave and every
  other buffer as entered. Each region is entered by splitting its windows' arrays out of the unscoped buffers and left
  by putting them back at the exit valuation; the generator register goes into the region's invariant and comes back;
  nothing is owed. The run then ends with the result array `main_v5` at what region 1 leaves and every argument as
  launched.
-/
import proofs.«410070_j4063039062509_3_alg».proof.Proof.K.RegionsVal
import proofs.«410070_j4063039062509_3_alg».proof.Proof.K.R0
import proofs.«410070_j4063039062509_3_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries, and what the two regions leave -/

/-- Region 0's entry contents: the launch memory after the first two reshapes, read at a core's own references. -/
abbrev Va1 (c : Dev nD) (b : Ref sig .tc) : Buf (Elt F) ((c : Thread nD τ).loc b) := V1 m c b

/-- What region 0 leaves in `main_v2`: its output array after the write-backs of all its points. -/
def o2 (c : Dev nD) : Buf (Elt F) ((c : Thread nD τ).loc main_v2) := (R0.dat0 (Va1 m) c).arrAt 2 cfg0.N

/-- The contents after the two reshapes that follow region 0: the entry contents with `main_v2` at what region 0
    leaves, then the reshapes. -/
abbrev W3 (c : Dev nD) : Valuation τ sig (Elt F) := StableHlo.after hostOps1 (Function.update (V1 m c) main_v2 (o2 m c))

/-- Region 1's entry contents, read at a core's own references. -/
abbrev Va3 (c : Dev nD) (b : Ref sig .tc) : Buf (Elt F) ((c : Thread nD τ).loc b) := W3 m c b

/-- What region 1 leaves in `main_v5`, the result array. -/
def o5 (c : Dev nD) : Buf (Elt F) ((c : Thread nD τ).loc main_v5) := (R1.dat1 (Va3 m) c).arrAt 5 cfg1.N

/-- What the regions leave in the buffers they may change: `main_v2` after region 0, `main_v5` after region 1; any
    other reference (never read) at the launch memory. -/
def outs : Outs (F := F) := fun J r c =>
  if h : r = main_v2 then h ▸ o2 m c else if h' : r = main_v5 then h' ▸ o5 m c else m ((c : Thread nD τ).loc r)

theorem outs_v2 (c : Dev nD) : outs m 2 main_v2 c = o2 m c := by
  unfold outs; rw [dif_pos rfl]

theorem outs_v5 (c : Dev nD) : outs m 4 main_v5 c = o5 m c := by
  unfold outs; rw [dif_neg (by decide), dif_pos rfl]

/-- The valuation before region 1, written over `outs`, is the one built from `o2` directly. -/
theorem V3_eq (c : Dev nD) : V3 m (outs m) c = W3 m c := by
  show StableHlo.after hostOps1 (Function.update (V1 m c) main_v2 (outs m 2 main_v2 c)) = _
  rw [outs_v2]

/-- After region 0, `main_v2` holds what the region leaves there. -/
theorem V2_v2 (c : Dev nD) : V2 m (outs m) c main_v2 = o2 m c := by
  show Function.update (V1 m c) main_v2 (outs m 2 main_v2 c) main_v2 = _
  rw [Function.update_self, outs_v2]

/-- After region 1, `main_v5` holds what the region leaves there. -/
theorem V4_v5 (c : Dev nD) : V4 m (outs m) c main_v5 = o5 m c := by
  show Function.update (V3 m (outs m) c) main_v5 (outs m 4 main_v5 c) main_v5 = _
  rw [Function.update_self, outs_v5]

/-- The contents after region 0 and after region 1, read at a core's own references. -/
abbrev Va2 (c : Dev nD) (b : Ref sig .tc) : Buf (Elt F) ((c : Thread nD τ).loc b) := V2 m (outs m) c b
abbrev Va4 (c : Dev nD) (b : Ref sig .tc) : Buf (Elt F) ((c : Thread nD τ).loc b) := V4 m (outs m) c b

/-- At region 0's exit each of its arrays holds what the pipeline leaves: the two inputs as entered, the output at
    `o2`. -/
theorem hF0 (c : Dev nD) (w : Fin cfg0.W) : (R0.dat0 (Va1 m) c).arrAt w cfg0.N = Va2 m c (Pipeline.arrRef spec0 w) := by
  match w with
  | ⟨0, _⟩ => exact ((R0.dat0 (Va1 m) c).arrAt_in 0 rfl _).trans ((R0.A_eq0 (Va1 m) c 0).trans (V2_of m (outs m) c main_v0 (by decide)).symm)
  | ⟨1, _⟩ => exact ((R0.dat0 (Va1 m) c).arrAt_in 1 rfl _).trans ((R0.A_eq0 (Va1 m) c 1).trans (V2_of m (outs m) c main_v1 (by decide)).symm)
  | ⟨2, _⟩ => exact (V2_v2 m c).symm

/-- Every other buffer is as entered. -/
theorem hrest0 (c : Dev nD) : ∀ b, b ∉ Finset.univ.image (Pipeline.arrRef spec0) → Va2 m c b = Va1 m c b :=
  fun b hb => V2_of m (outs m) c b fun h => hb (Finset.mem_image.mpr ⟨2, Finset.mem_univ _, by
    rw [List.mem_singleton] at h; subst h; rfl⟩)

/-- At region 1's exit each of its arrays holds what the pipeline leaves: the five inputs as entered, the output at
    `o5`. -/
theorem hF1 (c : Dev nD) (w : Fin cfg1.W) : (R1.dat1 (Va3 m) c).arrAt w cfg1.N = Va4 m c (Pipeline.arrRef spec1 w) := by
  have e3 : ∀ r : Ref sig .tc, r ∉ ([main_v5] : List (Ref sig .tc)) → Va4 m c r = Va3 m c r := fun r hr =>
    (V4_of m (outs m) c r hr).trans (congrFun (V3_eq m c) r)
  match w with
  | ⟨0, _⟩ => exact ((R1.dat1 (Va3 m) c).arrAt_in 0 rfl _).trans ((R1.A_eq1 (Va3 m) c 0).trans (e3 main_v2 (by decide)).symm)
  | ⟨1, _⟩ => exact ((R1.dat1 (Va3 m) c).arrAt_in 1 rfl _).trans ((R1.A_eq1 (Va3 m) c 1).trans (e3 main_arg2 (by decide)).symm)
  | ⟨2, _⟩ => exact ((R1.dat1 (Va3 m) c).arrAt_in 2 rfl _).trans ((R1.A_eq1 (Va3 m) c 2).trans (e3 main_v3 (by decide)).symm)
  | ⟨3, _⟩ => exact ((R1.dat1 (Va3 m) c).arrAt_in 3 rfl _).trans ((R1.A_eq1 (Va3 m) c 3).trans (e3 main_arg4 (by decide)).symm)
  | ⟨4, _⟩ => exact ((R1.dat1 (Va3 m) c).arrAt_in 4 rfl _).trans ((R1.A_eq1 (Va3 m) c 4).trans (e3 main_v4 (by decide)).symm)
  | ⟨5, _⟩ => exact (V4_v5 m c).symm

/-- Every other buffer is as entered. -/
theorem hrest1 (c : Dev nD) : ∀ b, b ∉ Finset.univ.image (Pipeline.arrRef spec1) → Va4 m c b = Va3 m c b :=
  fun b hb => (V4_of m (outs m) c b fun h => hb (Finset.mem_image.mpr ⟨5, Finset.mem_univ _, by
    rw [List.mem_singleton] at h; subst h; rfl⟩)).trans (congrFun (V3_eq m c) b)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (Va1 m) c
  | ⟨1, _⟩ => fun c => R1.dat1 (Va3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev Rr (c : Dev nD) : sProp 𝕄 := iprop((∃ r, prngReg c r) ∗ ∃ W, owes (c : Thread nD τ) (0 : CellTallies nD τ sig Unit) W)
/-- The same beside every boundary's contents. -/
abbrev E : Fin 3 → Dev nD → sProp 𝕄 := fun _ c => Rr c

/-! ## The regions as segments -/

set_option backward.isDefEq.respectTransparency.types false in
/-- Region 0 over the thread state: entered with every unscoped buffer at the valuation before it, left with them at the
    valuation after it. Its three arrays are split out of the unscoped buffers and put back at the exit contents; the
    generator register and the scratch buffer go into its invariant and come back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Va1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Va1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va1 m c) fun w => R0.A_eq0 (Va1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (Va1 m) c)
    unfold Pipeline.ΦA
    iintro ⟨Hp, -, Hr⟩
    isplitl [Hr]; · iexact Hr
    iexact Hp
  hout c := by
    rw [Pipeline.ownSems0_none]
    refine (R0.hout0 (Va1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va1 m c) (Va2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state, likewise: its six arrays split out and put back, the generator register into its
    invariant and back, nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (Va3 m) c).loose
  hwaits := Pipeline.hwaits_of_owed_zero _ _ _ _ L lv 1 fun _ _ => rfl
  pre c := iprop(StableHlo.held (c : Thread nD τ) (Pipeline.ucRefs τ sig) (V3 m (outs m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Va3 m c)
  hentry c := by
    rw [Pipeline.ownSems0_none]
    rw [V3_eq m c]
    have hsplit := Pipeline.arrays_of_unscopedBufs (p := 1) (pcfgs (F := F)) adm (pdats m) launch1.win launch1.arr_whole c
      ((pdats m 1 c).share_full fun _ => rfl) (Va3 m c) fun w => R1.A_eq1 (Va3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Va3 m c) (Va4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- Every weakly fair execution of @main from memory `m` with zero counters terminates; every final memory holds in
    `main_v5` what region 1 leaves there, and each argument as launched. -/
theorem run_main : θ_run defs (onTc (τ := τ) (main (F := F))) ⟨m, fun _ => 0, ρ⟩ (fun r => ∀ c : Dev nD,
      r.2.mem ((c.tc : Thread nD τ).loc main_v5) = o5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨((h c).1).trans (V4_v5 m c), (h c).2⟩)
    (GenV.run_cond m (EP := emb₁) (ι := ()) (𝒱₀ := 𝒱₀) (L := L) (lv := lv) (hL := fun _ _ => rfl) (ρ := ρ) (outs := outs m)
      (pdats := pdats m) (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := E)
      (hE0 := by
        refine Pipeline.initEach L lv fun c => ?_
        iintro ⟨⟨-, HO, -, Hp, -⟩, -⟩
        imodintro
        isplitl [Hp]; · iexists _; iexact Hp
        iexists ∅; iexact HO)
      (hE2 := fun c => by
        iintro ⟨-, HO⟩
        iexact HO)
      (R0 := reg0 m) (hpre0 := fun _ => .rfl) (hpost0 := fun _ => .rfl)
      (R1 := reg1 m) (hpre1 := fun _ => .rfl) (hpost1 := fun _ => .rfl))

/-- The frame claim: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_main m ρ)

end Cert.Kernel.Launch

end
-- ==== Proof.KI.R0Conds.lean ====
/-
  The first kernel's grid is 64 images × 8 pixel tiles, the tile the inner axis: point t is tile t % 8 of image
  t / 8. The body clears its accumulator at an image's first tile, adds the tile's four chunks, and at the image's
  last tile divides the sums by the clamped counts and stores the image's block of means. So a point is of one of
  three kinds: first tile (clear, accumulate), middle tile (accumulate), last tile (accumulate, store): the closed
  forms of the two branch conditions over the grid, where the output window rests, and the names of the buffers the
  body is called with.
-/
import proofs.«410070_j4063039062509_3_alg».proof.Proof.Gen.KernelIdeal.Launch
import proofs.«410070_j4063039062509_3_alg».proof.Proof.Gen.KernelIdeal.Skeleton
import proofs.«410070_j4063039062509_3_alg».proof.Proof.Gen.KernelIdeal.Points
import proofs.«410070_j4063039062509_3_alg».proof.Proof.Gen.KernelIdeal.Loops
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears the accumulator: the tile coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body stores the means: the tile coordinate is the last. -/
abbrev cond0_1 (i : grid0.Coords) : Prop := k0_cond2 i = 1#1
/-- That is at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows never rest. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output window rests, and is not written back, at every point but an image's last tile. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At an image's last tile it is stored into. -/
theorem liveAt0_2 : ∀ t : Fin cfg0.N, cond0_1 (grid0.coords t) → cfg0.idle 2 (grid0.coords t) = false := by decide +kernel

/-- Each window's current buffer at point t, as the body is called with it. -/
abbrev ms0_0 (t : Fin cfg0.N) : Memref sig .tc .vmem S1x3x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x256 .f32 := win0_2.stage (cfg0.slots t 2)
abbrev hs0_2 (t : Fin cfg0.N) : (ms0_2 t).IsWhole := hstage0_2 ((cfg0.slots t 2).cast nbuf0_2)
/-- The accumulator: a whole buffer of the kernel's own. -/
abbrev scM0_0 : Memref sig .tc .vmem S4x256 .f32 := Memref.whole cc0_scratch0
abbrev VS0_0 : View sig .tc .vmem S4x256 .f32 := scM0_0.view
abbrev VO0_2 : View sig .tc .vmem S1x3x256 .f32 := (Memref.whole cc0_stg2_0 : Memref sig .tc .vmem S1x3x256 .f32).view

/-- The other buffers the region holds and the body never touches (the second kernel's staging buffers), each at some contents. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The loop reads a tile's pixels through the tile buffer with its unit image axis dropped, and the labels likewise:
    the same buffers, the same elements. -/
def mvv12 (arg2 : Memref sig .tc .vmem S1x3x32768 .f32) : Memref sig .tc .vmem S3x32768 .f32 :=
  (arg2.slice (Rect.unit (s := S1x3x32768) ![0, 0, 0] S1x3x32768.size inb_S1x3x32768_S1x3x32768_0_0_0) (fun _ => rfl)).squeeze S3x32768 squeezes_S1x3x32768_S3x32768
def mvv20 (arg3 : Memref sig .tc .vmem S1x1x32768 .i32) : Memref sig .tc .vmem S1x32768 .i32 :=
  (arg3.slice (Rect.unit (s := S1x1x32768) ![0, 0, 0] S1x1x32768.size inb_S1x1x32768_S1x1x32768_0_0_0) (fun _ => rfl)).squeeze S1x32768 squeezes_S1x1x32768_S1x32768

theorem set12 (arg2 : Memref sig .tc .vmem S1x3x32768 .f32) : (mvv12 arg2).view.set = arg2.view.set := by
  unfold mvv12
  rw [Memref.set_view_squeeze]
  show (arg2.view.slice _).set = _
  rw [View.set_slice, Finset.eq_univ_iff_forall.mpr (fun y => View.mem_set_unit_zero (S := S1x3x32768) (by funext a; fin_cases a <;> rfl) inb_S1x3x32768_S1x3x32768_0_0_0 y)]
  rfl
theorem set20 (arg3 : Memref sig .tc .vmem S1x1x32768 .i32) : (mvv20 arg3).view.set = arg3.view.set := by
  unfold mvv20
  rw [Memref.set_view_squeeze]
  show (arg3.view.slice _).set = _
  rw [View.set_slice, Finset.eq_univ_iff_forall.mpr (fun y => View.mem_set_unit_zero (S := S1x1x32768) (by funext a; fin_cases a <;> rfl) inb_S1x1x32768_S1x1x32768_0_0_0 y)]
  rfl

/-- Holding the tile buffer is holding it through that view. -/
theorem pt12 (c : Dev nD) (arg2 : Memref sig .tc .vmem S1x3x32768 .f32) (f : BufTy.Contents (Elt F) arg2.view.ty) :
    (arg2.view.loc (c : Thread nD τ) ↦[arg2.view.set]{fullShare} f : sProp 𝕄)
      = ((mvv12 arg2).view.loc (c : Thread nD τ) ↦[(mvv12 arg2).view.set]{fullShare} f) := by
  rw [set12]; first | done | rfl
theorem pt20 (c : Dev nD) (arg3 : Memref sig .tc .vmem S1x1x32768 .i32) (f : BufTy.Contents (Elt F) arg3.view.ty) :
    (arg3.view.loc (c : Thread nD τ) ↦[arg3.view.set]{fullShare} f : sProp 𝕄)
      = ((mvv20 arg3).view.loc (c : Thread nD τ) ↦[(mvv20 arg3).view.set]{fullShare} f) := by
  rw [set20]; first | done | rfl

/-- What the region hands the body besides the windows: the accumulator at some contents, those other buffers, the generator register. -/
theorem PhiA0_eq (c : Dev nD) :
    (Pipeline.ΦA spec0 c : sProp 𝕄)
      = iprop(iprop((∃ d, owns (c : Thread nD τ) scM0_0 fullShare d) ∗ others c) ∗ (∃ r, prngReg c r)) := by
  unfold Pipeline.ΦA; rw [scopedRest0_eq]; simp only [scM0_0, owns_whole]; try rfl

end Cert.KernelIdeal.R0

end
-- ==== Proof.KI.R0Runs.lean ====
/-
  The first kernel's body run once per kind of point, on any whole buffers: the inputs' buffers at given contents come
  back as they were; the accumulator ends with the pieces the run's stores leave in it (at a first tile over anything,
  otherwise over what the tile before left); the output's buffer is handed back untouched except at a last tile, where
  it ends with the one piece the body stores. The four chunks of a tile go through the counted loop by its invariant.
-/
import proofs.«410070_j4063039062509_3_alg».proof.Proof.Gen.KernelIdeal.Launch
import proofs.«410070_j4063039062509_3_alg».proof.Proof.Gen.KernelIdeal.Skeleton
import proofs.«410070_j4063039062509_3_alg».proof.Proof.Gen.KernelIdeal.Points
import proofs.«410070_j4063039062509_3_alg».proof.Proof.Gen.KernelIdeal.Loops
import proofs.«410070_j4063039062509_3_alg».proof.Proof.KI.R0Conds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first tile: the accumulator is cleared, then the tile's chunks are added. -/
noncomputable def kernelRun0_A (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : cond0_0 i) (hc1 : ¬cond0_1 i)
    (x0 : Vec F S1x3x32768 .f32) (x1 : Vec F S1x1x32768 .i32) :
    { LS0 : List (View.Piece (Elt F) S4x256 .f32) //
      ∀ (xi2 : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__seg_mean_kernel i arg2 harg2 arg3 harg3 arg4 harg4 arg5 harg5) K } := by
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  refine ⟨?_, fun xi2 E K => ?run⟩
  case run =>
    simp only [cc0__seg_mean_kernel_eq_skeleton]; unfold cc0__seg_mean_kernel_skel
    unfold owns
    simp only [pt12 c arg2, pt20 c arg3]
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists arg5.view.junk; iexact HS0

set_option maxHeartbeats 4000000 in
/-- A middle tile: the tile's chunks are added to what the tile before left. -/
noncomputable def kernelRun0_B (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : ¬cond0_1 i)
    (x0 : Vec F S1x3x32768 .f32) (x1 : Vec F S1x1x32768 .i32) (xs0 : Vec F S4x256 .f32) :
    { LS0 : List (View.Piece (Elt F) S4x256 .f32) //
      ∀ (xi2 : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__seg_mean_kernel i arg2 harg2 arg3 harg3 arg4 harg4 arg5 harg5) K } := by
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  refine ⟨?_, fun xi2 E K => ?run⟩
  case run =>
    simp only [cc0__seg_mean_kernel_eq_skeleton]; unfold cc0__seg_mean_kernel_skel
    unfold owns
    simp only [pt12 c arg2, pt20 c arg3]
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists (harg5.unread xs0); iexact HS0

set_option maxHeartbeats 4000000 in
/-- A last tile: the tile's chunks are added, then the sums are divided by the clamped counts and stored. -/
noncomputable def kernelRun0_C (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) :
    Σ' (L2 : List (View.Piece (Elt F) S1x3x256 .f32)), { LS0 : List (View.Piece (Elt F) S4x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__seg_mean_kernel i arg2 harg2 arg3 harg3 arg4 harg4 arg5 harg5) K } := by
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  refine ⟨?_, ?_, fun E K => ?run⟩
  case run =>
    simp only [cc0__seg_mean_kernel_eq_skeleton]; unfold cc0__seg_mean_kernel_skel
    unfold owns
    simp only [pt12 c arg2, pt20 c arg3]
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists (harg5.unread xs0); iexact HS0

end Cert.KernelIdeal.R0

end
-- ==== Proof.KI.R0.lean ====
/-
  The first kernel region at its entry contents. A grid point is tile t % 8 of image t / 8. What the accumulator holds
  after each point is defined by recursion on the point: a first tile starts from a cleared accumulator, every other
  tile adds to what the tile before left; what the output window's buffer holds after an image's last tile is the
  block of means the body stores there, and at the other points the buffer rests. From these: the region's proof
  data, the invariant that carries the accumulator from point to point, and the body obligation at every point —
  stated at a parameter V (the contents the region is entered with) and at any float instance.
-/
import proofs.«410070_j4063039062509_3_alg».proof.Proof.KI.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pixel window's current buffer holds its block at every point: it is fetched at every point, and the body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the label window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each kind of point leaves in the accumulator and in the output window's buffer -/

/-- At a first or a middle tile nothing is stored into the output window's buffer, and nothing reads it before the
    image's last tile stores all of it: a placeholder nothing consults. -/
def out0_rest_2 : Vec F S1x3x256 .f32 := VO0_2.read (Elt F) VO0_2.junk

/-- A first tile's stores into the accumulator cover it. -/
theorem scover0_A_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : cond0_0 i) (hc1 : ¬cond0_1 i)
    (x0 : Vec F S1x3x32768 .f32) (x1 : Vec F S1x1x32768 .i32) (y : S4x256.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S4x256.size (by sl_kernel_rfl) y

/-- What a first tile leaves in the accumulator: its stores read back. -/
def sout0_A_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : cond0_0 i) (hc1 : ¬cond0_1 i)
    (x0 : Vec F S1x3x32768 .f32) (x1 : Vec F S1x1x32768 .i32) : Vec F S4x256 .f32 :=
  VS0_0.read (Elt F) (VS0_0.writes (Elt F) VS0_0.junk (kernelRun0_A c i arg2 harg2 arg3 harg3 arg4 harg4 arg5 harg5 hc0 hc1 x0 x1).1)

/-- A middle tile's stores into the accumulator cover it. -/
theorem scover0_B_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : ¬cond0_1 i)
    (x0 : Vec F S1x3x32768 .f32) (x1 : Vec F S1x1x32768 .i32) (xs0 : Vec F S4x256 .f32) (y : S4x256.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S4x256.size (by sl_kernel_rfl) y

/-- What a middle tile leaves in the accumulator, over what the tile before left (xs0). -/
def sout0_B_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : ¬cond0_1 i)
    (x0 : Vec F S1x3x32768 .f32) (x1 : Vec F S1x1x32768 .i32) (xs0 : Vec F S4x256 .f32) : Vec F S4x256 .f32 :=
  VS0_0.read (Elt F) (VS0_0.writes (Elt F) VS0_0.junk (kernelRun0_B c i arg2 harg2 arg3 harg3 arg4 harg4 arg5 harg5 hc0 hc1 x0 x1 xs0).1)

/-- A last tile's one store into the output window's buffer covers it. -/
theorem cover0_C_2 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) (y : S1x3x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x3x256.size (by sl_kernel_rfl) y

/-- What a last tile leaves in the output window's buffer: the image's block of means. -/
def out0_C_2 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) : Vec F S1x3x256 .f32 :=
  VO0_2.read (Elt F) (VO0_2.writes (Elt F) VO0_2.junk (kernelRun0_C c i arg2 harg2 arg3 harg3 arg4 harg4 arg5 harg5 hc0 hc1 x0 x1 xs0).1)

/-- A last tile's stores into the accumulator cover it. -/
theorem scover0_C_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) (y : S4x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4x256.size (by sl_kernel_rfl) y

/-- What a last tile leaves in the accumulator, over what the tile before left (xs0). -/
def sout0_C_0 (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) : Vec F S4x256 .f32 :=
  VS0_0.read (Elt F) (VS0_0.writes (Elt F) VS0_0.junk (kernelRun0_C c i arg2 harg2 arg3 harg3 arg4 harg4 arg5 harg5 hc0 hc1 x0 x1 xs0).2.1)

/-! ## What the output window's buffer and the accumulator hold after each point -/

/-- THE ACCUMULATION. What the output window's buffer and the accumulator hold after the body at position n: the kind of
    point the closed forms select at n (first tile: n ≡ 0, last tile: n ≡ 7 (mod 8), else a middle tile), run at the
    point's buffers and input blocks, a middle or last tile over what position n - 1 left in the accumulator. A point
    cannot be both first and last. -/
def outsAt0 (c : Dev nD) : (n : ℕ) → n < cfg0.N → Vec F S1x3x256 .f32 × Vec F S4x256 .f32
  | 0, hn => (out0_rest_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_rest_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_rest_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first tile: that kind's contents. -/
theorem outsAt0_A (c : Dev nD) (t : Fin cfg0.N) (h0 : t.val % 8 = 0) (h1 : ¬t.val % 8 = 7) :
    outsAt0 V c t.val t.isLt = (out0_rest_2, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle tile: that kind's contents, over what the point before left. -/
theorem outsAt0_B (c : Dev nD) (t : Fin cfg0.N) (h0 : ¬t.val % 8 = 0) (h1 : ¬t.val % 8 = 7) :
    outsAt0 V c t.val t.isLt = (out0_rest_2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: that kind's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region (the accumulator
    at anything); afterwards the accumulator at what the point before left in it, the other buffers, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others c) ∗ (∃ r, prngReg c r))

theorem PhiS_zero (c : Dev nD) (n : ℕ) (h : n ≤ cfg0.N) (hz : n = 0) : PhiS V c n h = Pipeline.ΦA spec0 c := by
  subst hz; rfl

/-- After point n (before point n + 1): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ others c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others c) ∗ (∃ r, prngReg c r)) := by
  cases n with
  | zero => exact absurd rfl hz
  | succ n => rfl

/-! ## The pipeline's proof data -/

/-- The proof data of the region on core c: the arrays as the region finds them; after the body at point t each input's
    buffer at its block and the output's at outsAt0's first component; the invariant PhiS; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which kind the point is; the
    invariant hands the body the accumulator at what the point before left (at anything at the first point) and takes it
    back at this point's contents, the stores covering it; the other buffers and the generator register pass through
    unread; at a first or middle tile the resting output buffer is handed back as it was found, at a last tile it comes
    back at the one store that covers it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 512 := lt_of_lt_of_eq t.isLt (show cfg0.N = 512 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _)
            iexact Hoth
          iexact Hg
        isplitl [Ho]; · iexact Ho
        isplitl [H0]; · iexact H0
        isplitl [H1]; · iexact H1
        iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 512 := N_0; omega)

end Cert.KernelIdeal.R0

end
-- ==== Proof.KI.R1.lean ====
/-
  The second kernel region at its entry contents: what each window's staging buffer holds at a grid point, what
  the body leaves in the output window's buffer as a function of the five input blocks, the body's triple, and
  the body obligation at every point — stated at a parameter V (the contents the region is entered with) and at
  any float instance.
-/
import proofs.«410070_j4063039062509_3_alg».proof.Proof.Gen.KernelIdeal.Launch
import proofs.«410070_j4063039062509_3_alg».proof.Proof.Gen.KernelIdeal.Skeleton
import proofs.«410070_j4063039062509_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of window 1, whose one block is fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same of window 4. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole-block rectangle per window -/

abbrev r1_0 : Rect S1x3x256 := Rect.unit (s := S1x3x256) ![0, 0, 0] S1x3x256.size inb_S1x3x256_S1x3x256_0_0_0
abbrev r1_1 : Rect S3x768 := Rect.unit (s := S3x768) ![0, 0] S3x768.size inb_S3x768_S3x768_0_0
abbrev r1_2 : Rect S1x768 := Rect.unit (s := S1x768) ![0, 0] S1x768.size inb_S1x768_S1x768_0_0
abbrev r1_3 : Rect S768x768 := Rect.unit (s := S768x768) ![0, 0] S768x768.size inb_S768x768_S768x768_0_0
abbrev r1_4 : Rect S1x768 := Rect.unit (s := S1x768) ![0, 0] S1x768.size inb_S1x768_S1x768_0_0
abbrev r1_5 : Rect S1x256x768 := Rect.unit (s := S1x256x768) ![0, 0, 0] S1x256x768.size inb_S1x256x768_S1x256x768_0_0_0

/-! ## What the body leaves in the output window's buffer -/

/-- Window 5's staging buffer after the body, from the five input windows' blocks: its one store, the payload of
    the blocks as the loads read them. -/
def out1_5 (x0 : Vec F S1x3x256 .f32) (x1 : Vec F S3x768 .f32) (x2 : Vec F S1x768 .f32) (x3 : Vec F S768x768 .f32)
    (x4 : Vec F S1x768 .f32) : Vec F S1x256x768 .f32 :=
  View.canon [⟨r1_5, k1_pay1 (View.ld x0 r1_0) (View.ld x1 r1_1) (View.ld x2 r1_2) (View.ld x3 r1_3) (View.ld x4 r1_4)⟩]

/-- The one store is the whole block, so it covers the buffer. -/
theorem cover1_5 (p0 : Vec F S1x256x768 .f32) (y : S1x256x768.Idx) :
    ∃ pc ∈ ([⟨r1_5, p0⟩] : List (View.Piece (Elt F) S1x256x768 .f32)), y ∈ pc.1.set :=
  View.cover_of_tiled [⟨r1_5, p0⟩] S1x256x768.size (by rfl) y

/-! ## The body's triple -/

set_option maxHeartbeats 1000000 in
/-- The kernel body on whole staging memrefs, the inputs' at read contents xW and the output's at anything, runs to
    the continuation holding the inputs' as they were and the output's at out1_5 of the inputs'. -/
theorem sound_kernel1 (c : Dev nD) (E : Set ℕ) (i : grid1.Coords)
    (arg1 : Memref sig .tc .vmem S1x3x256 .f32) (harg1 : arg1.IsWhole)
    (arg2 : Memref sig .tc .vmem S3x768 .f32) (harg2 : arg2.IsWhole)
    (arg3 : Memref sig .tc .vmem S1x768 .f32) (harg3 : arg3.IsWhole)
    (arg4 : Memref sig .tc .vmem S768x768 .f32) (harg4 : arg4.IsWhole)
    (arg5 : Memref sig .tc .vmem S1x768 .f32) (harg5 : arg5.IsWhole)
    (arg6 : Memref sig .tc .vmem S1x256x768 .f32) (harg6 : arg6.IsWhole)
    (x0 : Vec F S1x3x256 .f32) (x1 : Vec F S3x768 .f32) (x2 : Vec F S1x768 .f32) (x3 : Vec F S768x768 .f32)
    (x4 : Vec F S1x768 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__gcn_kernel i arg1 harg1 arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region on core c: the arrays as the region finds them; after the body at point t each
    input's buffer at its block and the output's at out1_5 of the input blocks; the invariant the untouched scoped
    rest and generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.KI.Launch.lean ====
/-
  The program's launch: @main is two host stretches of reshapes, each followed by a kernel region. Between two items
  a core holds every unscoped buffer whole at a known valuation: the launch memory, then after each stretch what its
  reshapes write, then after each region the region's output array at what its pipeline's write-backs leave and every
  other buffer as entered. Each region is entered by splitting its windows' arrays out of the unscoped buffers and left
  by putting them back at the exit valuation; the generator register goes into the region's invariant and comes back;
  nothing is owed. The run then ends with the result array `main_v5` at what region 1 leaves and every argument as
  launched.
-/
import proofs.«410070_j4063039062509_3_alg».proof.Proof.KI.RegionsVal
import proofs.«410070_j4063039062509_3_alg».proof.Proof.KI.R0
import proofs.«410070_j4063039062509_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries, and what the two regions leave -/

/-- Region 0's entry contents: the launch memory after the first two reshapes, read at a core's own references. -/
abbrev Va1 (c : Dev nD) (b : Ref sig .tc) : Buf (Elt F) ((c : Thread nD τ).loc b) := V1 m c b

/-- What region 0 leaves in `main_v2`: its output array after the write-backs of all its points. -/
def o2 (c : Dev nD) : Buf (Elt F) ((c : Thread nD τ).loc main_v2) := (R0.dat0 (Va1 m) c).arrAt 2 cfg0.N

/-- The contents after the two reshapes that follow region 0: the entry contents with `main_v2` at what region 0
    leaves, then the reshapes. -/
abbrev W3 (c : Dev nD) : Valuation τ sig (Elt F) := StableHlo.after hostOps1 (Function.update (V1 m c) main_v2 (o2 m c))

/-- Region 1's entry contents, read at a core's own references. -/
abbrev Va3 (c : Dev nD) (b : Ref sig .tc) : Buf (Elt F) ((c : Thread nD τ).loc b) := W3 m c b

/-- What region 1 leaves in `main_v5`, the result array. -/
def o5 (c : Dev nD) : Buf (Elt F) ((c : Thread nD τ).loc main_v5) := (R1.dat1 (Va3 m) c).arrAt 5 cfg1.N

/-- What the regions leave in the buffers they may change: `main_v2` after region 0, `main_v5` after region 1; any
    other reference (never read) at the launch memory. -/
def outs : Outs (F := F) := fun J r c =>
  if h : r = main_v2 then h ▸ o2 m c else if h' : r = main_v5 then h' ▸ o5 m c else m ((c : Thread nD τ).loc r)

theorem outs_v2 (c : Dev nD) : outs m 2 main_v2 c = o2 m c := by
  unfold outs; rw [dif_pos rfl]

theorem outs_v5 (c : Dev nD) : outs m 4 main_v5 c = o5 m c := by
  unfold outs; rw [dif_neg (by decide), dif_pos rfl]

/-- The valuation before region 1, written over `outs`, is the one built from `o2` directly. -/
theorem V3_eq (c : Dev nD) : V3 m (outs m) c = W3 m c := by
  show StableHlo.after hostOps1 (Function.update (V1 m c) main_v2 (outs m 2 main_v2 c)) = _
  rw [outs_v2]

/-- After region 0, `main_v2` holds what the region leaves there. -/
theorem V2_v2 (c : Dev nD) : V2 m (outs m) c main_v2 = o2 m c := by
  show Function.update (V1 m c) main_v2 (outs m 2 main_v2 c) main_v2 = _
  rw [Function.update_self, outs_v2]

/-- After region 1, `main_v5` holds what the region leaves there. -/
theorem V4_v5 (c : Dev nD) : V4 m (outs m) c main_v5 = o5 m c := by
  show Function.update (V3 m (outs m) c) main_v5 (outs m 4 main_v5 c) main_v5 = _
  rw [Function.update_self, outs_v5]

/-- The contents after region 0 and after region 1, read at a core's own references. -/
abbrev Va2 (c : Dev nD) (b : Ref sig .tc) : Buf (Elt F) ((c : Thread nD τ).loc b) := V2 m (outs m) c b
abbrev Va4 (c : Dev nD) (b : Ref sig .tc) : Buf (Elt F) ((c : Thread nD τ).loc b) := V4 m (outs m) c b

/-- At region 0's exit each of its arrays holds what the pipeline leaves: the two inputs as entered, the output at
    `o2`. -/
theorem hF0 (c : Dev nD) (w : Fin cfg0.W) : (R0.dat0 (Va1 m) c).arrAt w cfg0.N = Va2 m c (Pipeline.arrRef spec0 w) := by
  match w with
  | ⟨0, _⟩ => exact ((R0.dat0 (Va1 m) c).arrAt_in 0 rfl _).trans ((R0.A_eq0 (Va1 m) c 0).trans (V2_of m (outs m) c main_v0 (by decide)).symm)
  | ⟨1, _⟩ => exact ((R0.dat0 (Va1 m) c).arrAt_in 1 rfl _).trans ((R0.A_eq0 (Va1 m) c 1).trans (V2_of m (outs m) c main_v1 (by decide)).symm)
  | ⟨2, _⟩ => exact (V2_v2 m c).symm

/-- Every other buffer is as entered. -/
theorem hrest0 (c : Dev nD) : ∀ b, b ∉ Finset.univ.image (Pipeline.arrRef spec0) → Va2 m c b = Va1 m c b :=
  fun b hb => V2_of m (outs m) c b fun h => hb (Finset.mem_image.mpr ⟨2, Finset.mem_univ _, by
    rw [List.mem_singleton] at h; subst h; rfl⟩)

/-- At region 1's exit each of its arrays holds what the pipeline leaves: the five inputs as entered, the output at
    `o5`. -/
theorem hF1 (c : Dev nD) (w : Fin cfg1.W) : (R1.dat1 (Va3 m) c).arrAt w cfg1.N = Va4 m c (Pipeline.arrRef spec1 w) := by
  have e3 : ∀ r : Ref sig .tc, r ∉ ([main_v5] : List (Ref sig .tc)) → Va4 m c r = Va3 m c r := fun r hr =>
    (V4_of m (outs m) c r hr).trans (congrFun (V3_eq m c) r)
  match w with
  | ⟨0, _⟩ => exact ((R1.dat1 (Va3 m) c).arrAt_in 0 rfl _).trans ((R1.A_eq1 (Va3 m) c 0).trans (e3 main_v2 (by decide)).symm)
  | ⟨1, _⟩ => exact ((R1.dat1 (Va3 m) c).arrAt_in 1 rfl _).trans ((R1.A_eq1 (Va3 m) c 1).trans (e3 main_arg2 (by decide)).symm)
  | ⟨2, _⟩ => exact ((R1.dat1 (Va3 m) c).arrAt_in 2 rfl _).trans ((R1.A_eq1 (Va3 m) c 2).trans (e3 main_v3 (by decide)).symm)
  | ⟨3, _⟩ => exact ((R1.dat1 (Va3 m) c).arrAt_in 3 rfl _).trans ((R1.A_eq1 (Va3 m) c 3).trans (e3 main_arg4 (by decide)).symm)
  | ⟨4, _⟩ => exact ((R1.dat1 (Va3 m) c).arrAt_in 4 rfl _).trans ((R1.A_eq1 (Va3 m) c 4).trans (e3 main_v4 (by decide)).symm)
  | ⟨5, _⟩ => exact (V4_v5 m c).symm

/-- Every other buffer is as entered. -/
theorem hrest1 (c : Dev nD) : ∀ b, b ∉ Finset.univ.image (Pipeline.arrRef spec1) → Va4 m c b = Va3 m c b :=
  fun b hb => (V4_of m (outs m) c b fun h => hb (Finset.mem_image.mpr ⟨5, Finset.mem_univ _, by
    rw [List.mem_singleton] at h; subst h; rfl⟩)).trans (congrFun (V3_eq m c) b)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (Va1 m) c
  | ⟨1, _⟩ => fun c => R1.dat1 (Va3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev Rr (c : Dev nD) : sProp 𝕄 := iprop((∃ r, prngReg c r) ∗ ∃ W, owes (c : Thread nD τ) (0 : CellTallies nD τ sig Unit) W)
/-- The same beside every boundary's contents. -/
abbrev E : Fin 3 → Dev nD → sProp 𝕄 := fun _ c => Rr c

/-! ## The regions as segments -/

set_option backward.isDefEq.respectTransparency.types false in
/-- Region 0 over the thread state: entered with every unscoped buffer at the valuation before it, left with them at the
    valuation after it. Its three arrays are split out of the unscoped buffers and put back at the exit contents; the
    generator register and the scratch buffer go into its invariant and come back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Va1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Va1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va1 m c) fun w => R0.A_eq0 (Va1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (Va1 m) c)
    unfold Pipeline.ΦA
    iintro ⟨Hp, -, Hr⟩
    isplitl [Hr]; · iexact Hr
    iexact Hp
  hout c := by
    rw [Pipeline.ownSems0_none]
    refine (R0.hout0 (Va1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va1 m c) (Va2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state, likewise: its six arrays split out and put back, the generator register into its
    invariant and back, nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (Va3 m) c).loose
  hwaits := Pipeline.hwaits_of_owed_zero _ _ _ _ L lv 1 fun _ _ => rfl
  pre c := iprop(StableHlo.held (c : Thread nD τ) (Pipeline.ucRefs τ sig) (V3 m (outs m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Va3 m c)
  hentry c := by
    rw [Pipeline.ownSems0_none]
    rw [V3_eq m c]
    have hsplit := Pipeline.arrays_of_unscopedBufs (p := 1) (pcfgs (F := F)) adm (pdats m) launch1.win launch1.arr_whole c
      ((pdats m 1 c).share_full fun _ => rfl) (Va3 m c) fun w => R1.A_eq1 (Va3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Va3 m c) (Va4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- Every weakly fair execution of @main from memory `m` with zero counters terminates; every final memory holds in
    `main_v5` what region 1 leaves there, and each argument as launched. -/
theorem run_main : θ_run defs (onTc (τ := τ) (main (F := F))) ⟨m, fun _ => 0, ρ⟩ (fun r => ∀ c : Dev nD,
      r.2.mem ((c.tc : Thread nD τ).loc main_v5) = o5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨((h c).1).trans (V4_v5 m c), (h c).2⟩)
    (GenV.run_cond m (EP := emb₁) (ι := ()) (𝒱₀ := 𝒱₀) (L := L) (lv := lv) (hL := fun _ _ => rfl) (ρ := ρ) (outs := outs m)
      (pdats := pdats m) (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := E)
      (hE0 := by
        refine Pipeline.initEach L lv fun c => ?_
        iintro ⟨⟨-, HO, -, Hp, -⟩, -⟩
        imodintro
        isplitl [Hp]; · iexists _; iexact Hp
        iexists ∅; iexact HO)
      (hE2 := fun c => by
        iintro ⟨-, HO⟩
        iexact HO)
      (R0 := reg0 m) (hpre0 := fun _ => .rfl) (hpost0 := fun _ => .rfl)
      (R1 := reg1 m) (hpre1 := fun _ => .rfl) (hpost1 := fun _ => .rfl))

/-- The frame claim: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_main m ρ)

end Cert.KernelIdeal.Launch

end
-- ==== Proof.Spec.lean ====
/-
  The function both programs compute, written once over the argument arrays at the extended reals.

  An image of the batch has 512 × 512 pixels, numbered k = 512·row + column, three channels, and a label in
  [0, 256) per pixel. For image b, channel c and label s:
    ssum b c s  = the sum over pixels k of  img[b, c, k] · [label of k is s]      (the indicator as 0 or 1),
    cnt b s     = the number of pixels of image b labelled s,
    mean b c s  = ssum b c s / max (cnt b s) 1.
  The 256 means of an image are its graph's node features; a node's projection is
    proj b s e  = (Σ_c mean b c s · Wp[c, e]) + bp[e],
  its transform  xw b s f = Σ_e proj b s e · Wg[e, f], and every node of the image receives the average over the
  image's nodes, plus a bias:   out b f = (Σ_s xw b s f) / 256 + bg[f]   — the same for each of the 256 nodes.
-/
import Idealize.ShloMosaic.PureOps.Ideal
import Idealize.ShloMosaic.Lib.ValueIdx

noncomputable section

namespace Cert.Spec

open Idealize.ShloMosaic Idealize.ShloMosaic.ValueIdx

abbrev SImg : Shape := ⟨4, ![64, 3, 512, 512]⟩
abbrev SSeg : Shape := ⟨3, ![64, 512, 512]⟩
abbrev SWp : Shape := ⟨2, ![3, 768]⟩
abbrev SB : Shape := ⟨1, ![768]⟩
abbrev SWg : Shape := ⟨2, ![768, 768]⟩
abbrev SMean : Shape := ⟨3, ![64, 3, 256]⟩
abbrev SOut : Shape := ⟨3, ![64, 256, 768]⟩

/-- The row of pixel `k`. -/
def prow (k : Fin 262144) : Fin 512 := ⟨k.val / 512, by have := k.isLt; omega⟩
/-- The column of pixel `k`. -/
def pcol (k : Fin 262144) : Fin 512 := ⟨k.val % 512, Nat.mod_lt _ (by decide)⟩

/-- Node `s` of image `b` in the numbering that lists all images' nodes in one row of 64 · 256. -/
def node (b : Fin 64) (s : Fin 256) : Fin 16384 := ⟨b.val * 256 + s.val, by have := b.isLt; have := s.isLt; omega⟩

/-- The indicator that the label word `w`, read as a signed integer, is the label `s`. -/
def oh (w : BitVec 32) (s : Fin 256) : EReal := if w.toInt = (s.val : ℤ) then 1 else 0

/-- The divisor of the average over an image's 256 nodes, as both programs spell it (the word of 256.0). -/
def c256 : EReal := Ideal.ofBits .f32 0x43800000#32

variable (img : SImg.Idx → EReal) (seg : SSeg.Idx → BitVec 32) (Wp : SWp.Idx → EReal) (bp : SB.Idx → EReal)
  (Wg : SWg.Idx → EReal) (bg : SB.Idx → EReal)

/-- Channel `c` of image `b` summed over the pixels labelled `s`. -/
def ssum (b : Fin 64) (c : Fin 3) (s : Fin 256) : EReal :=
  ∑ k : Fin 262144, img (ix4 b c (prow k) (pcol k)) * oh (seg (ix3 b (prow k) (pcol k))) s

/-- The number of pixels of image `b` labelled `s`. -/
def cnt (b : Fin 64) (s : Fin 256) : EReal :=
  ∑ k : Fin 262144, oh (seg (ix3 b (prow k) (pcol k))) s

/-- The mean of channel `c` over the pixels of image `b` labelled `s` (an empty label's divisor clamped to one). -/
def mean (b : Fin 64) (c : Fin 3) (s : Fin 256) : EReal :=
  Ideal.div (ssum img seg b c s) (max (cnt seg b s) 1)

/-- The means as one array [image, channel, label]. -/
def meanArr : SMean.Idx → EReal := fun i => mean img seg (i 0) (i 1) (i 2)

/-- Node `s` of image `b` projected to feature `e`. -/
def proj (b : Fin 64) (s : Fin 256) (e : Fin 768) : EReal :=
  (∑ c : Fin 3, mean img seg b c s * Wp (ix2 c e)) + bp (ix1 e)

/-- The projected node transformed to output feature `f`. -/
def xw (b : Fin 64) (s : Fin 256) (f : Fin 768) : EReal :=
  ∑ e : Fin 768, proj img seg Wp bp b s e * Wg (ix2 e f)

/-- The average over the nodes of image `b`, plus the bias. -/
def out (b : Fin 64) (f : Fin 768) : EReal :=
  Ideal.div (∑ s : Fin 256, xw img seg Wp bp Wg b s f) c256 + bg (ix1 f)

/-- The result array [image, node, feature]: every node of an image holds the image's average. -/
def G : SOut.Idx → EReal := fun i => out img seg Wp bp Wg bg (i 0) (i 2)

end Cert.Spec

end
-- ==== Proof.KI.Vals.lean ====
/-
  What the reshapes around the two kernel regions put in the buffers the regions read, read at an index.

  Before the first region the image [64, 3, 512, 512] is flattened to [64, 3, 262144] and the labels [64, 512, 512] to
  [64, 1, 262144]: a reshape keeps the row-major order, so pixel `k` of the flattened arrays is row `k / 512`, column
  `k % 512`. Before the second region the two bias vectors [768] become rows [1, 768]; the means array holds what the
  first region left, and the weight arrays, which no reshape writes, are as launched.
-/
import proofs.«410070_j4063039062509_3_alg».proof.Proof.KI.Launch
import proofs.«410070_j4063039062509_3_alg».proof.Proof.Spec
import Idealize.ShloMosaic.Lib.StableHlo.Run
import Idealize.ShloMosaic.Lib.Pipeline.Value
import Idealize.ShloMosaic.Lib.ValueIdx

noncomputable section

namespace Cert.KernelIdeal.Launch

open Cert.KernelIdeal Cert.KernelIdeal.Gen
open Idealize.ShloMosaic Idealize.ShloMosaic.TcCoe Idealize.ShloMosaic.ValueIdx

variable {F : FTy → Type} [FloatOps F]

variable (m : (ℓ : Loc nD τ sig) → Buf (Elt F) ℓ)

/-! ## A reshape read at an index -/

/-- Pixel `k` of the flattened image is row `k / 512`, column `k % 512`: both number the entry
    `((b·3 + ch)·512 + k / 512)·512 + k % 512 = (b·3 + ch)·262144 + k` of the row-major order. -/
theorem cast_img {α : Type} (x : S64x3x512x512.Idx → α) (b : Fin 64) (ch : Fin 3) (k : Fin 262144) :
    shapeCast S64x3x262144 x shapeCasts_S64x3x512x512_S64x3x262144 (ix3 b ch k)
      = x (ix4 b ch (Cert.Spec.prow k) (Cert.Spec.pcol k)) := by
  refine shapeCast_apply x shapeCasts_S64x3x512x512_S64x3x262144 (ix3 b ch k) (ix4 b ch (Cert.Spec.prow k) (Cert.Spec.pcol k)) ?_
  rewrite [Shape.rowMajor_val_four, Shape.rowMajor_val_three]
  have hb := b.isLt; have hc := ch.isLt; have hk := k.isLt
  show ((b.val * 3 + ch.val) * 512 + k.val / 512) * 512 + k.val % 512 = (b.val * 3 + ch.val) * 262144 + k.val
  omega

/-- Likewise for the labels: `(b·512 + k / 512)·512 + k % 512 = (b·1 + 0)·262144 + k`. -/
theorem cast_seg {α : Type} (x : S64x512x512.Idx → α) (b : Fin 64) (k : Fin 262144) :
    shapeCast S64x1x262144 x shapeCasts_S64x512x512_S64x1x262144 (ix3 b 0 k)
      = x (ix3 b (Cert.Spec.prow k) (Cert.Spec.pcol k)) := by
  refine shapeCast_apply x shapeCasts_S64x512x512_S64x1x262144 (ix3 b 0 k) (ix3 b (Cert.Spec.prow k) (Cert.Spec.pcol k)) ?_
  rewrite [Shape.rowMajor_val_three, Shape.rowMajor_val_three]
  have hb := b.isLt; have hk := k.isLt
  show (b.val * 512 + k.val / 512) * 512 + k.val % 512 = (b.val * 1 + 0) * 262144 + k.val
  omega

/-- A vector as a one-row rectangle: entry `(0, e)` is entry `e`. -/
theorem cast_row {α : Type} (x : S768.Idx → α) (e : Fin 768) :
    shapeCast S1x768 x shapeCasts_S768_S1x768 (ix2 0 e) = x (ix1 e) := by
  refine shapeCast_apply x shapeCasts_S768_S1x768 (ix2 0 e) (ix1 e) ?_
  rewrite [Shape.rowMajor_val_one, Shape.rowMajor_val_two]
  show e.val = 0 * 768 + e.val
  omega

/-! ## What the reshapes before the first region write -/

theorem V1_v0_eq (c : Dev nD) :
    (V1 m c main_v0 : S64x3x262144.Idx → Elt F .f32)
      = shapeCast S64x3x262144 (m ((c : Thread nD τ).loc main_arg0)) shapeCasts_S64x3x512x512_S64x3x262144 := by
  dsimp only [V1, V0, hostOps0]
  after_results
  rfl

theorem V1_v1_eq (c : Dev nD) :
    (V1 m c main_v1 : S64x1x262144.Idx → Elt F .i32)
      = shapeCast S64x1x262144 (m ((c : Thread nD τ).loc main_arg1)) shapeCasts_S64x512x512_S64x1x262144 := by
  dsimp only [V1, V0, hostOps0]
  after_results
  rfl

/-! ## What the reshapes before the second region write, over any contents `o` of the first region's output -/

section

variable (c : Dev nD) (o : Buf (Elt F) ((c : Thread nD τ).loc main_v2))

/-- A reference the second pair of reshapes does not write and that is not the first region's output holds its
    launch contents, when the first pair does not write it either. -/
theorem W_of (r : Ref sig .tc) (h1 : r ∉ hostOps1_W) (h2 : r ≠ main_v2) (h0 : r ∉ hostOps0_W) :
    StableHlo.after hostOps1 (Function.update (V1 m c) main_v2 o) r = m ((c : Thread nD τ).loc r) :=
  (StableHlo.after_of_writes_sub hostOps1 _ hostOps1_writes h1).trans
    ((Function.update_of_ne (StableHlo.devRef_ne_of_ne h2 : (Proc.devRef .tc r : DevRef τ sig) ≠ Proc.devRef .tc main_v2) _ _).trans
      ((V1_of m c r h0).trans rfl))

theorem W_v2 : StableHlo.after hostOps1 (Function.update (V1 m c) main_v2 o) main_v2 = o :=
  (StableHlo.after_of_writes_sub hostOps1 _ hostOps1_writes (by decide)).trans (Function.update_self _ _ _)

/-- The second pair of reshapes, from any contents `V`: `main_v3` is `main_arg3` as one row, `main_v4` is `main_arg5`. -/
theorem after1_v3 (V : Valuation τ sig (Elt F)) :
    (StableHlo.after hostOps1 V main_v3 : S1x768.Idx → Elt F .f32)
      = shapeCast S1x768 (V main_arg3) shapeCasts_S768_S1x768 := by
  dsimp only [hostOps1]
  after_results
  rfl

theorem after1_v4 (V : Valuation τ sig (Elt F)) :
    (StableHlo.after hostOps1 V main_v4 : S1x768.Idx → Elt F .f32)
      = shapeCast S1x768 (V main_arg5) shapeCasts_S768_S1x768 := by
  dsimp only [hostOps1]
  after_results
  rfl

/-- Before the second pair of reshapes an argument the first pair does not write holds its launch contents. -/
theorem upd_of (r : Ref sig .tc) (h2 : r ≠ main_v2) (h0 : r ∉ hostOps0_W) :
    Function.update (V1 m c) main_v2 o r = m ((c : Thread nD τ).loc r) :=
  (Function.update_of_ne (StableHlo.devRef_ne_of_ne h2 : (Proc.devRef .tc r : DevRef τ sig) ≠ Proc.devRef .tc main_v2) _ _).trans
    ((V1_of m c r h0).trans rfl)

theorem W_v3_eq :
    (StableHlo.after hostOps1 (Function.update (V1 m c) main_v2 o) main_v3 : S1x768.Idx → Elt F .f32)
      = shapeCast S1x768 (m ((c : Thread nD τ).loc main_arg3)) shapeCasts_S768_S1x768 :=
  (after1_v3 _).trans (congrArg (fun x => shapeCast S1x768 x shapeCasts_S768_S1x768) (upd_of m c o main_arg3 (by decide) (by decide)))

theorem W_v4_eq :
    (StableHlo.after hostOps1 (Function.update (V1 m c) main_v2 o) main_v4 : S1x768.Idx → Elt F .f32)
      = shapeCast S1x768 (m ((c : Thread nD τ).loc main_arg5)) shapeCasts_S768_S1x768 :=
  (after1_v4 _).trans (congrArg (fun x => shapeCast S1x768 x shapeCasts_S768_S1x768) (upd_of m c o main_arg5 (by decide) (by decide)))

end

/-! ## The buffers the two regions read, at an index -/

/-- Entering the first region, the flattened image at (image, channel, pixel `k`) is the launched image at
    (image, channel, row of `k`, column of `k`). -/
theorem Va1_v0 (c : Dev nD) (b : Fin 64) (ch : Fin 3) (k : Fin 262144) :
    Va1 m c main_v0 (ix3 b ch k) = m ((c : Thread nD τ).loc main_arg0) (ix4 b ch (Cert.Spec.prow k) (Cert.Spec.pcol k)) :=
  (congrFun (V1_v0_eq m c) (ix3 b ch k)).trans (cast_img _ b ch k)

/-- Likewise the flattened labels at (image, 0, pixel `k`) are the launched labels at (image, row, column). -/
theorem Va1_v1 (c : Dev nD) (b : Fin 64) (k : Fin 262144) :
    Va1 m c main_v1 (ix3 b 0 k) = m ((c : Thread nD τ).loc main_arg1) (ix3 b (Cert.Spec.prow k) (Cert.Spec.pcol k)) :=
  (congrFun (V1_v1_eq m c) (ix3 b 0 k)).trans (cast_seg _ b k)

/-- Entering the second region, the means array holds what the first region left. -/
theorem Va3_v2 (c : Dev nD) : Va3 m c main_v2 = o2 m c := W_v2 m c (o2 m c)

/-- The two weight arrays are as launched. -/
theorem Va3_arg2 (c : Dev nD) : Va3 m c main_arg2 = m ((c : Thread nD τ).loc main_arg2) :=
  W_of m c (o2 m c) main_arg2 (by decide) (by decide) (by decide)

theorem Va3_arg4 (c : Dev nD) : Va3 m c main_arg4 = m ((c : Thread nD τ).loc main_arg4) :=
  W_of m c (o2 m c) main_arg4 (by decide) (by decide) (by decide)

/-- The two bias rows at (0, `e`) are the launched bias vectors at `e`. -/
theorem Va3_v3 (c : Dev nD) (e : Fin 768) : Va3 m c main_v3 (ix2 0 e) = m ((c : Thread nD τ).loc main_arg3) (ix1 e) :=
  (congrFun (W_v3_eq m c (o2 m c)) (ix2 0 e)).trans (cast_row _ e)

theorem Va3_v4 (c : Dev nD) (f : Fin 768) : Va3 m c main_v4 (ix2 0 f) = m ((c : Thread nD τ).loc main_arg5) (ix1 f) :=
  (congrFun (W_v4_eq m c (o2 m c)) (ix2 0 f)).trans (cast_row _ f)

end Cert.KernelIdeal.Launch

end
-- ==== Proof.KI.R0Pure.lean ====
/-
  The first kernel's arithmetic as pure functions of the arrays it reads, point by point.
  A grid point n is tile n % 8 of image n / 8; a tile holds 32768 pixels in four chunks of 8192. One chunk adds to the
  [4, 256] accumulator (rows 0–2 the channel sums per label, row 3 the pixel counts per label) the chunk's
  contribution; a tile adds its four chunks in order; the accumulator starts from zero at an image's first tile and
  otherwise from what the tile before left; at an image's last tile the block of means is the sums over the clamped counts.
-/
import proofs.«410070_j4063039062509_3_alg».proof.Proof.Gen.KernelIdeal.Skeleton
import Idealize.ShloMosaic.Lib.ValueIdx

noncomputable section

namespace Cert.KernelIdeal.R0

open Cert.KernelIdeal Cert.KernelIdeal.Gen
open Idealize.ShloMosaic Idealize.ShloMosaic.ValueIdx

variable {F : FTy → Type} [FloatOps F]

/-- Chunk k of a tile's pixels: channels × 8192 pixels. -/
def blk3 (x0 : Vec F S1x3x32768 .f32) (k : Fin 4) : Vec F S3x8192 .f32 :=
  fun y => x0 (ix3 0 (y 0) ⟨k.val * 8192 + (y 1).val, by have := k.isLt; have h1 : (y 1).val < 8192 := (y 1).isLt; show _ < 32768; omega⟩)
/-- Chunk k of a tile's labels. -/
def blk1 (x1 : Vec F S1x1x32768 .i32) (k : Fin 4) : Vec F S1x8192 .i32 :=
  fun y => x1 (ix3 0 0 ⟨k.val * 8192 + (y 1).val, by have := k.isLt; have h1 : (y 1).val < 8192 := (y 1).isLt; show _ < 32768; omega⟩)

/-- The accumulator after chunk k is added. -/
def chunkAdd (x0 : Vec F S1x3x32768 .f32) (x1 : Vec F S1x1x32768 .i32) (k : Fin 4) (s : Vec F S4x256 .f32) : Vec F S4x256 .f32 :=
  k0_pay2 (blk3 x0 k) (blk1 x1 k) s
/-- The accumulator after a tile's four chunks. -/
def tile4 (x0 : Vec F S1x3x32768 .f32) (x1 : Vec F S1x1x32768 .i32) (s : Vec F S4x256 .f32) : Vec F S4x256 .f32 :=
  chunkAdd x0 x1 3 (chunkAdd x0 x1 2 (chunkAdd x0 x1 1 (chunkAdd x0 x1 0 s)))

/-- The counts row of the accumulator, and its three sums rows. -/
def row3 (s : Vec F S4x256 .f32) : Vec F S1x256 .f32 := fun y => s (ix2 3 (y 1))
def rows012 (s : Vec F S4x256 .f32) : Vec F S3x256 .f32 :=
  fun y => s (ix2 ⟨(y 0).val, by have h0 : (y 0).val < 3 := (y 0).isLt; show _ < 4; omega⟩ (y 1))
/-- The block of means an accumulator gives. -/
def meansOf (s : Vec F S4x256 .f32) : Vec F S1x3x256 .f32 := k0_pay3 (row3 s) (rows012 s)

/-- The tile of pixels the kernel is handed at point n, out of the whole [64, 3, 262144] array. -/
def tileOf0 (X0 : Vec F S64x3x262144 .f32) (n : ℕ) : Vec F S1x3x32768 .f32 :=
  fun y => X0 (ix3 ⟨(n / 8) % 64, Nat.mod_lt _ (by decide)⟩ (y 1) ⟨(n % 8) * 32768 + (y 2).val, by have h2 : (y 2).val < 32768 := (y 2).isLt; have := Nat.mod_lt n (show 0 < 8 by decide); show _ < 262144; omega⟩)
/-- The tile of labels at point n, out of the whole [64, 1, 262144] array. -/
def tileOf1 (X1 : Vec F S64x1x262144 .i32) (n : ℕ) : Vec F S1x1x32768 .i32 :=
  fun y => X1 (ix3 ⟨(n / 8) % 64, Nat.mod_lt _ (by decide)⟩ 0 ⟨(n % 8) * 32768 + (y 2).val, by have h2 : (y 2).val < 32768 := (y 2).isLt; have := Nat.mod_lt n (show 0 < 8 by decide); show _ < 262144; omega⟩)

/-- The accumulator after point n. -/
def accPt (X0 : Vec F S64x3x262144 .f32) (X1 : Vec F S64x1x262144 .i32) : ℕ → Vec F S4x256 .f32
  | 0 => tile4 (tileOf0 X0 0) (tileOf1 X1 0) (k0_pay1 (F := F))
  | n + 1 => tile4 (tileOf0 X0 (n + 1)) (tileOf1 X1 (n + 1)) (if (n + 1) % 8 = 0 then (k0_pay1 (F := F)) else accPt X0 X1 n)

/-- The block of means stored at point n (an image's last tile). -/
def meanBlk (X0 : Vec F S64x3x262144 .f32) (X1 : Vec F S64x1x262144 .i32) (n : ℕ) : Vec F S1x3x256 .f32 :=
  meansOf (accPt X0 X1 n)

end Cert.KernelIdeal.R0

end
-- ==== Proof.KI.R0Open.lean ====
/-
  What the first kernel's three whole-body runs leave, as pure functions of the arrays the body is handed.
  A trip of the counted loop stores the whole accumulator: the chunk's payload of the chunk of pixels, the chunk of
  labels and the accumulator read back. The pixels and labels are read through the tile buffers with their unit
  leading axis dropped, at columns 8192 · k onward, so the two loads are chunk k of the tile; a load of the whole
  accumulator reads its contents; and a store of the whole accumulator, made last, is what a later read finds. So the
  four trips leave the four chunks added in order to what the accumulator held before the loop: zero at a first tile
  (the body clears it), what the tile before left otherwise. At a last tile the two row loads that follow read the
  counts row and the three sums rows of that accumulator, and the one store of the output block is the means of them.
-/
import proofs.«410070_j4063039062509_3_alg».proof.Proof.KI.R0Runs
import proofs.«410070_j4063039062509_3_alg».proof.Proof.KI.R0Pure
import Idealize.ShloMosaic.Lib.Pipeline.Value
import Idealize.ShloMosaic.Lib.Writes

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip stores the whole accumulator: the chunk's payload of the two chunk loads and the accumulator read back. -/
theorem tripL_eq (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2) (hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3)
    (X_v12 : BufTy.Contents (Elt F) (mvv12 arg2).view.ty) (X_v20 : BufTy.Contents (Elt F) (mvv20 arg3).view.ty) (k : Fin k0_t1_loop.trips) (f : BufTy.Contents (Elt F) arg5.view.ty) :
    tripL_k0_t1 (F := F) Variants.none c none i arg2 harg2 arg3 harg3 arg4 harg4 arg5 harg5 (mvv12 arg2) hcanon_v12 (mvv20 arg3) hcanon_v20 X_v12 X_v20 k f
      = [⟨Rect.unit (s := S4x256) ![0, 0] S4x256.size inb_S4x256_S4x256_0_0, k0_pay2 (View.readAt (Elt F) (mvv12 arg2).view (Rect.unit (s := S3x32768) (k0_off1 k) S3x8192.size (k0_off1_inb k)).toLoadRect X_v12) (View.readAt (Elt F) (mvv20 arg3).view (Rect.unit (s := S1x32768) (k0_off2 k) S1x8192.size (k0_off2_inb k)).toLoadRect X_v20) (View.readAt (Elt F) arg5.view (Rect.unit (s := S4x256) ![0, 0] S4x256.size inb_S4x256_S4x256_0_0).toLoadRect f)⟩] := by
  unfold tripL_k0_t1; unfold trip_k0_t1; dsimp only

theorem read_mvv12 (arg2 : Memref sig .tc .vmem S1x3x32768 .f32) (harg2 : arg2.IsWhole) (x0 : Vec F S1x3x32768 .f32) (y : S3x32768.Idx) :
    (mvv12 arg2).view.read (Elt F) (harg2.unread x0) y = x0 (ix3 0 (y 0) (y 1)) := by
  have h := Memref.read_squeeze_slice (Val := Elt F) arg2 (Rect.unit (s := S1x3x32768) ![0, 0, 0] S1x3x32768.size inb_S1x3x32768_S1x3x32768_0_0_0) (fun _ => rfl) squeezes_S1x3x32768_S3x32768 (by decide) (harg2.unread x0)
  unfold mvv12
  rw [h, View.readAt_eq_ld, View.ld_unit_zero (by funext a; fin_cases a <;> rfl), harg2.read_unread]
  exact shapeCast_apply x0 _ y (ix3 0 (y 0) (y 1)) (by
    rw [Shape.rowMajor_val_three, Shape.rowMajor_val_two]
    show (0 * 3 + (y 0).val) * 32768 + (y 1).val = (y 0).val * 32768 + (y 1).val
    omega)

theorem read_mvv20 (arg3 : Memref sig .tc .vmem S1x1x32768 .i32) (harg3 : arg3.IsWhole) (x1 : Vec F S1x1x32768 .i32) (y : S1x32768.Idx) :
    (mvv20 arg3).view.read (Elt F) (harg3.unread x1) y = x1 (ix3 0 0 (y 1)) := by
  have h := Memref.read_squeeze_slice (Val := Elt F) arg3 (Rect.unit (s := S1x1x32768) ![0, 0, 0] S1x1x32768.size inb_S1x1x32768_S1x1x32768_0_0_0) (fun _ => rfl) squeezes_S1x1x32768_S1x32768 (by decide) (harg3.unread x1)
  unfold mvv20
  rw [h, View.readAt_eq_ld, View.ld_unit_zero (by funext a; fin_cases a <;> rfl), harg3.read_unread]
  exact shapeCast_apply x1 _ y (ix3 0 0 (y 1)) (by
    rw [Shape.rowMajor_val_three, Shape.rowMajor_val_two]
    have h0 : (y 0).val < 1 := (y 0).isLt
    show (0 * 1 + 0) * 32768 + (y 1).val = (y 0).val * 32768 + (y 1).val
    omega)

/-- A chunk's load of the pixels reads the chunk. -/
theorem load12 (arg2 : Memref sig .tc .vmem S1x3x32768 .f32) (harg2 : arg2.IsWhole) (x0 : Vec F S1x3x32768 .f32)
    (k : Fin k0_t1_loop.trips) (k' : Fin 4) (hk : k.val = k'.val) :
    View.readAt (Elt F) (mvv12 arg2).view (Rect.unit (s := S3x32768) (k0_off1 k) S3x8192.size (k0_off1_inb k)).toLoadRect (harg2.unread x0)
      = blk3 x0 k' := by
  funext y
  show (mvv12 arg2).view.read (Elt F) (harg2.unread x0) ((Rect.unit (s := S3x32768) (k0_off1 k) S3x8192.size (k0_off1_inb k)).toLoadRect.idx y) = _
  refine (read_mvv12 arg2 harg2 x0 _).trans ?_
  unfold blk3
  congr 1
  funext a
  have h1 : (k0_off1 k) 1 = 8192 * k.val := by rw [k0_off1_eq]; rfl
  have h0 : (k0_off1 k) 0 = 0 := by rw [k0_off1_eq]; rfl
  match a with
  | ⟨0, _⟩ => rfl
  | ⟨1, _⟩ => exact Fin.ext (by show (k0_off1 k) 0 + 1 * (y 0).val = (y 0).val; omega)
  | ⟨2, _⟩ => exact Fin.ext (by show (k0_off1 k) 1 + 1 * (y 1).val = k'.val * 8192 + (y 1).val; omega)

/-- A chunk's load of the labels reads the chunk. -/
theorem load20 (arg3 : Memref sig .tc .vmem S1x1x32768 .i32) (harg3 : arg3.IsWhole) (x1 : Vec F S1x1x32768 .i32)
    (k : Fin k0_t1_loop.trips) (k' : Fin 4) (hk : k.val = k'.val) :
    View.readAt (Elt F) (mvv20 arg3).view (Rect.unit (s := S1x32768) (k0_off2 k) S1x8192.size (k0_off2_inb k)).toLoadRect (harg3.unread x1)
      = blk1 x1 k' := by
  funext y
  show (mvv20 arg3).view.read (Elt F) (harg3.unread x1) ((Rect.unit (s := S1x32768) (k0_off2 k) S1x8192.size (k0_off2_inb k)).toLoadRect.idx y) = _
  refine (read_mvv20 arg3 harg3 x1 _).trans ?_
  unfold blk1
  congr 1
  funext a
  have h1 : (k0_off2 k) 1 = 8192 * k.val := by rw [k0_off2_eq]; rfl
  match a with
  | ⟨0, _⟩ => rfl
  | ⟨1, _⟩ => rfl
  | ⟨2, _⟩ => exact Fin.ext (by show (k0_off2 k) 1 + 1 * (y 1).val = k'.val * 8192 + (y 1).val; omega)

/-- A load of the whole accumulator reads its contents. -/
theorem load5 (arg5 : Memref sig .tc .vmem S4x256 .f32) (f : BufTy.Contents (Elt F) arg5.view.ty) :
    View.readAt (Elt F) arg5.view (Rect.unit (s := S4x256) ![0, 0] S4x256.size inb_S4x256_S4x256_0_0).toLoadRect f
      = arg5.view.read (Elt F) f := by
  rw [View.readAt_eq_ld, View.ld_unit_zero (by funext a; fin_cases a <;> rfl)]

/-- A store of the whole accumulator, last, is what a read finds. -/
theorem read_cons_whole (arg5 : Memref sig .tc .vmem S4x256 .f32) (G : BufTy.Contents (Elt F) arg5.view.ty) (P : Vec F S4x256 .f32)
    (L : List (View.Piece (Elt F) S4x256 .f32)) :
    arg5.view.read (Elt F) (arg5.view.writes (Elt F) G (⟨Rect.unit (s := S4x256) ![0, 0] S4x256.size inb_S4x256_S4x256_0_0, P⟩ :: L)) = P := by
  rw [View.read_writes_eq_canon _ _ _ (fun y => ⟨_, List.mem_cons_self, View.mem_set_unit_zero (by funext a; fin_cases a <;> rfl) inb_S4x256_S4x256_0_0 y⟩),
    View.canon_cons_unit_zero (by funext a; fin_cases a <;> rfl)]

theorem trips4 : k0_t1_loop.trips = 4 := by decide

/-- One more trip adds its chunk to what the trips before left. -/
theorem pb_read_succ (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2) (hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3)
    (x0 : Vec F S1x3x32768 .f32) (x1 : Vec F S1x1x32768 .i32) (G : BufTy.Contents (Elt F) arg5.view.ty)
    (H : BufTy.Contents (Elt F) arg5.view.ty)
    (k : Fin k0_t1_loop.trips) (k' : Fin 4) (hk : k.val = k'.val) :
    arg5.view.read (Elt F) (arg5.view.writes (Elt F) H (pb_k0_t1 (F := F) Variants.none c none i arg2 harg2 arg3 harg3 arg4 harg4 arg5 harg5 (mvv12 arg2) hcanon_v12 (mvv20 arg3) hcanon_v20 (harg2.unread x0) (harg3.unread x1) G (k.val + 1)))
      = chunkAdd x0 x1 k' (arg5.view.read (Elt F) (arg5.view.writes (Elt F) G (pb_k0_t1 (F := F) Variants.none c none i arg2 harg2 arg3 harg3 arg4 harg4 arg5 harg5 (mvv12 arg2) hcanon_v12 (mvv20 arg3) hcanon_v20 (harg2.unread x0) (harg3.unread x1) G k.val))) := by
  have e := pb_k0_t1_succ (F := F) Variants.none c none i arg2 harg2 arg3 harg3 arg4 harg4 arg5 harg5 (mvv12 arg2) hcanon_v12 (mvv20 arg3) hcanon_v20 (harg2.unread x0) (harg3.unread x1) G k
  have t := tripL_eq c i arg2 harg2 arg3 harg3 arg4 harg4 arg5 harg5 hcanon_v12 hcanon_v20 (harg2.unread x0) (harg3.unread x1) k (arg5.view.writes (Elt F) G (pb_k0_t1 (F := F) Variants.none c none i arg2 harg2 arg3 harg3 arg4 harg4 arg5 harg5 (mvv12 arg2) hcanon_v12 (mvv20 arg3) hcanon_v20 (harg2.unread x0) (harg3.unread x1) G k.val))
  refine (congrArg (fun L => arg5.view.read (Elt F) (arg5.view.writes (Elt F) H L)) e).trans ?_
  refine (congrArg (fun L => arg5.view.read (Elt F) (arg5.view.writes (Elt F) H (L ++ pb_k0_t1 (F := F) Variants.none c none i arg2 harg2 arg3 harg3 arg4 harg4 arg5 harg5 (mvv12 arg2) hcanon_v12 (mvv20 arg3) hcanon_v20 (harg2.unread x0) (harg3.unread x1) G k.val))) t).trans ?_
  refine (read_cons_whole arg5 H _ _).trans ?_
  exact congr (congr (congrArg k0_pay2 (load12 arg2 harg2 x0 k k' hk)) (load20 arg3 harg3 x1 k k' hk)) (load5 arg5 _)

/-- The four trips add the tile's four chunks, in order. -/
theorem pb_read_four (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2) (hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3)
    (x0 : Vec F S1x3x32768 .f32) (x1 : Vec F S1x1x32768 .i32) (G H : BufTy.Contents (Elt F) arg5.view.ty) :
    arg5.view.read (Elt F) (arg5.view.writes (Elt F) H (pb_k0_t1 (F := F) Variants.none c none i arg2 harg2 arg3 harg3 arg4 harg4 arg5 harg5 (mvv12 arg2) hcanon_v12 (mvv20 arg3) hcanon_v20 (harg2.unread x0) (harg3.unread x1) G 4))
      = tile4 x0 x1 (arg5.view.read (Elt F) G) := by
  have h0 : arg5.view.read (Elt F) (arg5.view.writes (Elt F) G (pb_k0_t1 (F := F) Variants.none c none i arg2 harg2 arg3 harg3 arg4 harg4 arg5 harg5 (mvv12 arg2) hcanon_v12 (mvv20 arg3) hcanon_v20 (harg2.unread x0) (harg3.unread x1) G 1)) = chunkAdd x0 x1 0 (arg5.view.read (Elt F) G) :=
    pb_read_succ c i arg2 harg2 arg3 harg3 arg4 harg4 arg5 harg5 hcanon_v12 hcanon_v20 x0 x1 G G ⟨0, by rw [trips4]; decide⟩ 0 rfl
  have h1 : arg5.view.read (Elt F) (arg5.view.writes (Elt F) G (pb_k0_t1 (F := F) Variants.none c none i arg2 harg2 arg3 harg3 arg4 harg4 arg5 harg5 (mvv12 arg2) hcanon_v12 (mvv20 arg3) hcanon_v20 (harg2.unread x0) (harg3.unread x1) G 2)) = chunkAdd x0 x1 1 (arg5.view.read (Elt F) (arg5.view.writes (Elt F) G (pb_k0_t1 (F := F) Variants.none c none i arg2 harg2 arg3 harg3 arg4 harg4 arg5 harg5 (mvv12 arg2) hcanon_v12 (mvv20 arg3) hcanon_v20 (harg2.unread x0) (harg3.unread x1) G 1))) :=
    pb_read_succ c i arg2 harg2 arg3 harg3 arg4 harg4 arg5 harg5 hcanon_v12 hcanon_v20 x0 x1 G G ⟨1, by rw [trips4]; decide⟩ 1 rfl
  have h2 : arg5.view.read (Elt F) (arg5.view.writes (Elt F) G (pb_k0_t1 (F := F) Variants.none c none i arg2 harg2 arg3 harg3 arg4 harg4 arg5 harg5 (mvv12 arg2) hcanon_v12 (mvv20 arg3) hcanon_v20 (harg2.unread x0) (harg3.unread x1) G 3)) = chunkAdd x0 x1 2 (arg5.view.read (Elt F) (arg5.view.writes (Elt F) G (pb_k0_t1 (F := F) Variants.none c none i arg2 harg2 arg3 harg3 arg4 harg4 arg5 harg5 (mvv12 arg2) hcanon_v12 (mvv20 arg3) hcanon_v20 (harg2.unread x0) (harg3.unread x1) G 2))) :=
    pb_read_succ c i arg2 harg2 arg3 harg3 arg4 harg4 arg5 harg5 hcanon_v12 hcanon_v20 x0 x1 G G ⟨2, by rw [trips4]; decide⟩ 2 rfl
  have h3 : arg5.view.read (Elt F) (arg5.view.writes (Elt F) H (pb_k0_t1 (F := F) Variants.none c none i arg2 harg2 arg3 harg3 arg4 harg4 arg5 harg5 (mvv12 arg2) hcanon_v12 (mvv20 arg3) hcanon_v20 (harg2.unread x0) (harg3.unread x1) G 4)) = chunkAdd x0 x1 3 (arg5.view.read (Elt F) (arg5.view.writes (Elt F) G (pb_k0_t1 (F := F) Variants.none c none i arg2 harg2 arg3 harg3 arg4 harg4 arg5 harg5 (mvv12 arg2) hcanon_v12 (mvv20 arg3) hcanon_v20 (harg2.unread x0) (harg3.unread x1) G 3))) :=
    pb_read_succ c i arg2 harg2 arg3 harg3 arg4 harg4 arg5 harg5 hcanon_v12 hcanon_v20 x0 x1 G H ⟨3, by rw [trips4]; decide⟩ 3 rfl
  exact h3.trans (congrArg (chunkAdd x0 x1 3) (h2.trans (congrArg (chunkAdd x0 x1 2) (h1.trans (congrArg (chunkAdd x0 x1 1) h0)))))

theorem tripsLit : Scf.trips (0#32) (Scalar.addi 0#32 4#32) 1#32 = 4 := by decide

/-- After a first tile the accumulator holds the tile's four chunks added to zero. -/
theorem scratch_A (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : cond0_0 i) (hc1 : ¬cond0_1 i)
    (x0 : Vec F S1x3x32768 .f32) (x1 : Vec F S1x1x32768 .i32) :
    arg5.view.read (Elt F) (arg5.view.writes (Elt F) arg5.view.junk (kernelRun0_A c i arg2 harg2 arg3 harg3 arg4 harg4 arg5 harg5 hc0 hc1 x0 x1).1) = tile4 x0 x1 (k0_pay1 (F := F)) := by
  unfold kernelRun0_A; dsimp only
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  rw [View.writes_append, tripsLit]
  refine (pb_read_four c i arg2 harg2 arg3 harg3 arg4 harg4 arg5 harg5 hcanon_v12 hcanon_v20 x0 x1 _ _).trans ?_
  congr 1
  sl_unfold_run_names
  exact read_cons_whole arg5 _ _ []

/-- After a middle tile the accumulator holds the tile's four chunks added to what the tile before left. -/
theorem scratch_B (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : ¬cond0_1 i)
    (x0 : Vec F S1x3x32768 .f32) (x1 : Vec F S1x1x32768 .i32) (xs0 : Vec F S4x256 .f32) :
    arg5.view.read (Elt F) (arg5.view.writes (Elt F) arg5.view.junk (kernelRun0_B c i arg2 harg2 arg3 harg3 arg4 harg4 arg5 harg5 hc0 hc1 x0 x1 xs0).1) = tile4 x0 x1 xs0 := by
  unfold kernelRun0_B; dsimp only
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  rw [tripsLit]
  refine (pb_read_four c i arg2 harg2 arg3 harg3 arg4 harg4 arg5 harg5 hcanon_v12 hcanon_v20 x0 x1 _ _).trans ?_
  rw [harg5.read_unread]

/-- After a last tile likewise. -/
theorem scratch_C (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) :
    arg5.view.read (Elt F) (arg5.view.writes (Elt F) arg5.view.junk (kernelRun0_C c i arg2 harg2 arg3 harg3 arg4 harg4 arg5 harg5 hc0 hc1 x0 x1 xs0).2.1) = tile4 x0 x1 xs0 := by
  unfold kernelRun0_C; dsimp only
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  rw [tripsLit]
  refine (pb_read_four c i arg2 harg2 arg3 harg3 arg4 harg4 arg5 harg5 hcanon_v12 hcanon_v20 x0 x1 _ _).trans ?_
  rw [harg5.read_unread]

/-- A store of the whole output block, alone, is what a read finds. -/
theorem read_cons_whole4 (arg4 : Memref sig .tc .vmem S1x3x256 .f32) (G : BufTy.Contents (Elt F) arg4.view.ty) (P : Vec F S1x3x256 .f32)
    (L : List (View.Piece (Elt F) S1x3x256 .f32)) :
    arg4.view.read (Elt F) (arg4.view.writes (Elt F) G (⟨Rect.unit (s := S1x3x256) ![0, 0, 0] S1x3x256.size inb_S1x3x256_S1x3x256_0_0_0, P⟩ :: L)) = P := by
  rw [View.read_writes_eq_canon _ _ _ (fun y => ⟨_, List.mem_cons_self, View.mem_set_unit_zero (by funext a; fin_cases a <;> rfl) inb_S1x3x256_S1x3x256_0_0_0 y⟩),
    View.canon_cons_unit_zero (by funext a; fin_cases a <;> rfl)]

theorem tripsLoop : Scf.trips k0_t1_loop.lb k0_t1_loop.ub k0_t1_loop.st = 4 := by decide

/-- At a last tile the output block is the means of the accumulator the tile's chunks leave: the two loads read its
    counts row and its three sums rows. -/
theorem out_C (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) :
    arg4.view.read (Elt F) (arg4.view.writes (Elt F) arg4.view.junk (kernelRun0_C c i arg2 harg2 arg3 harg3 arg4 harg4 arg5 harg5 hc0 hc1 x0 x1 xs0).1) = meansOf (tile4 x0 x1 xs0) := by
  unfold kernelRun0_C; dsimp only
  sl_unfold_run_names
  have hcanon_v12 : (arg2.slice (Rect.unit (s := S1x3x32768) ![0, 0, 0] S1x3x32768.size inb_S1x3x32768_S1x3x32768_0_0_0) (fun _ => rfl)).squeeze S3x32768 squeezes_S1x3x32768_S3x32768 = mvv12 arg2 := rfl
  have hcanon_v20 : (arg3.slice (Rect.unit (s := S1x1x32768) ![0, 0, 0] S1x1x32768.size inb_S1x1x32768_S1x1x32768_0_0_0) (fun _ => rfl)).squeeze S1x32768 squeezes_S1x1x32768_S1x32768 = mvv20 arg3 := rfl
  have hW : arg5.view.read (Elt F) (arg5.view.writes (Elt F) (harg5.unread xs0) (pb_k0_t1 (F := F) Variants.none c none i arg2 harg2 arg3 harg3 arg4 harg4 arg5 harg5 (mvv12 arg2) hcanon_v12 (mvv20 arg3) hcanon_v20 (harg2.unread x0) (harg3.unread x1) (harg5.unread xs0) (Scf.trips k0_t1_loop.lb k0_t1_loop.ub k0_t1_loop.st))) = tile4 x0 x1 xs0 := by
    rw [tripsLoop]
    refine (pb_read_four c i arg2 harg2 arg3 harg3 arg4 harg4 arg5 harg5 hcanon_v12 hcanon_v20 x0 x1 _ _).trans ?_
    rw [harg5.read_unread]
  refine (read_cons_whole4 arg4 _ _ []).trans ?_
  unfold meansOf
  refine congr (congrArg k0_pay3 ?_) ?_
  · funext y
    have h0 : (y 0).val < 1 := (y 0).isLt
    refine (congrFun hW ((Rect.unit (s := S4x256) ![3, 0] S1x256.size inb_S4x256_S1x256_3_0).toLoadRect.idx y)).trans ?_
    unfold row3
    congr 1
    funext a
    match a with
    | ⟨0, _⟩ => exact Fin.ext (by show 3 + 1 * (y 0).val = 3; omega)
    | ⟨1, _⟩ => exact Fin.ext (by show 0 + 1 * (y 1).val = (y 1).val; omega)
  · funext y
    refine (congrFun hW ((Rect.unit (s := S4x256) ![0, 0] S3x256.size inb_S4x256_S3x256_0_0).toLoadRect.idx y)).trans ?_
    unfold rows012
    congr 1
    funext a
    match a with
    | ⟨0, _⟩ => exact Fin.ext (by show 0 + 1 * (y 0).val = (y 0).val; omega)
    | ⟨1, _⟩ => exact Fin.ext (by show 0 + 1 * (y 1).val = (y 1).val; omega)

end Cert.KernelIdeal.R0

end
-- ==== Proof.KI.Val0.lean ====
/-
  What the first kernel region leaves in its output array, as the pure recursion over the grid's points: the blocks
  the body is handed are the tiles of the pixel and label arrays; the accumulator after each point is the recursion's
  (by induction on the point, through the three kinds of point); the block stored at an image's last tile is the
  means of that accumulator; and the blocks written back at the last tiles cover the array of means.
-/
import proofs.«410070_j4063039062509_3_alg».proof.Proof.KI.R0Pure
import proofs.«410070_j4063039062509_3_alg».proof.Proof.KI.R0
import proofs.«410070_j4063039062509_3_alg».proof.Proof.KI.R0Open
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents when the region is entered
variable (V : (c : Dev nD) → (b : Ref sig .tc) → Buf (Elt F) ((c : Thread nD τ).loc b))

open Idealize.ShloMosaic.ValueIdx

/-! ## The blocks the body is handed are the tiles -/

/-- The block indices over the grid: point t is tile t % 8 of image t / 8 for the two inputs, image t / 8 for the output. -/
theorem idx_facts0 : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = 0 :=
  (by decide +kernel : ∀ t : Fin grid0.N, _)

/-- The pixel block at point t is the tile of the pixel array there: a block's coordinate is index × size + the
    coordinate inside the block. -/
theorem blk0_tile (c : Dev nD) (t : Fin cfg0.N) : iblk0 V c 0 t = tileOf0 (V c main_v0) t.val := by
  obtain ⟨e00, e01, e02, -, -, -, -, -, -⟩ := idx_facts0 t
  have hN : t.val < 512 := lt_of_lt_of_eq t.isLt (show cfg0.N = 512 from N_0)
  funext y
  have hy0 : (y 0).val < 1 := (y 0).isLt
  show V c main_v0 (((cfg0.win 0).blk t).view.emb y) = tileOf0 (V c main_v0) t.val y
  unfold tileOf0
  refine congrArg _ ?_
  funext a; apply Fin.ext
  match a with
  | ⟨0, _⟩ => show win0_0.index t (0 : Fin 3) * 1 + 1 * (y 0).val = (t.val / 8) % 64; omega
  | ⟨1, _⟩ => show win0_0.index t (1 : Fin 3) * 3 + 1 * (y 1).val = (y 1).val; omega
  | ⟨2, _⟩ => show win0_0.index t (2 : Fin 3) * 32768 + 1 * (y 2).val = (t.val % 8) * 32768 + (y 2).val; omega

/-- The label block at point t is the tile of the label array there. -/
theorem blk1_tile (c : Dev nD) (t : Fin cfg0.N) : iblk0 V c 1 t = tileOf1 (V c main_v1) t.val := by
  obtain ⟨-, -, -, e10, e11, e12, -, -, -⟩ := idx_facts0 t
  have hN : t.val < 512 := lt_of_lt_of_eq t.isLt (show cfg0.N = 512 from N_0)
  funext y
  have hy0 : (y 0).val < 1 := (y 0).isLt
  have hy1 : (y 1).val < 1 := (y 1).isLt
  show V c main_v1 (((cfg0.win 1).blk t).view.emb y) = tileOf1 (V c main_v1) t.val y
  unfold tileOf1
  refine congrArg _ ?_
  funext a; apply Fin.ext
  match a with
  | ⟨0, _⟩ => show win0_1.index t (0 : Fin 3) * 1 + 1 * (y 0).val = (t.val / 8) % 64; omega
  | ⟨1, _⟩ => show win0_1.index t (1 : Fin 3) * 1 + 1 * (y 1).val = 0; omega
  | ⟨2, _⟩ => show win0_1.index t (2 : Fin 3) * 32768 + 1 * (y 2).val = (t.val % 8) * 32768 + (y 2).val; omega

/-! ## The recursion's equations, and the functions at equal arguments -/

/-- At an image's first tile the accumulator starts from zero. -/
theorem accPt_first (X0 : Vec F S64x3x262144 .f32) (X1 : Vec F S64x1x262144 .i32) (n : ℕ) (h : n % 8 = 0) :
    accPt X0 X1 n = tile4 (tileOf0 X0 n) (tileOf1 X1 n) (k0_pay1 (F := F)) := by
  cases n with
  | zero => rfl
  | succ k => show tile4 _ _ (if (k + 1) % 8 = 0 then _ else _) = _; rw [if_pos h]

/-- At every other tile it starts from what the tile before left. -/
theorem accPt_next (X0 : Vec F S64x3x262144 .f32) (X1 : Vec F S64x1x262144 .i32) (n : ℕ) (h : ¬ n % 8 = 0) :
    accPt X0 X1 n = tile4 (tileOf0 X0 n) (tileOf1 X1 n) (accPt X0 X1 (n - 1)) := by
  cases n with
  | zero => exact absurd (Nat.zero_mod _) h
  | succ k => show tile4 _ _ (if (k + 1) % 8 = 0 then _ else _) = _; rw [if_neg h]; rfl

theorem tile4_congr {x0 x0' : Vec F S1x3x32768 .f32} {x1 x1' : Vec F S1x1x32768 .i32} {s s' : Vec F S4x256 .f32}
    (h0 : x0 = x0') (h1 : x1 = x1') (hs : s = s') : tile4 x0 x1 s = tile4 x0' x1' s' := by
  subst h0; subst h1; subst hs; rfl

theorem meanBlk_congr (X0 : Vec F S64x3x262144 .f32) (X1 : Vec F S64x1x262144 .i32) {n n' : ℕ} {y y' : S1x3x256.Idx}
    (hn : n = n') (hy : y = y') : meanBlk X0 X1 n y = meanBlk X0 X1 n' y' := by
  subst hn; subst hy; rfl

/-! ## The accumulator after each point, and the block of means at an image's last tile -/

/-- THE ACCUMULATOR after point n is the recursion's: by induction on the point, the kind of point read off n % 8. -/
theorem scratch_pt (c : Dev nD) : ∀ (n : ℕ) (hn : n < cfg0.N), (outsAt0 V c n hn).2 = accPt (V c main_v0) (V c main_v1) n := by
  intro n
  induction n using Nat.strong_induction_on with
  | _ n ih =>
    intro hn
    by_cases h0 : n % 8 = 0
    · have h1 : ¬ n % 8 = 7 := by omega
      refine (congrArg Prod.snd (outsAt0_A V c ⟨n, hn⟩ h0 h1)).trans ?_
      show sout0_A_0 c _ _ _ _ _ _ _ _ _ _ _ (iblk0 V c 0 ⟨n, hn⟩) (iblk0 V c 1 ⟨n, hn⟩) = _
      unfold sout0_A_0
      refine (scratch_A (arg5 := scM0_0) ..).trans ?_
      rw [accPt_first _ _ n h0]
      exact tile4_congr (blk0_tile V c ⟨n, hn⟩) (blk1_tile V c ⟨n, hn⟩) rfl
    · have ihp := ih (n - 1) (by omega) (Nat.lt_of_le_of_lt (Nat.sub_le _ _) hn)
      by_cases h1 : n % 8 = 7
      · refine (congrArg Prod.snd (outsAt0_C V c ⟨n, hn⟩ h0 h1)).trans ?_
        show sout0_C_0 c _ _ _ _ _ _ _ _ _ _ _ (iblk0 V c 0 ⟨n, hn⟩) (iblk0 V c 1 ⟨n, hn⟩) _ = _
        unfold sout0_C_0
        refine (scratch_C (arg5 := scM0_0) ..).trans ?_
        rw [accPt_next _ _ n h0]
        exact tile4_congr (blk0_tile V c ⟨n, hn⟩) (blk1_tile V c ⟨n, hn⟩) ihp
      · refine (congrArg Prod.snd (outsAt0_B V c ⟨n, hn⟩ h0 h1)).trans ?_
        show sout0_B_0 c _ _ _ _ _ _ _ _ _ _ _ (iblk0 V c 0 ⟨n, hn⟩) (iblk0 V c 1 ⟨n, hn⟩) _ = _
        unfold sout0_B_0
        refine (scratch_B (arg5 := scM0_0) ..).trans ?_
        rw [accPt_next _ _ n h0]
        exact tile4_congr (blk0_tile V c ⟨n, hn⟩) (blk1_tile V c ⟨n, hn⟩) ihp

/-- The one store of a last tile, read back, does not depend on the buffer it is read through: it is the means of the
    accumulator the tile leaves. -/
theorem out0_C_2_eq (c : Dev nD) (i : grid0.Coords) (arg2 : Memref sig .tc .vmem S1x3x32768 .f32) (harg2 : arg2.IsWhole) (arg3 : Memref sig .tc .vmem S1x1x32768 .i32) (harg3 : arg3.IsWhole) (arg4 : Memref sig .tc .vmem S1x3x256 .f32) (harg4 : arg4.IsWhole) (arg5 : Memref sig .tc .vmem S4x256 .f32) (harg5 : arg5.IsWhole) (hc0 : ¬cond0_0 i) (hc1 : cond0_1 i)
    (x0 : Vec F S1x3x32768 .f32) (x1 : Vec F S1x1x32768 .i32) (xs0 : Vec F S4x256 .f32) :
    out0_C_2 c i arg2 harg2 arg3 harg3 arg4 harg4 arg5 harg5 hc0 hc1 x0 x1 xs0 = meansOf (tile4 x0 x1 xs0) := by
  unfold out0_C_2
  rw [View.read_writes_junk_eq_canon, ← View.read_writes_junk_eq_canon arg4.view]
  exact out_C (arg4 := arg4) ..

/-- THE BLOCK OF MEANS stored at an image's last tile is the means of the accumulator after the tile. -/
theorem out_pt (c : Dev nD) (t : Fin cfg0.N) (h1 : t.val % 8 = 7) :
    (outsAt0 V c t.val t.isLt).1 = meanBlk (V c main_v0) (V c main_v1) t.val := by
  have h0 : ¬ t.val % 8 = 0 := by omega
  rw [outsAt0_C V c t h0 h1]
  dsimp only
  refine (out0_C_2_eq ..).trans ?_
  unfold meanBlk
  rw [accPt_next _ _ t.val h0]
  exact congrArg meansOf (tile4_congr (blk0_tile V c t) (blk1_tile V c t) (scratch_pt V c (t.val - 1) _))

/-! ## From the blocks to the array -/

/-- What the output array ends holding: at [image, channel, label] the block of means of the image's last tile. -/
def G2 (c : Dev nD) : S64x3x256.Idx → Elt F .f32 := fun i =>
  meanBlk (V c main_v0) (V c main_v1) (8 * (i 0).val + 7) (ix3 0 (i 1) (i 2))

/-- What a point that writes back (an image's last tile) writes is its block of G2. -/
theorem flushed2_eq (c : Dev nD) (t : Fin cfg0.N) (hf : (cfg0.win 2).flush t = true) :
    (dat0 V c).flushed 2 t = ((cfg0.win 2).blk t).view.read (Elt F) (G2 V c) := by
  have h1 : t.val % 8 = 7 := (flush0_2 t).mp hf
  show (cfg0.win 2).cut (grid0.coords t) ((dat0 V c).after 2 t) = _
  rw [after0_2, out_pt V c t h1]
  obtain ⟨-, -, -, -, -, -, e20, e21, e22⟩ := idx_facts0 t
  funext y
  have hy0 : (y 0).val < 1 := (y 0).isLt
  show meanBlk (V c main_v0) (V c main_v1) t.val y = G2 V c (((cfg0.win 2).blk t).view.emb y)
  unfold G2
  refine meanBlk_congr _ _ ?_ ?_
  · show t.val = 8 * (win0_2.index t (0 : Fin 3) * 1 + 1 * (y 0).val) + 7; omega
  · funext a; apply Fin.ext
    match a with
    | ⟨0, _⟩ => show (y 0).val = 0; omega
    | ⟨1, _⟩ => show (y 1).val = win0_2.index t (1 : Fin 3) * 3 + 1 * (y 1).val; omega
    | ⟨2, _⟩ => show (y 2).val = win0_2.index t (2 : Fin 3) * 256 + 1 * (y 2).val; omega

/-- An index of the array is in point t's block iff each coordinate is in the block's range on its axis. -/
theorem mem_blk2 (t : Fin cfg0.N) (i : S64x3x256.Idx) :
    i ∈ ((cfg0.win 2).blk t).view.set ↔ ∀ a : Fin 3, win0_2.index t a * S1x3x256.size a ≤ (i a).val ∧ (i a).val < win0_2.index t a * S1x3x256.size a + S1x3x256.size a := by
  show i ∈ ((View.whole main_v2).slice (win0_2.rect t)).set ↔ _
  rw [View.set_slice_whole, Rect.mem_set_unit]
  exact Iff.rfl

/-- Every index of the array is in the block written back at its image's last tile. -/
theorem cover2 (i : S64x3x256.Idx) :
    ∃ t : Fin cfg0.N, (cfg0.win 2).flush t = true ∧ i ∈ ((cfg0.win 2).blk t).view.set := by
  have hi0 : (i 0).val < 64 := (i 0).isLt
  have hi1 : (i 1).val < 3 := (i 1).isLt
  have hi2 : (i 2).val < 256 := (i 2).isLt
  obtain ⟨t, ht⟩ : ∃ t : Fin cfg0.N, t.val = 8 * (i 0).val + 7 :=
    ⟨⟨8 * (i 0).val + 7, by rw [show cfg0.N = grid0.N from rfl, N_0]; omega⟩, rfl⟩
  refine ⟨t, (flush0_2 t).mpr (by omega), ?_⟩
  rw [mem_blk2]
  obtain ⟨-, -, -, -, -, -, e20, e21, e22⟩ := idx_facts0 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 3 ≤ (i 1).val ∧ (i 1).val < win0_2.index t (1 : Fin 3) * 3 + 3; omega
  | ⟨2, _⟩ => show win0_2.index t (2 : Fin 3) * 256 ≤ (i 2).val ∧ (i 2).val < win0_2.index t (2 : Fin 3) * 256 + 256; omega

/-- THE OUTPUT ARRAY after the region: at [image b, channel, label] the block of means stored at point 8 b + 7. -/
theorem arr2_eq (c : Dev nD) (b : Fin 64) (ch : Fin 3) (s : Fin 256) :
    (dat0 V c).arrAt 2 cfg0.N (ix3 b ch s) = meanBlk (V c main_v0) (V c main_v1) (8 * b.val + 7) (ix3 0 ch s) :=
  congrFun ((dat0 V c).arrAt_eq_of_cover 2 (G2 V c) (fun t hf => flushed2_eq V c t hf) cover2) (ix3 b ch s)

end Cert.KernelIdeal.R0

end
-- ==== Proof.KI.R1Val.lean ====
/-
  What the second kernel region leaves in its output array, as one function of the contents the region is entered
  with: at [image, node, feature] the body's payload of the image's block of the first input and of the four whole
  arrays, read at [0, node, feature]. Every point writes back its block of that one function, and the blocks cover
  the array (the point an index's leading coordinate names covers it).
-/
import proofs.«410070_j4063039062509_3_alg».proof.Proof.KI.R1
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents when the region is entered
variable (V : (c : Dev nD) → (b : Ref sig .tc) → Buf (Elt F) ((c : Thread nD τ).loc b))

open Idealize.ShloMosaic.ValueIdx

/-- The whole-block rectangles' offsets are zero on every axis. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- What the output array ends holding: at [image, node, feature] the body's payload of the image's block of the
    first input and of the four whole arrays, read at [0, node, feature]. -/
def G5 (c : Dev nD) : S64x256x768.Idx → Elt F .f32 := fun i =>
  k1_pay1 (F := F) (fun y => V c main_v2 (ix3 (i 0) (y 1) (y 2))) (V c main_arg2) (V c main_v3) (V c main_arg4) (V c main_v4) (ix3 0 (i 1) (i 2))

/-- The block indices over the grid: the first input's and the output's blocks are the point's own on the leading axis,
    every other index is zero. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

/-- The payload at equal arguments. -/
theorem pay_congr (x0 x0' : Vec F S1x3x256 .f32) (x1 x1' : Vec F S3x768 .f32) (x2 x2' : Vec F S1x768 .f32)
    (x3 x3' : Vec F S768x768 .f32) (x4 x4' : Vec F S1x768 .f32) (y y' : S1x256x768.Idx)
    (h0 : x0 = x0') (h1 : x1 = x1') (h2 : x2 = x2') (h3 : x3 = x3') (h4 : x4 = x4') (hy : y = y') :
    k1_pay1 x0 x1 x2 x3 x4 y = k1_pay1 x0' x1' x2' x3' x4' y' := by
  subst h0; subst h1; subst h2; subst h3; subst h4; subst hy; rfl

/-- What point t writes back is block t of G5: each input block is read where its rectangle says (a block's
    coordinate is index × size + the coordinate inside the block), and the output block's leading coordinate is 0. -/
theorem flushed5_eq (c : Dev nD) (t : Fin cfg1.N) :
    (dat1 V c).flushed 5 t = ((cfg1.win 5).blk t).view.read (Elt F) (G5 V c) := by
  show (cfg1.win 5).cut (grid1.coords t) ((dat1 V c).after 5 t) = _
  rw [after1_5]
  unfold out1_5
  rw [View.canon_unit_zero zeros3]
  simp only [View.ld_unit_zero (S := S1x3x256) zeros3, View.ld_unit_zero (S := S3x768) zeros2,
    View.ld_unit_zero (S := S1x768) zeros2, View.ld_unit_zero (S := S768x768) zeros2]
  obtain ⟨e00, e01, e02, e10, e11, e20, e21, e30, e31, e40, e41, e50, e51, e52⟩ := idx_facts t
  funext y
  show k1_pay1 (F := F) (fun y' : S1x3x256.Idx => V c main_v2 (((cfg1.win 0).blk t).view.emb y'))
      (fun y' : S3x768.Idx => V c main_arg2 (((cfg1.win 1).blk t).view.emb y'))
      (fun y' : S1x768.Idx => V c main_v3 (((cfg1.win 2).blk t).view.emb y'))
      (fun y' : S768x768.Idx => V c main_arg4 (((cfg1.win 3).blk t).view.emb y'))
      (fun y' : S1x768.Idx => V c main_v4 (((cfg1.win 4).blk t).view.emb y')) y
    = G5 V c (((cfg1.win 5).blk t).view.emb y)
  unfold G5
  have hy0 : (y 0).val < 1 := (y 0).isLt
  refine pay_congr _ _ _ _ _ _ _ _ _ _ _ _ (funext fun y' => congrArg _ ?_) (funext fun y' => congrArg _ ?_)
    (funext fun y' => congrArg _ ?_) (funext fun y' => congrArg _ ?_) (funext fun y' => congrArg _ ?_) ?_
  · funext a; apply Fin.ext
    have hy'0 : (y' 0).val < 1 := (y' 0).isLt
    match a with
    | ⟨0, _⟩ => show win1_0.index t (0 : Fin 3) * 1 + 1 * (y' 0).val = win1_5.index t (0 : Fin 3) * 1 + 1 * (y 0).val; omega
    | ⟨1, _⟩ => show win1_0.index t (1 : Fin 3) * 3 + 1 * (y' 1).val = (y' 1).val; omega
    | ⟨2, _⟩ => show win1_0.index t (2 : Fin 3) * 256 + 1 * (y' 2).val = (y' 2).val; omega
  · funext a; apply Fin.ext
    match a with
    | ⟨0, _⟩ => show win1_1.index t (0 : Fin 2) * 3 + 1 * (y' 0).val = (y' 0).val; omega
    | ⟨1, _⟩ => show win1_1.index t (1 : Fin 2) * 768 + 1 * (y' 1).val = (y' 1).val; omega
  · funext a; apply Fin.ext
    match a with
    | ⟨0, _⟩ => show win1_2.index t (0 : Fin 2) * 1 + 1 * (y' 0).val = (y' 0).val; omega
    | ⟨1, _⟩ => show win1_2.index t (1 : Fin 2) * 768 + 1 * (y' 1).val = (y' 1).val; omega
  · funext a; apply Fin.ext
    match a with
    | ⟨0, _⟩ => show win1_3.index t (0 : Fin 2) * 768 + 1 * (y' 0).val = (y' 0).val; omega
    | ⟨1, _⟩ => show win1_3.index t (1 : Fin 2) * 768 + 1 * (y' 1).val = (y' 1).val; omega
  · funext a; apply Fin.ext
    match a with
    | ⟨0, _⟩ => show win1_4.index t (0 : Fin 2) * 1 + 1 * (y' 0).val = (y' 0).val; omega
    | ⟨1, _⟩ => show win1_4.index t (1 : Fin 2) * 768 + 1 * (y' 1).val = (y' 1).val; omega
  · funext a; apply Fin.ext
    match a with
    | ⟨0, _⟩ => show (y 0).val = 0; omega
    | ⟨1, _⟩ => show (y 1).val = win1_5.index t (1 : Fin 3) * 256 + 1 * (y 1).val; omega
    | ⟨2, _⟩ => show (y 2).val = win1_5.index t (2 : Fin 3) * 768 + 1 * (y 2).val; omega

/-- An index of the array is in point t's block iff each coordinate is in the block's range on its axis. -/
theorem mem_blk5 (t : Fin cfg1.N) (i : S64x256x768.Idx) :
    i ∈ ((cfg1.win 5).blk t).view.set ↔ ∀ a : Fin 3, win1_5.index t a * S1x256x768.size a ≤ (i a).val ∧ (i a).val < win1_5.index t a * S1x256x768.size a + S1x256x768.size a := by
  show i ∈ ((View.whole main_v5).slice (win1_5.rect t)).set ↔ _
  rw [View.set_slice_whole, Rect.mem_set_unit]
  exact Iff.rfl

/-- Every index of the array is in the block of the point its leading coordinate names. -/
theorem cover5 (i : S64x256x768.Idx) :
    ∃ t : Fin cfg1.N, (cfg1.win 5).flush t = true ∧ i ∈ ((cfg1.win 5).blk t).view.set := by
  have hi0 : (i 0).val < 64 := (i 0).isLt
  have hi1 : (i 1).val < 256 := (i 1).isLt
  have hi2 : (i 2).val < 768 := (i 2).isLt
  obtain ⟨t, ht⟩ : ∃ t : Fin cfg1.N, t.val = (i 0).val :=
    ⟨⟨(i 0).val, by rw [show cfg1.N = grid1.N from rfl, N_1]; exact hi0⟩, rfl⟩
  refine ⟨t, flush1_5 t, ?_⟩
  rw [mem_blk5]
  obtain ⟨-, -, -, -, -, -, -, -, -, -, -, e50, e51, e52⟩ := idx_facts t
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 768 ≤ (i 2).val ∧ (i 2).val < win1_5.index t (2 : Fin 3) * 768 + 768; omega

/-- The output array after the region, as one function of the entry contents. -/
theorem arr5_eq (c : Dev nD) (i : S64x256x768.Idx) :
    (dat1 V c).arrAt 5 cfg1.N i
      = k1_pay1 (F := F) (fun y => V c main_v2 (ix3 (i 0) (y 1) (y 2))) (V c main_arg2) (V c main_v3) (V c main_arg4) (V c main_v4) (ix3 0 (i 1) (i 2)) :=
  congrFun ((dat1 V c).arrAt_eq_of_cover 5 (G5 V c) (fun t _ => flushed5_eq V c t) cover5) i

end Cert.KernelIdeal.R1

end
-- ==== Proof.PayK0.lean ====
/-
  The three values the segment-mean kernel stores, read at an index over the extended reals.

  • The first store writes the zero array: every element is 0.
  • The store inside the loop writes, at (r, s), the accumulator there plus Σ_k L[r, k] · R[s, k] over the 8192 pixels of
    the chunk, where L is the three channel rows with a row of ones appended (row 3 counts pixels) and R[s, k] is the
    indicator, as 0 or 1, that pixel k carries label s.
  • The last store writes, at (0, c, s), the channel sum divided by the count clamped below at one.
-/
import proofs.«410070_j4063039062509_3_alg».proof.Proof.Gen.KernelIdeal.Skeleton
import proofs.«410070_j4063039062509_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.PayK0

open Cert.KernelIdeal Cert.KernelIdeal.Gen Idealize.ShloMosaic Idealize.ShloMosaic.ValueIdx

variable [Cert.KernelIdeal.Facts]

/-! ## The zero array -/

/-- Every element of the first stored value is the real number 0 (the f32 word of all zero bits). -/
theorem pay1_apply (j : S4x256.Idx) : (k0_pay1 (F := Ideal)) j = 0 := by
  unfold k0_pay1
  rw [shapeCast_self]
  exact Ideal.ofBits_zero_f32

/-! ## The label indicator -/

/-- A label below 256, written as a 32-bit word, reads back as itself when the word is taken signed. -/
theorem ofNat_toInt (s : Fin 256) : (BitVec.ofNat 32 s.val).toInt = (s.val : ℤ) := by
  have h := s.isLt
  rw [BitVec.toInt_eq_toNat_cond, BitVec.toNat_ofNat]
  rw [Nat.mod_eq_of_lt (by omega), if_pos (by omega)]

/-- Comparing the label word with the row number as real numbers, widening the resulting bit and converting it to a
    real gives the indicator: two integers are equal as extended reals exactly when they are equal, the bit 1 widens
    to the integer 1 and the bit 0 to the integer 0. -/
theorem oh_word (w : BitVec 32) (s : Fin 256) :
    ((((Ideal.cmp .oeq ((w.toInt : ℝ) : EReal) (((BitVec.ofNat 32 s.val).toInt : ℝ) : EReal)).setWidth 32).toInt : ℝ) : EReal)
      = Cert.Spec.oh w s := by
  rw [ofNat_toInt]
  unfold Cert.Spec.oh
  show ((((BitVec.ofBool (decide (((w.toInt : ℝ) : EReal) = (((s.val : ℤ) : ℝ) : EReal)))).setWidth 32).toInt : ℝ) : EReal) = _
  by_cases h : w.toInt = (s.val : ℤ)
  · rw [if_pos h, decide_eq_true (by rw [h])]
    have h1 : ((BitVec.ofBool true).setWidth 32).toInt = 1 := by decide
    rw [h1]; norm_num
  · rw [if_neg h]
    have hne : ¬ (((w.toInt : ℝ) : EReal) = (((s.val : ℤ) : ℝ) : EReal)) := by
      rw [EReal.coe_eq_coe_iff]; exact_mod_cast h
    rw [decide_eq_false hne]
    have h0 : ((BitVec.ofBool false).setWidth 32).toInt = 0 := by decide
    rw [h0]; norm_num

/-- The right operand of the product at (s, k): the label row broadcast down the 256 rows meets the row numbers
    broadcast across the 8192 columns, so the element compares pixel k's label with s; a change of float format is the
    identity on extended reals. -/
theorem rhs_read (v22 : Vec Ideal S1x8192 .i32) (s : Fin 256) (k : Fin 8192) :
    (truncf .bf16 (sitofp .f32 (extui 32 (cmpf .oeq
        (broadcastTo S256x8192 (sitofp .bf16 (shapeCast S1x8192 v22 shapeCasts_S1x8192_S1x8192 : IVec S1x8192 32) : FVec Ideal S1x8192 .bf16) broadcasts_S1x8192_S256x8192)
        (broadcastTo S256x8192 (sitofp .bf16 (iota .tc S256x1 32 [0] iota_S256x1_d0_w32) : FVec Ideal S256x1 .bf16) broadcasts_S256x1_S256x8192))
        natLt_1_32) : FVec Ideal S256x8192 .f32) bitsLt_bf16_f32 : FVec Ideal S256x8192 .bf16) (ix2 s k)
      = Cert.Spec.oh (v22 (ix2 0 k)) s := by
  rw [truncf_apply, sitofp_apply, extui_apply, cmpf_apply, broadcastTo_1b_ab_apply,
    broadcastTo_apply (s := S256x1) (t := S256x8192) _ broadcasts_S256x1_S256x8192 (ix2 s k) (ix2 s (0 : Fin 1)) (fun a => match a with
      | ⟨0, _⟩ => by show s.val = if (256 : Nat) = 1 then 0 else s.val; rw [if_neg (by decide)]
      | ⟨1, _⟩ => by show 0 = if (1 : Nat) = 1 then 0 else k.val; rw [if_pos rfl]),
    sitofp_apply, sitofp_apply, iota_single_apply, shapeCast_self]
  exact oh_word (v22 (ix2 0 k)) s

/-! ## The left operand: three channel rows and a row of ones -/

/-- The left operand of the product at (r, k): rows 0, 1, 2 are the channel rows (a change of float format is the
    identity on extended reals), row 3 is the appended row, whose bf16 word 0x3F80 is the real number 1. -/
theorem lhs_read (v14 : Vec Ideal S3x8192 .f32) (r : Fin 4) (k : Fin 8192) :
    concatenate S4x8192 0 [⟨S3x8192, (truncf .bf16 (shapeCast S3x8192 v14 shapeCasts_S3x8192_S3x8192 : FVec Ideal S3x8192 .f32) bitsLt_bf16_f32 : FVec Ideal S3x8192 .bf16)⟩,
        ⟨S1x8192, (broadcast S1x8192 (Scalar.ofBits (F := Ideal) .bf16 0x3F80#16) : FVec Ideal S1x8192 .bf16)⟩]
        concatenates_S3x8192_S1x8192_S4x8192_d0 (ix2 r k)
      = if h : r.val < 3 then v14 (ix2 ⟨r.val, h⟩ k) else 1 := by
  by_cases h : r.val < 3
  · rw [dif_pos h]
    refine (concatenate_pair_apply_left (t := S4x8192) (s₁ := S3x8192) (s₂ := S1x8192) (0 : Fin 2) _ _ _ (ix2 r k) rfl (ix2 ⟨r.val, h⟩ k)
      (fun b => match b with | ⟨0, _⟩ => rfl | ⟨1, _⟩ => rfl)).trans ?_
    rw [truncf_apply, shapeCast_self]
  · rw [dif_neg h]
    refine (concatenate_pair_apply_right (t := S4x8192) (s₁ := S3x8192) (s₂ := S1x8192) (0 : Fin 2) _ _ _ (ix2 r k) rfl rfl (ix2 (0 : Fin 1) k)
      (fun b hb => match b with | ⟨0, _⟩ => absurd rfl hb | ⟨1, _⟩ => rfl)
      (by have := r.isLt; show 0 + 3 = r.val; omega)).trans ?_
    rw [broadcast_apply]
    exact Ideal.ofBits_one_bf16

/-! ## The product as a sum over the chunk's pixels -/

/-- The product's dimension numbers: axis 1 of both operands is contracted, axis 0 of each is kept. -/
abbrev D : DotDims S4x8192 S256x8192 S4x256 := dot_S4x8192_S256x8192_S4x256_1_1_0_0_n_n

/-- The left operand's row is the result's row. -/
theorem lhs_0 (i : S4x256.Idx) (q : D.contr.Idx) : (D.lhsIdx i q 0).val = (i 0).val := by
  unfold DotDims.lhsIdx
  rw [dif_neg (show ¬(0 : Fin S4x8192.rank) ∈ D.lhsBatch by decide), dif_pos (show (0 : Fin S4x8192.rank) ∈ D.lhsNonContracting by decide)]
  rfl
/-- The left operand's column is the contraction position. -/
theorem lhs_1 (i : S4x256.Idx) (q : D.contr.Idx) : (D.lhsIdx i q 1).val = (q ⟨0, by decide⟩).val :=
  D.lhsIdx_val_of_single rfl i q
/-- The right operand's row is the result's column. -/
theorem rhs_0 (i : S4x256.Idx) (q : D.contr.Idx) : (D.rhsIdx i q 0).val = (i 1).val := by
  unfold DotDims.rhsIdx
  rw [dif_neg (show ¬(0 : Fin S256x8192.rank) ∈ D.rhsBatch by decide), dif_pos (show (0 : Fin S256x8192.rank) ∈ D.rhsNonContracting by decide)]
  rfl
/-- The right operand's column is the contraction position. -/
theorem rhs_1 (i : S4x256.Idx) (q : D.contr.Idx) : (D.rhsIdx i q 1).val = (q ⟨0, by decide⟩).val :=
  D.rhsIdx_val_of_single rfl i q

/-- The product into the zero accumulator at (r, s) is Σ_k lhs[r, k] · rhs[s, k]: the contraction index has one
    coordinate, and the sum is re-indexed through it. -/
theorem matmul_read (lhs : FVec Ideal S4x8192 .bf16) (rhs : FVec Ideal S256x8192 .bf16) (r : Fin 4) (s : Fin 256) :
    matmul D none lhs rhs (constant (F := Ideal) S4x256 .f32 0x00000000#32) (ix2 r s)
      = ∑ k : Fin 8192, lhs (ix2 r k) * rhs (ix2 s k) := by
  simp only [matmul]
  rw [Ideal.matmul_constant_zero_apply, ← Equiv.sum_comp (contrEquiv1 D 8192 rfl rfl).symm]
  refine Finset.sum_congr rfl fun k _ => ?_
  have hk := contrEquiv1_symm_val D 8192 rfl rfl k
  have el : D.lhsIdx (ix2 r s) ((contrEquiv1 D 8192 rfl rfl).symm k) = ix2 r k := funext fun a => Fin.ext (by
    match a with
    | ⟨0, _⟩ => exact lhs_0 _ _
    | ⟨1, _⟩ => exact (lhs_1 _ _).trans hk)
  have er : D.rhsIdx (ix2 r s) ((contrEquiv1 D 8192 rfl rfl).symm k) = ix2 s k := funext fun a => Fin.ext (by
    match a with
    | ⟨0, _⟩ => exact rhs_0 _ _
    | ⟨1, _⟩ => exact (rhs_1 _ _).trans hk)
  rw [el, er]

/-- The value stored inside the loop at (r, s): the accumulator plus the chunk's sum of (channel r, or 1 on row 3)
    times the indicator of label s. -/
theorem pay2_apply (v14 : Vec Ideal S3x8192 .f32) (v22 : Vec Ideal S1x8192 .i32) (v32 : Vec Ideal S4x256 .f32) (r : Fin 4) (s : Fin 256) :
    k0_pay2 (F := Ideal) v14 v22 v32 (ix2 r s)
      = v32 (ix2 r s) + ∑ k : Fin 8192, (if h : r.val < 3 then v14 (ix2 ⟨r.val, h⟩ k) else 1) * Cert.Spec.oh (v22 (ix2 0 k)) s := by
  unfold k0_pay2
  rw [shapeCast_self, addf_apply]
  refine congrArg (v32 (ix2 r s) + ·) ?_
  refine (matmul_read _ _ r s).trans ?_
  refine Finset.sum_congr rfl fun k _ => ?_
  exact congrArg₂ (· * ·) (lhs_read v14 r k) (rhs_read v22 s k)

/-! ## The means -/

/-- The last stored value at (0, c, s): the channel sum over the count, the count clamped below at the real number 1
    (the f32 word 0x3F800000); the count's one row is read on every channel row, and the added unit axis does not move
    the element. -/
theorem pay3_apply (v9 : Vec Ideal S1x256 .f32) (v12 : Vec Ideal S3x256 .f32) (c : Fin 3) (s : Fin 256) :
    k0_pay3 (F := Ideal) v9 v12 (ix3 0 c s) = Ideal.div (v12 (ix2 c s)) (max (v9 (ix2 0 s)) 1) := by
  unfold k0_pay3
  refine (shapeCast_ab_1ab_apply _ _ 0 c s).trans ?_
  rw [divf_apply, broadcastTo_1b_ab_apply, maximumf_apply, broadcast_apply]
  rw [Ideal.ofBits_def, Ideal.ofBits_one_f32]

end Cert.KernelIdeal.PayK0

end
-- ==== Proof.KI.R0Math.lean ====
/-
  The first kernel's accumulation as mathematics, at the extended reals.

  Image b has 262144 pixels; tile kt of the image (grid point 8 · b + kt) holds pixels kt · 32768 … (kt + 1) · 32768 − 1 in
  four chunks of 8192. Entry (r, s) of the accumulator receives from pixel p the product of the pixel's channel r
  (or one, on row 3) and the indicator that the pixel's label is s. One chunk adds its 8192 pixels' contributions, so
  a chunk that starts at pixel off takes the sum over the first off pixels to the sum over the first off + 8192
  (a sum over an initial segment of the naturals splits at any point); a tile does that four times; the accumulator
  starts from zero at tile 0. By induction on the tile, after tile kt the accumulator holds the sum over the first
  (kt + 1) · 32768 pixels; after tile 7 that is the whole image: rows 0–2 are the specification's sums, row 3 its
  counts, and the block of means is the sums over the counts clamped from below by one.
-/
import proofs.«410070_j4063039062509_3_alg».proof.Proof.KI.R0Pure
import proofs.«410070_j4063039062509_3_alg».proof.Proof.PayK0
import proofs.«410070_j4063039062509_3_alg».proof.Proof.Spec
import Idealize.ShloMosaic.Lib.ValueIdx
import Mathlib.Algebra.BigOperators.Group.Finset.Basic
import Mathlib.Algebra.BigOperators.Fin

noncomputable section

namespace Cert.KernelIdeal.R0Math

open Cert.KernelIdeal Cert.KernelIdeal.Gen Cert.KernelIdeal.R0 Idealize.ShloMosaic Idealize.ShloMosaic.ValueIdx

variable [Cert.KernelIdeal.Facts]

/-- The contribution of pixel `p` of image `b` to entry (r, s) of the accumulator: the pixel's channel `r` (or one,
    on the counts row) times the indicator that its label is `s`; zero past the image's last pixel. -/
def term (X0 : Vec Ideal S64x3x262144 .f32) (X1 : Vec Ideal S64x1x262144 .i32) (b : Fin 64) (r : Fin 4) (s : Fin 256)
    (p : ℕ) : EReal :=
  if h : p < 262144 then
    (if hr : r.val < 3 then X0 (ix3 b (⟨r.val, hr⟩ : Fin 3) (⟨p, h⟩ : Fin 262144)) else 1)
      * Cert.Spec.oh (X1 (ix3 b (0 : Fin 1) (⟨p, h⟩ : Fin 262144))) s
  else 0

/-- One chunk adds its 8192 pixels' contributions. -/
theorem chunk_read (X0 : Vec Ideal S64x3x262144 .f32) (X1 : Vec Ideal S64x1x262144 .i32) (b : Fin 64) (kt : ℕ)
    (hkt : kt < 8) (k : Fin 4) (acc : Vec Ideal S4x256 .f32) (r : Fin 4) (s : Fin 256) :
    chunkAdd (tileOf0 X0 (8 * b.val + kt)) (tileOf1 X1 (8 * b.val + kt)) k acc (ix2 r s)
      = acc (ix2 r s) + ∑ q ∈ Finset.range 8192, term X0 X1 b r s (kt * 32768 + k.val * 8192 + q) := by
  have hb := b.isLt
  have hk := k.isLt
  unfold chunkAdd
  rw [PayK0.pay2_apply, Finset.sum_range]
  congr 1
  refine Finset.sum_congr rfl (fun q _ => ?_)
  have hq := q.isLt
  have hp : kt * 32768 + k.val * 8192 + q.val < 262144 := by omega
  unfold term
  rw [dif_pos hp]
  refine congrArg₂ (· * ·) ?_ ?_
  · by_cases hr : r.val < 3
    · rw [dif_pos hr, dif_pos hr]
      unfold blk3 tileOf0
      refine congrArg X0 ?_
      funext a
      match a with
      | ⟨0, _⟩ =>
        apply Fin.ext
        show (8 * b.val + kt) / 8 % 64 = b.val
        omega
      | ⟨1, _⟩ => rfl
      | ⟨2, _⟩ =>
        apply Fin.ext
        show (8 * b.val + kt) % 8 * 32768 + (k.val * 8192 + q.val) = kt * 32768 + k.val * 8192 + q.val
        omega
    · rw [dif_neg hr, dif_neg hr]
  · unfold blk1 tileOf1
    refine congrArg (fun t => Cert.Spec.oh (X1 t) s) ?_
    funext a
    match a with
    | ⟨0, _⟩ =>
      apply Fin.ext
      show (8 * b.val + kt) / 8 % 64 = b.val
      omega
    | ⟨1, _⟩ => rfl
    | ⟨2, _⟩ =>
      apply Fin.ext
      show (8 * b.val + kt) % 8 * 32768 + (k.val * 8192 + q.val) = kt * 32768 + k.val * 8192 + q.val
      omega

/-- The contributions of the first `m` pixels of image `b` to entry (r, s). -/
def psum (X0 : Vec Ideal S64x3x262144 .f32) (X1 : Vec Ideal S64x1x262144 .i32) (b : Fin 64) (r : Fin 4) (s : Fin 256)
    (m : ℕ) : EReal :=
  ∑ p ∈ Finset.range m, term X0 X1 b r s p

/-- A chunk that starts at pixel `off` takes the sum of the first `off` pixels to that of the first `off + 8192`. -/
theorem chunk_step (X0 : Vec Ideal S64x3x262144 .f32) (X1 : Vec Ideal S64x1x262144 .i32) (b : Fin 64) (kt : ℕ)
    (hkt : kt < 8) (k : Fin 4) (off : ℕ) (hoff : off = kt * 32768 + k.val * 8192) (acc : Vec Ideal S4x256 .f32)
    (r : Fin 4) (s : Fin 256) (h : acc (ix2 r s) = psum X0 X1 b r s off) :
    chunkAdd (tileOf0 X0 (8 * b.val + kt)) (tileOf1 X1 (8 * b.val + kt)) k acc (ix2 r s)
      = psum X0 X1 b r s (off + 8192) := by
  rw [chunk_read X0 X1 b kt hkt, h, ← hoff]
  unfold psum
  exact (Finset.sum_range_add _ _ _).symm

/-- A tile takes the sum of the pixels before it to the sum through its last pixel: four chunks in order. -/
theorem tile_step (X0 : Vec Ideal S64x3x262144 .f32) (X1 : Vec Ideal S64x1x262144 .i32) (b : Fin 64) (kt : ℕ)
    (hkt : kt < 8) (acc : Vec Ideal S4x256 .f32) (r : Fin 4) (s : Fin 256)
    (h : acc (ix2 r s) = psum X0 X1 b r s (kt * 32768)) :
    tile4 (tileOf0 X0 (8 * b.val + kt)) (tileOf1 X1 (8 * b.val + kt)) acc (ix2 r s)
      = psum X0 X1 b r s ((kt + 1) * 32768) := by
  unfold tile4
  have h0 := chunk_step X0 X1 b kt hkt 0 (kt * 32768) (by show _ = _ + 0 * 8192; omega) acc r s h
  have h1 := chunk_step X0 X1 b kt hkt 1 (kt * 32768 + 8192) (by show _ = _ + 1 * 8192; omega) _ r s h0
  have h2 := chunk_step X0 X1 b kt hkt 2 (kt * 32768 + 8192 + 8192) (by show _ = _ + 2 * 8192; omega) _ r s h1
  have h3 := chunk_step X0 X1 b kt hkt 3 (kt * 32768 + 8192 + 8192 + 8192) (by show _ = _ + 3 * 8192; omega) _ r s h2
  exact h3.trans (congrArg (psum X0 X1 b r s) (by omega))

/-- The accumulator after point `n`, in one form for every `n`: the tile's four chunks added to zero at an image's
    first tile and to the accumulator of the point before otherwise. -/
theorem accPt_eq (X0 : Vec Ideal S64x3x262144 .f32) (X1 : Vec Ideal S64x1x262144 .i32) (n : ℕ) :
    accPt (F := Ideal) X0 X1 n
      = tile4 (tileOf0 X0 n) (tileOf1 X1 n) (if n % 8 = 0 then k0_pay1 (F := Ideal) else accPt (F := Ideal) X0 X1 (n - 1)) := by
  cases n with
  | zero => rfl
  | succ m => rfl

/-- After tile `kt` of image `b` the accumulator holds the sums over the image's first (kt + 1) · 32768 pixels. -/
theorem acc_tile (X0 : Vec Ideal S64x3x262144 .f32) (X1 : Vec Ideal S64x1x262144 .i32) (b : Fin 64) (r : Fin 4)
    (s : Fin 256) (kt : ℕ) (hkt : kt < 8) :
    accPt (F := Ideal) X0 X1 (8 * b.val + kt) (ix2 r s) = psum X0 X1 b r s ((kt + 1) * 32768) := by
  induction kt with
  | zero =>
    rw [accPt_eq, if_pos (by omega)]
    refine tile_step X0 X1 b 0 hkt _ r s ?_
    rw [PayK0.pay1_apply]
    simp [psum]
  | succ m ih =>
    rw [accPt_eq, if_neg (by omega)]
    have e : 8 * b.val + (m + 1) - 1 = 8 * b.val + m := by omega
    rw [e]
    exact tile_step X0 X1 b (m + 1) hkt _ r s (ih (by omega))

/-- Over a whole image, a sums row is the specification's sum of the channel over the pixels labelled `s`. -/
theorem psum_sums (X0 : Vec Ideal S64x3x262144 .f32) (X1 : Vec Ideal S64x1x262144 .i32)
    (img : Cert.Spec.SImg.Idx → EReal) (seg : Cert.Spec.SSeg.Idx → BitVec 32)
    (hX0 : ∀ (b : Fin 64) (c : Fin 3) (k : Fin 262144), X0 (ix3 b c k) = img (ix4 b c (Cert.Spec.prow k) (Cert.Spec.pcol k)))
    (hX1 : ∀ (b : Fin 64) (k : Fin 262144), X1 (ix3 b 0 k) = seg (ix3 b (Cert.Spec.prow k) (Cert.Spec.pcol k)))
    (b : Fin 64) (c : Fin 3) (s : Fin 256) :
    psum X0 X1 b (⟨c.val, by have := c.isLt; omega⟩ : Fin 4) s 262144 = Cert.Spec.ssum img seg b c s := by
  unfold psum Cert.Spec.ssum
  rw [Finset.sum_range]
  refine Finset.sum_congr rfl (fun k _ => ?_)
  unfold term
  rw [dif_pos k.isLt, dif_pos (show ((⟨c.val, by have := c.isLt; omega⟩ : Fin 4)).val < 3 from c.isLt)]
  show X0 (ix3 b c k) * Cert.Spec.oh (X1 (ix3 b 0 k)) s = _
  rw [hX0, hX1]

/-- Over a whole image, the counts row is the specification's number of pixels labelled `s`. -/
theorem psum_cnt (X0 : Vec Ideal S64x3x262144 .f32) (X1 : Vec Ideal S64x1x262144 .i32)
    (seg : Cert.Spec.SSeg.Idx → BitVec 32)
    (hX1 : ∀ (b : Fin 64) (k : Fin 262144), X1 (ix3 b 0 k) = seg (ix3 b (Cert.Spec.prow k) (Cert.Spec.pcol k)))
    (b : Fin 64) (s : Fin 256) :
    psum X0 X1 b (3 : Fin 4) s 262144 = Cert.Spec.cnt seg b s := by
  unfold psum Cert.Spec.cnt
  rw [Finset.sum_range]
  refine Finset.sum_congr rfl (fun k _ => ?_)
  unfold term
  rw [dif_pos k.isLt, dif_neg (show ¬ ((3 : Fin 4)).val < 3 by decide), one_mul]
  show Cert.Spec.oh (X1 (ix3 b 0 k)) s = _
  rw [hX1]

/-- At an image's last tile the block of means is the specification's: the sums over the whole image over the
    clamped counts. -/
theorem meanBlk_last (X0 : Vec Ideal S64x3x262144 .f32) (X1 : Vec Ideal S64x1x262144 .i32)
    (img : Cert.Spec.SImg.Idx → EReal) (seg : Cert.Spec.SSeg.Idx → BitVec 32)
    (hX0 : ∀ (b : Fin 64) (c : Fin 3) (k : Fin 262144), X0 (ix3 b c k) = img (ix4 b c (Cert.Spec.prow k) (Cert.Spec.pcol k)))
    (hX1 : ∀ (b : Fin 64) (k : Fin 262144), X1 (ix3 b 0 k) = seg (ix3 b (Cert.Spec.prow k) (Cert.Spec.pcol k)))
    (b : Fin 64) (c : Fin 3) (s : Fin 256) :
    meanBlk (F := Ideal) X0 X1 (8 * b.val + 7) (ix3 0 c s) = Cert.Spec.mean img seg b c s := by
  unfold meanBlk meansOf
  rw [PayK0.pay3_apply]
  unfold Cert.Spec.mean
  have hs : rows012 (accPt (F := Ideal) X0 X1 (8 * b.val + 7)) (ix2 c s) = Cert.Spec.ssum img seg b c s := by
    show accPt (F := Ideal) X0 X1 (8 * b.val + 7) (ix2 (⟨c.val, by have := c.isLt; omega⟩ : Fin 4) s) = _
    rw [acc_tile X0 X1 b _ s 7 (by decide)]
    exact psum_sums X0 X1 img seg hX0 hX1 b c s
  have hc : row3 (accPt (F := Ideal) X0 X1 (8 * b.val + 7)) (ix2 0 s) = Cert.Spec.cnt seg b s := by
    show accPt (F := Ideal) X0 X1 (8 * b.val + 7) (ix2 (3 : Fin 4) s) = _
    rw [acc_tile X0 X1 b _ s 7 (by decide)]
    exact psum_cnt X0 X1 seg hX1 b s
  rw [hs, hc]

end Cert.KernelIdeal.R0Math

end
-- ==== Proof.PayK1.lean ====
/-
  The one value the second kernel stores, read at an index over the extended reals: the node projection
  (a contraction over the three channels plus a bias row), the graph transform (a contraction over the 768 features),
  and the mean over the 256 nodes plus a bias, copied to every node.
-/
import proofs.«410070_j4063039062509_3_alg».proof.Proof.Gen.KernelIdeal.Skeleton
import proofs.«410070_j4063039062509_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayK1

open Cert.KernelIdeal Cert.KernelIdeal.Gen Idealize.ShloMosaic Idealize.ShloMosaic.ValueIdx

variable [Cert.KernelIdeal.Facts]

/-! ## The first product: both operands contracted along their axis 0 -/

/-- The left operand's contracted axis 0 carries the contraction coordinate. -/
theorem lhs1_0 (i : S256x768.Idx) (q : dot_S3x256_S3x768_S256x768_0_0_1_1_n_n.contr.Idx) :
    (dot_S3x256_S3x768_S256x768_0_0_1_1_n_n.lhsIdx i q 0).val = (q ⟨0, by decide⟩).val :=
  dot_S3x256_S3x768_S256x768_0_0_1_1_n_n.lhsIdx_val_of_single rfl i q
/-- The left operand's kept axis 1 carries the result's row. -/
theorem lhs1_1 (i : S256x768.Idx) (q : dot_S3x256_S3x768_S256x768_0_0_1_1_n_n.contr.Idx) :
    (dot_S3x256_S3x768_S256x768_0_0_1_1_n_n.lhsIdx i q 1).val = (i 0).val := by
  unfold DotDims.lhsIdx
  rw [dif_neg (show ¬(1 : Fin S3x256.rank) ∈ dot_S3x256_S3x768_S256x768_0_0_1_1_n_n.lhsBatch by decide), dif_pos (show (1 : Fin S3x256.rank) ∈ dot_S3x256_S3x768_S256x768_0_0_1_1_n_n.lhsNonContracting by decide)]
  rfl
/-- The right operand's contracted axis 0 carries the contraction coordinate. -/
theorem rhs1_0 (i : S256x768.Idx) (q : dot_S3x256_S3x768_S256x768_0_0_1_1_n_n.contr.Idx) :
    (dot_S3x256_S3x768_S256x768_0_0_1_1_n_n.rhsIdx i q 0).val = (q ⟨0, by decide⟩).val :=
  dot_S3x256_S3x768_S256x768_0_0_1_1_n_n.rhsIdx_val_of_single rfl i q
/-- The right operand's kept axis 1 carries the result's column. -/
theorem rhs1_1 (i : S256x768.Idx) (q : dot_S3x256_S3x768_S256x768_0_0_1_1_n_n.contr.Idx) :
    (dot_S3x256_S3x768_S256x768_0_0_1_1_n_n.rhsIdx i q 1).val = (i 1).val := by
  unfold DotDims.rhsIdx
  rw [dif_neg (show ¬(1 : Fin S3x768.rank) ∈ dot_S3x256_S3x768_S256x768_0_0_1_1_n_n.rhsBatch by decide), dif_pos (show (1 : Fin S3x768.rank) ∈ dot_S3x256_S3x768_S256x768_0_0_1_1_n_n.rhsNonContracting by decide)]
  rfl

/-- The first product into a zero accumulator, at row `p` and column `q`: the sum over the three channels. -/
theorem mm1_apply (x : FVec Ideal S3x256 .bf16) (w : FVec Ideal S3x768 .bf16) (p : Fin 256) (q : Fin 768) :
    matmul dot_S3x256_S3x768_S256x768_0_0_1_1_n_n none x w (constant S256x768 .f32 0x00000000#32) (ix2 p q)
      = ∑ c : Fin 3, x (ix2 c p) * w (ix2 c q) := by
  refine (Ideal.matmul_constant_zero_apply dot_S3x256_S3x768_S256x768_0_0_1_1_n_n none x w (ix2 p q)).trans ?_
  rw [← Equiv.sum_comp (ValueIdx.contrEquiv1 dot_S3x256_S3x768_S256x768_0_0_1_1_n_n 3 rfl rfl).symm]
  refine Finset.sum_congr rfl fun k _ => ?_
  have hk := ValueIdx.contrEquiv1_symm_val dot_S3x256_S3x768_S256x768_0_0_1_1_n_n 3 rfl rfl k
  have el : dot_S3x256_S3x768_S256x768_0_0_1_1_n_n.lhsIdx (ix2 p q) ((ValueIdx.contrEquiv1 dot_S3x256_S3x768_S256x768_0_0_1_1_n_n 3 rfl rfl).symm k) = ix2 k p := funext fun a => Fin.ext (by
    match a with
    | ⟨0, _⟩ => exact (lhs1_0 _ _).trans hk
    | ⟨1, _⟩ => exact lhs1_1 _ _)
  have er : dot_S3x256_S3x768_S256x768_0_0_1_1_n_n.rhsIdx (ix2 p q) ((ValueIdx.contrEquiv1 dot_S3x256_S3x768_S256x768_0_0_1_1_n_n 3 rfl rfl).symm k) = ix2 k q := funext fun a => Fin.ext (by
    match a with
    | ⟨0, _⟩ => exact (rhs1_0 _ _).trans hk
    | ⟨1, _⟩ => exact rhs1_1 _ _)
  rw [el, er]

/-! ## The second product: the left's axis 1 against the right's axis 0 -/

/-- The left operand's kept axis 0 carries the result's row. -/
theorem lhs2_0 (i : S256x768.Idx) (q : dot_S256x768_S768x768_S256x768_1_0_0_1_n_n.contr.Idx) :
    (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
/-- The left operand's contracted axis 1 carries the contraction coordinate. -/
theorem lhs2_1 (i : S256x768.Idx) (q : dot_S256x768_S768x768_S256x768_1_0_0_1_n_n.contr.Idx) :
    (dot_S256x768_S768x768_S256x768_1_0_0_1_n_n.lhsIdx i q 1).val = (q ⟨0, by decide⟩).val :=
  dot_S256x768_S768x768_S256x768_1_0_0_1_n_n.lhsIdx_val_of_single rfl i q
/-- The right operand's contracted axis 0 carries the contraction coordinate. -/
theorem rhs2_0 (i : S256x768.Idx) (q : dot_S256x768_S768x768_S256x768_1_0_0_1_n_n.contr.Idx) :
    (dot_S256x768_S768x768_S256x768_1_0_0_1_n_n.rhsIdx i q 0).val = (q ⟨0, by decide⟩).val :=
  dot_S256x768_S768x768_S256x768_1_0_0_1_n_n.rhsIdx_val_of_single rfl i q
/-- The right operand's kept axis 1 carries the result's column. -/
theorem rhs2_1 (i : S256x768.Idx) (q : dot_S256x768_S768x768_S256x768_1_0_0_1_n_n.contr.Idx) :
    (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl

/-- The second product into a zero accumulator, at row `p` and column `q`: the sum over the 768 features. -/
theorem mm2_apply (y : FVec Ideal S256x768 .bf16) (w : FVec Ideal S768x768 .bf16) (p : Fin 256) (q : Fin 768) :
    matmul dot_S256x768_S768x768_S256x768_1_0_0_1_n_n none y w (constant S256x768 .f32 0x00000000#32) (ix2 p q)
      = ∑ e : Fin 768, y (ix2 p e) * w (ix2 e q) := by
  refine (Ideal.matmul_constant_zero_apply dot_S256x768_S768x768_S256x768_1_0_0_1_n_n none y w (ix2 p q)).trans ?_
  rw [← Equiv.sum_comp (ValueIdx.contrEquiv1 dot_S256x768_S768x768_S256x768_1_0_0_1_n_n 768 rfl rfl).symm]
  refine Finset.sum_congr rfl fun k _ => ?_
  have hk := ValueIdx.contrEquiv1_symm_val dot_S256x768_S768x768_S256x768_1_0_0_1_n_n 768 rfl rfl k
  have el : dot_S256x768_S768x768_S256x768_1_0_0_1_n_n.lhsIdx (ix2 p q) ((ValueIdx.contrEquiv1 dot_S256x768_S768x768_S256x768_1_0_0_1_n_n 768 rfl rfl).symm k) = ix2 p k := funext fun a => Fin.ext (by
    match a with
    | ⟨0, _⟩ => exact lhs2_0 _ _
    | ⟨1, _⟩ => exact (lhs2_1 _ _).trans hk)
  have er : dot_S256x768_S768x768_S256x768_1_0_0_1_n_n.rhsIdx (ix2 p q) ((ValueIdx.contrEquiv1 dot_S256x768_S768x768_S256x768_1_0_0_1_n_n 768 rfl rfl).symm k) = ix2 k q := funext fun a => Fin.ext (by
    match a with
    | ⟨0, _⟩ => exact (rhs2_0 _ _).trans hk
    | ⟨1, _⟩ => exact rhs2_1 _ _)
  rw [el, er]

/-! ## The sum over the rows -/

/-- The add reduction along axis 0 of a [256, 768] array, at column `f`: the sum over the 256 rows. -/
theorem red_apply (y : FVec Ideal S256x768 .f32) (f : Fin 768) :
    multiReduction (F := Ideal) .add [0] S768 y 0x00000000#32 reduces_S256x768_S768 (.inl rfl) rfl (ix1 f)
      = ∑ r : Fin 256, y (ix2 r f) := by
  refine (Ideal.multiReduction_add_single y 0x00000000#32 reduces_S256x768_S768 (.inl rfl) rfl (ix1 f)).trans ?_
  refine Finset.sum_congr rfl fun k _ => ?_
  refine congrArg y (funext fun a => Fin.ext ?_)
  match a with
  | ⟨0, _⟩ => rfl
  | ⟨1, _⟩ => rfl

/-! ## The stored value at an index -/

/-- The stored block at node `s` and feature `f`: the mean over the 256 nodes of the transformed projections, the
    divisor left as the word both programs spell, plus the bias; it does not depend on `s`. -/
theorem pay1_apply (v0 : Vec Ideal S1x3x256 .f32) (v3 : Vec Ideal S3x768 .f32) (v6 : Vec Ideal S1x768 .f32) (v11 : Vec Ideal S768x768 .f32) (v18 : Vec Ideal S1x768 .f32) (s : Fin 256) (f : Fin 768) :
    k1_pay1 (F := Ideal) v0 v3 v6 v11 v18 (ix3 0 s f)
      = Ideal.div (∑ s' : Fin 256, ∑ e : Fin 768, ((∑ c : Fin 3, v0 (ix3 0 c s') * v3 (ix2 c e)) + v6 (ix2 0 e)) * v11 (ix2 e f)) Cert.Spec.c256 + v18 (ix2 0 f) := by
  unfold k1_pay1
  -- the leading unit axis added, then the one row copied to all 256, then a cast to the same shape
  refine (shapeCast_ab_1ab_apply _ shapeCasts_S256x768_S1x256x768 0 s f).trans ?_
  refine (broadcastTo_1b_ab_apply _ broadcasts_S1x768_S256x768 s f).trans ?_
  refine (congrFun (shapeCast_self _ shapeCasts_S1x768_S1x768) _).trans ?_
  -- the quotient plus the bias row
  refine (addf_apply _ _ _).trans ?_
  refine congrArg₂ (· + ·) ?_ (congrFun (shapeCast_self v18 shapeCasts_S1x768_S1x768) _)
  refine (divf_apply _ _ _).trans ?_
  refine congrArg₂ Ideal.div ?_ rfl
  -- the row of sums over the 256 nodes
  refine (shapeCast_a_1a_apply _ shapeCasts_S768_S1x768 0 f).trans ?_
  refine (red_apply _ f).trans ?_
  refine Finset.sum_congr rfl fun s' _ => ?_
  -- the second product, a sum over the 768 features
  refine (mm2_apply _ _ s' f).trans ?_
  refine Finset.sum_congr rfl fun e _ => ?_
  refine congrArg₂ (· * ·) ?_ rfl
  -- the projection: the first product plus the bias row copied to every node
  refine (addf_apply _ _ _).trans ?_
  refine congrArg₂ (· + ·) ?_ ?_
  · refine (mm1_apply _ _ s' e).trans ?_
    refine Finset.sum_congr rfl fun c _ => ?_
    refine congrArg₂ (· * ·) ?_ rfl
    exact shapeCast_1ab_ab_apply v0 shapeCasts_S1x3x256_S3x256 c s'
  · refine (broadcastTo_1b_ab_apply _ broadcasts_S1x768_S256x768 s' e).trans ?_
    exact congrFun (shapeCast_self v6 shapeCasts_S1x768_S1x768) _

end Cert.KernelIdeal.PayK1

end
-- ==== Proof.KI.Val1.lean ====
/-
  The second kernel's stored value, fed an image's block of means and the weight and bias arrays, is the
  specification's result at every index: the two sides are the same sums once each array is read through its hypothesis.
-/
import proofs.«410070_j4063039062509_3_alg».proof.Proof.PayK1
import proofs.«410070_j4063039062509_3_alg».proof.Proof.Spec
import Idealize.ShloMosaic.Lib.ValueIdx

noncomputable section

namespace Cert.KernelIdeal.Val1

open Cert.KernelIdeal Cert.KernelIdeal.Gen Idealize.ShloMosaic Idealize.ShloMosaic.ValueIdx

variable [Cert.KernelIdeal.Facts]

/-- At output index `i` = (image, node, feature) the stored value is the average over the image's nodes of the
    transformed projections plus the bias: the specification's `G`. -/
theorem k1_value (img : Cert.Spec.SImg.Idx → EReal) (seg : Cert.Spec.SSeg.Idx → BitVec 32) (Wp : Cert.Spec.SWp.Idx → EReal) (bp : Cert.Spec.SB.Idx → EReal) (Wg : Cert.Spec.SWg.Idx → EReal) (bg : Cert.Spec.SB.Idx → EReal)
    (M : Vec Ideal S64x3x256 .f32) (hM : ∀ (b : Fin 64) (c : Fin 3) (s : Fin 256), M (ix3 b c s) = Cert.Spec.mean img seg b c s)
    (W2 : Vec Ideal S3x768 .f32) (hW2 : ∀ (c : Fin 3) (e : Fin 768), W2 (ix2 c e) = Wp (ix2 c e))
    (B3 : Vec Ideal S1x768 .f32) (hB3 : ∀ e : Fin 768, B3 (ix2 0 e) = bp (ix1 e))
    (W4 : Vec Ideal S768x768 .f32) (hW4 : ∀ (e f : Fin 768), W4 (ix2 e f) = Wg (ix2 e f))
    (B5 : Vec Ideal S1x768 .f32) (hB5 : ∀ f : Fin 768, B5 (ix2 0 f) = bg (ix1 f))
    (i : S64x256x768.Idx) :
    k1_pay1 (F := Ideal) (fun y => M (ix3 (i 0) (y 1) (y 2))) W2 B3 W4 B5 (ix3 0 (i 1) (i 2)) = Cert.Spec.G img seg Wp bp Wg bg i := by
  refine (PayK1.pay1_apply _ W2 B3 W4 B5 (i 1) (i 2)).trans ?_
  unfold Cert.Spec.G Cert.Spec.out Cert.Spec.xw Cert.Spec.proj
  refine congrArg₂ (· + ·) (congrArg₂ Ideal.div ?_ rfl) (hB5 (i 2))
  refine Finset.sum_congr rfl fun s' _ => Finset.sum_congr rfl fun e _ => ?_
  refine congrArg₂ (· * ·) (congrArg₂ (· + ·) ?_ (hB3 e)) (hW4 e (i 2))
  refine Finset.sum_congr rfl fun c _ => ?_
  exact congrArg₂ (· * ·) (hM (i 0) c s') (hW2 c e)

end Cert.KernelIdeal.Val1

end
-- ==== Proof.KI.Value.lean ====
/-
  What the idealized kernel program leaves in its result array, at the extended reals: the specification's function
  of the argument arrays. The first region leaves in its output, for image b, the block of means its accumulator gives
  at the image's last tile — the accumulator having added, tile by tile and chunk by chunk, every pixel of the image
  under the indicator of its label, that is the channel sums and the counts per label —; the second region's block for
  image b is its payload of that block of means and the (reshaped) weights and biases, which is the projection, the graph
  transform and the average over the nodes. No hypothesis on the labels is used on this side: an out-of-range label
  matches no indicator here.
-/
import proofs.«410070_j4063039062509_3_alg».proof.Proof.KI.Launch
import proofs.«410070_j4063039062509_3_alg».proof.Proof.KI.Vals
import proofs.«410070_j4063039062509_3_alg».proof.Proof.KI.Val0
import proofs.«410070_j4063039062509_3_alg».proof.Proof.KI.R1Val
import proofs.«410070_j4063039062509_3_alg».proof.Proof.KI.R0Math
import proofs.«410070_j4063039062509_3_alg».proof.Proof.KI.Val1

noncomputable section

namespace Cert.KernelIdeal.Launch

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Region 0's output holds the specification's means. -/
theorem o2_apply (c : Dev nD) (b : Fin 64) (ch : Fin 3) (s : Fin 256) :
    o2 (F := Ideal) m c (ix3 b ch s)
      = Cert.Spec.mean (m ((c : Thread nD τ).loc main_arg0)) (m ((c : Thread nD τ).loc main_arg1)) b ch s := by
  unfold o2
  rw [R0.arr2_eq (F := Ideal) (Va1 m) c b ch s]
  exact Cert.KernelIdeal.R0Math.meanBlk_last _ _ _ _ (fun b c k => Va1_v0 m _ b c k) (fun b k => Va1_v1 m _ b k) b ch s

/-- The result array holds the specification's function of the arguments. -/
theorem o5_eq (c : Dev nD) :
    o5 (F := Ideal) m c
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  unfold o5
  rw [R1.arr5_eq (F := Ideal) (Va3 m) c i]
  refine Cert.KernelIdeal.Val1.k1_value _ _ _ _ _ _ (Va3 m c main_v2) ?_ _ ?_ _ ?_ _ ?_ _ ?_ i
  · intro b ch s; rw [Va3_v2]; exact o2_apply m c b ch s
  · intro ch e; rw [Va3_arg2]
  · intro e; exact Va3_v3 m c e
  · intro e f; rw [Va3_arg4]
  · intro f; exact Va3_v4 m c f

end Cert.KernelIdeal.Launch

end
-- ==== Proof.RefSums.lean ====
/-
  The reference's segment sums read at an element, over the extended reals.

  The reference scatters, into a zero array of 64 · 256 rows and 3 columns, every pixel n of the whole batch
  (n = 262144 · image + 512 · row + column) and every channel c': the update is the image's channel c' at the pixel,
  and it lands on row (label of the pixel + 256 · image), column c'. A label lies in [0, 256) and an image number is
  below 64, so the 32-bit sum label + 256 · image does not wrap and, read signed, is that integer; it is the row
  s + 256 · b exactly when the image is b and the label is s. The element at (s + 256 · b, c) is therefore the sum over
  the pixels k of image b labelled s of the image's channel c at k, which is the specification's sum of
  value · indicator because x · 1 = x and x · 0 = 0 hold for every extended real.
-/
import proofs.«410070_j4063039062509_3_alg».proof.Proof.Gen.ReferenceIdeal.Read
import proofs.«410070_j4063039062509_3_alg».proof.Proof.Spec
import Idealize.ShloMosaic.Lib.ValueIdx
import Idealize.ShloMosaic.Lib.StableHlo.Predicate
import Idealize.ShloMosaic.PureOps.Ideal.Laws
import Mathlib.Algebra.BigOperators.Group.Finset.Basic

noncomputable section

namespace Cert.ReferenceIdeal.RefSums

open Cert.ReferenceIdeal Cert.ReferenceIdeal.Gen Cert.ReferenceIdeal.Read Idealize.ShloMosaic Idealize.ShloMosaic.ValueIdx

variable [Cert.ReferenceIdeal.Facts]

/-- The accumulating scatter at an element, over the extended reals: the operand's element plus the sum of the updates
    that land on it. -/
theorem scatterAdd_apply {s si su : Shape} (d : ScatterDims s si su) {w : Nat} (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

/-- A label in [0, 256) plus 256 times an image number below 64 does not wrap as 32-bit words. -/
theorem toInt_label_add (w : BitVec 32) (m : Nat) (hm : m < 64) (h0 : 0 ≤ w.toInt) (h1 : w.toInt < 256) :
    (IntOp.addi w (IntOp.muli (BitVec.ofNat 32 m) 256#32)).toInt = w.toInt + 256 * (m : ℤ) := by
  have hw : w.toNat < 256 := by
    rw [BitVec.toInt_eq_toNat_cond] at h0 h1
    split at h0 <;> omega
  have hwi : w.toInt = w.toNat := StableHlo.Predicate.toInt_eq_toNat_of_lt (by omega)
  unfold IntOp.addi IntOp.muli
  rw [hwi, StableHlo.Predicate.toInt_eq_toNat_of_lt]
  · simp only [BitVec.toNat_add, BitVec.toNat_mul, BitVec.toNat_ofNat]
    omega
  · simp only [BitVec.toNat_add, BitVec.toNat_mul, BitVec.toNat_ofNat]
    omega

/-- The image of pixel `n` of the whole batch. -/
def pimg (n : Fin 16777216) : Fin 64 := ⟨n.val / 262144, by have := n.isLt; omega⟩
/-- The number of pixel `n` of the whole batch inside its image. -/
def ppix (n : Fin 16777216) : Fin 262144 := ⟨n.val % 262144, Nat.mod_lt _ (by decide)⟩

/-- The scatter index of pixel `n`, read signed: its label plus 256 times its image (no wrap for a label in [0, 256)). -/
theorem ids_toInt (x1 : (⟨S64x512x512, .i32⟩ : BufTy).Contents (Elt Ideal))
    (hr : ∀ i, 0 ≤ (x1 i).toInt ∧ (x1 i).toInt < 256) (n : Fin 16777216) :
    (val_main_v11 (F := Ideal) x1 (ix2 n (0 : Fin 1))).toInt
      = (x1 (ix3 (pimg n) (Cert.Spec.prow (ppix n)) (Cert.Spec.pcol (ppix n)))).toInt + 256 * ((pimg n).val : ℤ) := by
  rw [val_main_v11_apply, val_main_v9_apply, val_main_v8_apply, val_main_v2_apply, val_main_v7_apply, val_main_v6_apply,
    val_main_v5_apply, val_main_v3_apply, val_main_v4_apply, val_main_c_apply]
  have e1 : idx_main_v2 (idx_main_v9 (idx_main_v11 (ix2 n (0 : Fin 1))))
      = ix3 (pimg n) (Cert.Spec.prow (ppix n)) (Cert.Spec.pcol (ppix n)) := by
    funext a
    match a with
    | ⟨0, _⟩ => exact Fin.ext (by show (n.val / 262144 * 262144 + n.val % 262144) / 262144 = n.val / 262144; omega)
    | ⟨1, _⟩ => exact Fin.ext (by show (n.val / 262144 * 262144 + n.val % 262144) / 512 % 512 = n.val % 262144 / 512; omega)
    | ⟨2, _⟩ => exact Fin.ext (by show (n.val / 262144 * 262144 + n.val % 262144) % 512 = n.val % 262144 % 512; omega)
  have e2 : ((idx_main_v6 (idx_main_v7 (idx_main_v9 (idx_main_v11 (ix2 n (0 : Fin 1))))) 0) : Fin 64).val = (pimg n).val := rfl
  rw [e1, e2]
  exact toInt_label_add _ _ (pimg n).isLt (hr _).1 (hr _).2

/-- The update at pixel `n`, channel `c'`: the image's channel `c'` at the pixel's row and column. -/
theorem pix_apply (x0 : (⟨S64x3x512x512, .f32⟩ : BufTy).Contents (Elt Ideal)) (n : Fin 16777216) (c' : Fin 3) :
    val_main_v1 (F := Ideal) x0 (ix2 n c')
      = x0 (ix4 (pimg n) c' (Cert.Spec.prow (ppix n)) (Cert.Spec.pcol (ppix n))) := by
  rw [val_main_v1_apply, val_main_v0_apply]
  congr 1
  funext a
  have hn := n.isLt
  have hc := c'.isLt
  match a with
  | ⟨0, _⟩ => exact Fin.ext (by show (n.val * 3 + c'.val) / 786432 = n.val / 262144; omega)
  | ⟨1, _⟩ => exact Fin.ext (by show (n.val * 3 + c'.val) % 3 = c'.val; omega)
  | ⟨2, _⟩ => exact Fin.ext (by show (n.val * 3 + c'.val) / 1536 % 512 = n.val % 262144 / 512; omega)
  | ⟨3, _⟩ => exact Fin.ext (by show (n.val * 3 + c'.val) / 3 % 512 = n.val % 262144 % 512; omega)

/-- The scatter's dimension numbers. -/
abbrev D : ScatterDims S16384x3 S16777216x1 S16777216x3 := scatter_S16384x3_S16777216x1_S16777216x3_1_0_0_1

theorem start0 (ids : IVec S16777216x1 32) (j : S16777216x3.Idx) :
    D.start j ids 0 = (ids (ix2 (j 0) (0 : Fin 1))).toInt := by
  unfold ScatterDims.start
  rw [dif_pos (show (0 : Fin S16384x3.rank) ∈ D.scatterDimsToOperandDims by decide)]
  congr 2
  funext a
  match a with
  | ⟨0, _⟩ => rfl
  | ⟨1, _⟩ => rfl

theorem start1 (ids : IVec S16777216x1 32) (j : S16777216x3.Idx) :
    D.start j ids 1 = 0 := by
  unfold ScatterDims.start
  rw [dif_neg (show ¬ (1 : Fin S16384x3.rank) ∈ D.scatterDimsToOperandDims by decide)]

theorem window0 (j : S16777216x3.Idx) : D.window j 0 = 0 := by
  unfold ScatterDims.window
  rw [dif_neg (show ¬ (0 : Fin S16384x3.rank) ∈ D.sKept by decide)]

theorem window1 (j : S16777216x3.Idx) : D.window j 1 = (j 1).val := by
  unfold ScatterDims.window
  rw [dif_pos (show (1 : Fin S16384x3.rank) ∈ D.sKept by decide)]
  rfl

/-- Update `j` lands on operand element `i` exactly when its scatter index, read signed, is `i`'s row and its
    window coordinate is `i`'s column. -/
theorem resultIdx_iff (ids : IVec S16777216x1 32) (j : S16777216x3.Idx) (i : S16384x3.Idx) :
    D.resultIdx? j ids = some i ↔ (ids (ix2 (j 0) (0 : Fin 1))).toInt = ((i 0).val : ℤ) ∧ (j 1).val = (i 1).val := by
  have h0 : D.start j ids 0 + (D.window j 0 : ℤ) = (ids (ix2 (j 0) (0 : Fin 1))).toInt := by
    rw [start0, window0]; simp
  have h1 : D.start j ids 1 + (D.window j 1 : ℤ) = ((j 1).val : ℤ) := by
    rw [start1, window1]; simp
  have hi0 : (i 0).val < 16384 := (i 0).isLt
  have hi1 : (i 1).val < 3 := (i 1).isLt
  have hj1 : (j 1).val < 3 := (j 1).isLt
  unfold ScatterDims.resultIdx?
  constructor
  · intro h
    split at h
    · rename_i hc
      have h' := Option.some.inj h
      have e0 := congrArg (fun f => (f 0).val) h'
      have e1 := congrArg (fun f => (f 1).val) h'
      simp only [h0, h1] at e0 e1
      have c0 := hc 0
      rw [h0] at c0
      constructor
      · omega
      · omega
    · cases h
  · rintro ⟨e0, e1⟩
    have hc : ∀ a, 0 ≤ D.start j ids a + (D.window j a : ℤ) ∧ D.start j ids a + (D.window j a : ℤ) < S16384x3.size a := by
      intro a
      match a with
      | ⟨0, _⟩ =>
        show 0 ≤ D.start j ids 0 + (D.window j 0 : ℤ) ∧ D.start j ids 0 + (D.window j 0 : ℤ) < ((16384 : ℕ) : ℤ)
        rw [h0, e0]; exact ⟨by omega, by omega⟩
      | ⟨1, _⟩ =>
        show 0 ≤ D.start j ids 1 + (D.window j 1 : ℤ) ∧ D.start j ids 1 + (D.window j 1 : ℤ) < ((3 : ℕ) : ℤ)
        rw [h1]; exact ⟨by omega, by omega⟩
    rw [dif_pos hc]
    congr 1
    funext a
    match a with
    | ⟨0, _⟩ => exact Fin.ext (by show (D.start j ids 0 + (D.window j 0 : ℤ)).toNat = (i 0).val; rw [h0, e0]; simp)
    | ⟨1, _⟩ => exact Fin.ext (by show (D.start j ids 1 + (D.window j 1 : ℤ)).toNat = (i 1).val; rw [h1]; omega)

/-- Pixel `k` of image `b` in the numbering of the whole batch. -/
def pglob (b : Fin 64) (k : Fin 262144) : Fin 16777216 :=
  ⟨b.val * 262144 + k.val, by have := b.isLt; have := k.isLt; omega⟩

theorem pimg_pglob (b : Fin 64) (k : Fin 262144) : pimg (pglob b k) = b :=
  Fin.ext (by show (b.val * 262144 + k.val) / 262144 = b.val; have := k.isLt; omega)
theorem ppix_pglob (b : Fin 64) (k : Fin 262144) : ppix (pglob b k) = k :=
  Fin.ext (by show (b.val * 262144 + k.val) % 262144 = k.val; have := k.isLt; omega)
theorem pglob_pimg_ppix (n : Fin 16777216) : pglob (pimg n) (ppix n) = n :=
  Fin.ext (by show n.val / 262144 * 262144 + n.val % 262144 = n.val; omega)

/-- Update `j` lands on node `s` of image `b`, channel `c`, exactly when its pixel is in image `b`, the pixel's label
    is `s` and its channel is `c`: label + 256 · image = s + 256 · b with both label and s in [0, 256). -/
theorem land_iff (x1 : (⟨S64x512x512, .i32⟩ : BufTy).Contents (Elt Ideal))
    (hr : ∀ i, 0 ≤ (x1 i).toInt ∧ (x1 i).toInt < 256) (b : Fin 64) (s : Fin 256) (c : Fin 3) (j : S16777216x3.Idx) :
    D.resultIdx? j (val_main_v11 (F := Ideal) x1) = some (ix2 (Cert.Spec.node b s) c)
      ↔ pimg (j 0) = b
        ∧ (x1 (ix3 b (Cert.Spec.prow (ppix (j 0))) (Cert.Spec.pcol (ppix (j 0))))).toInt = (s.val : ℤ) ∧ j 1 = c := by
  refine (resultIdx_iff (val_main_v11 (F := Ideal) x1) j _).trans ?_
  rw [ids_toInt x1 hr (j 0)]
  have hl := hr (ix3 (pimg (j 0)) (Cert.Spec.prow (ppix (j 0))) (Cert.Spec.pcol (ppix (j 0))))
  have hnode : ((ix2 (Cert.Spec.node b s) c : S16384x3.Idx) 0).val = b.val * 256 + s.val := rfl
  have hc : ((ix2 (Cert.Spec.node b s) c : S16384x3.Idx) 1).val = c.val := rfl
  rw [hnode, hc]
  have hb := b.isLt
  have hs := s.isLt
  have hp := (pimg (j 0)).isLt
  constructor
  · rintro ⟨h1, h2⟩
    have e : pimg (j 0) = b := Fin.ext (by omega)
    refine ⟨e, ?_, Fin.ext h2⟩
    rw [← e]; omega
  · rintro ⟨e, h1, h2⟩
    rw [← e] at h1
    rw [← e]
    exact ⟨by omega, by rw [h2]⟩

/-- The scatter's operand is zero everywhere. -/
theorem zeros_apply (i : S16384x3.Idx) : val_main_v10 (F := Ideal) i = 0 := by
  rw [val_main_v10_apply, val_main_cst_apply, Ideal.ofBits_def, Ideal.ofBits_zero_f32]

/-- The specification's segment sum as a sum over the pixels carrying the label: x · 1 = x and x · 0 = 0 for every
    extended real. -/
theorem ssum_eq_filter (x0 : Cert.Spec.SImg.Idx → EReal) (x1 : Cert.Spec.SSeg.Idx → BitVec 32) (b : Fin 64) (c : Fin 3)
    (s : Fin 256) :
    Cert.Spec.ssum x0 x1 b c s
      = ∑ k ∈ Finset.univ.filter (fun k : Fin 262144 =>
            (x1 (ix3 b (Cert.Spec.prow k) (Cert.Spec.pcol k))).toInt = (s.val : ℤ)),
          x0 (ix4 b c (Cert.Spec.prow k) (Cert.Spec.pcol k)) := by
  unfold Cert.Spec.ssum
  rw [Finset.sum_filter]
  refine Finset.sum_congr rfl fun k _ => ?_
  unfold Cert.Spec.oh
  split
  · rw [mul_one]
  · rw [mul_zero]

/-- The reference's segment sum at node `s` of image `b`, channel `c`, is the specification's: the updates that land
    there are those of the pixels of image `b` labelled `s`, at channel `c`, one per pixel. -/
theorem v12_apply (x0 : (⟨S64x3x512x512, .f32⟩ : BufTy).Contents (Elt Ideal)) (x1 : (⟨S64x512x512, .i32⟩ : BufTy).Contents (Elt Ideal))
    (hr : ∀ i, 0 ≤ (x1 i).toInt ∧ (x1 i).toInt < 256) (b : Fin 64) (s : Fin 256) (c : Fin 3) :
    Read.val_main_v12 (F := Ideal) x0 x1 (ix2 (Cert.Spec.node b s) c) = Cert.Spec.ssum x0 x1 b c s := by
  refine (scatterAdd_apply D _ _ _ _).trans ?_
  rw [zeros_apply, zero_add]
  refine Eq.trans ?_ (ssum_eq_filter x0 x1 b c s).symm
  symm
  refine Finset.sum_nbij' (fun k => (ix2 (pglob b k) c : S16777216x3.Idx)) (fun j => ppix (j 0)) ?_ ?_ ?_ ?_ ?_
  · intro k hk
    rw [Finset.mem_filter] at hk ⊢
    refine ⟨Finset.mem_univ _, (land_iff x1 hr b s c _).2 ⟨pimg_pglob b k, ?_, rfl⟩⟩
    show (x1 (ix3 b (Cert.Spec.prow (ppix (pglob b k))) (Cert.Spec.pcol (ppix (pglob b k))))).toInt = _
    rw [ppix_pglob]
    exact hk.2
  · intro j hj
    rw [Finset.mem_filter] at hj ⊢
    exact ⟨Finset.mem_univ _, ((land_iff x1 hr b s c j).1 hj.2).2.1⟩
  · intro k _
    exact ppix_pglob b k
  · intro j hj
    rw [Finset.mem_filter] at hj
    obtain ⟨e, _, e1⟩ := (land_iff x1 hr b s c j).1 hj.2
    have h0 : pglob b (ppix (j 0)) = j 0 := by rw [← e]; exact pglob_pimg_ppix (j 0)
    show ix2 (pglob b (ppix (j 0))) c = j
    funext a
    match a with
    | ⟨0, _⟩ => exact h0
    | ⟨1, _⟩ => exact e1.symm
  · intro k _
    show x0 (ix4 b c (Cert.Spec.prow k) (Cert.Spec.pcol k)) = val_main_v1 (F := Ideal) x0 (ix2 (pglob b k) c)
    rw [pix_apply, pimg_pglob, ppix_pglob]

end Cert.ReferenceIdeal.RefSums

end
-- ==== Proof.RefCnt.lean ====
/-
  The reference's segment counts, read at a node, at the extended reals.

  The reference lists the pixels of the whole batch in one row of 64 · 262144, image after image, and gives pixel n
  the word  id n = label n + 256 · (n / 262144)  (the label of pixel n % 262144 of image n / 262144, shifted to that
  image's block of 256 nodes). Its count array starts at zero and receives a one from every pixel n at the place
  id n, read as a signed integer, when that place lies in [0, 16384). Under 0 ≤ label < 256 the word sum does not
  wrap, so pixel n lands on node b · 256 + s exactly when n / 262144 = b and its label is s: the count at that node
  is the number of pixels of image b labelled s. The reference then clamps the count from below by one.
-/
import proofs.«410070_j4063039062509_3_alg».proof.Proof.Gen.ReferenceIdeal.Read
import proofs.«410070_j4063039062509_3_alg».proof.Proof.Spec
import Idealize.ShloMosaic.Lib.ValueIdx
import Idealize.ShloMosaic.PureOps.Ideal.Laws
import Mathlib.Algebra.BigOperators.Group.Finset.Defs
import Mathlib.Algebra.BigOperators.Group.Finset.Basic
import Mathlib.Data.Finset.Filter

noncomputable section

namespace Cert.ReferenceIdeal.RefCnt

open Cert.ReferenceIdeal Cert.ReferenceIdeal.Gen Cert.ReferenceIdeal.Read Idealize.ShloMosaic Idealize.ShloMosaic.ValueIdx

variable [Cert.ReferenceIdeal.Facts]

/-- The dimension numbers of the counts' scatter: one operand axis, named by the one component of the index
    vector; no window axis. -/
abbrev D := scatter_S16384_S16777216x1_S16777216_n_0_0_1

/-! ## Where an update lands -/

/-- Every operand axis is an inserted one: the operand has no axis for a window. -/
theorem sKept_nil : D.sKept = [] := by decide

/-- The start of update `j` on the operand's axis is the word of the indices at row `j`, read signed. -/
theorem start_eq (j : S16777216.Idx) (idx : IVec S16777216x1 32) (a : Fin 1) :
    D.start j idx a = (idx (ix2 (j 0) 0)).toInt := by
  match a with
  | ⟨0, _⟩ =>
    unfold ScatterDims.start
    rw [dif_pos (show (⟨0, by decide⟩ : Fin S16384.rank) ∈ D.scatterDimsToOperandDims from List.mem_singleton.2 rfl)]
    refine congrArg (fun t => (idx t).toInt) ?_
    funext b
    match b with
    | ⟨0, h0⟩ =>
      -- the row coordinate: the update's own (only) coordinate
      unfold ScatterDims.siIdx
      have h : ¬ ((⟨0, h0⟩ : Fin S16777216x1.rank).val = D.indexVectorDim) := Nat.zero_ne_one
      rw [dif_neg h]
      unfold ScatterDims.siCoord
      apply Fin.ext
      show (j _).val = (j 0).val
      exact congrArg (fun t => (j t).val) (Subsingleton.elim (α := Fin 1) _ _)
    | ⟨1, h1⟩ =>
      -- the index vector's coordinate: component 0
      unfold ScatterDims.siIdx
      have h : ((⟨1, h1⟩ : Fin S16777216x1.rank).val = D.indexVectorDim) := rfl
      rw [dif_pos h]
      rfl

/-- There is no window: the window coordinate is zero. -/
theorem window_eq (j : S16777216.Idx) (a : Fin 1) :
    D.window j a = 0 := by
  unfold ScatterDims.window
  exact dif_neg (sKept_nil ▸ List.not_mem_nil)

/-- Update `j` lands on place `r` exactly when its index word, read signed, is `r`. -/
theorem resultIdx_iff (j : S16777216.Idx) (idx : IVec S16777216x1 32) (r : Fin 16384) :
    D.resultIdx? j idx = some (ix1 r) ↔ (idx (ix2 (j 0) 0)).toInt = (r.val : ℤ) := by
  unfold ScatterDims.resultIdx?
  constructor
  · intro h
    split at h
    · rename_i hb
      have h1 := congrArg (fun t => (t 0).val) (Option.some.inj h)
      have h2 := hb 0
      simp only [start_eq, window_eq] at h1 h2
      have h1' : ((idx (ix2 (j 0) 0)).toInt + ((0 : ℕ) : ℤ)).toNat = r.val := h1
      have h2' : 0 ≤ (idx (ix2 (j 0) 0)).toInt + ((0 : ℕ) : ℤ) := h2.1
      omega
    · exact absurd h (by simp)
  · intro h
    have hr := r.isLt
    have hb : ∀ a, 0 ≤ D.start j idx a + D.window j a ∧ D.start j idx a + D.window j a < S16384.size a := by
      intro a
      rw [start_eq, window_eq, h]
      match a with
      | ⟨0, _⟩ =>
        show 0 ≤ (r.val : ℤ) + ((0 : ℕ) : ℤ) ∧ (r.val : ℤ) + ((0 : ℕ) : ℤ) < ((16384 : ℕ) : ℤ)
        omega
    rw [dif_pos hb]
    refine congrArg some ?_
    funext a
    match a with
    | ⟨0, _⟩ =>
      apply Fin.ext
      show (D.start j idx 0 + D.window j 0).toNat = r.val
      rw [start_eq, window_eq, h]
      omega

/-! ## The index word of a pixel -/

/-- The index word of pixel `n` of the batch: its label plus 256 times its image, as 32-bit words. -/
theorem ids_apply (x1 : (⟨S64x512x512, .i32⟩ : BufTy).Contents (Elt Ideal)) (n : Fin 16777216) :
    val_main_v15 (F := Ideal) x1 (ix2 n 0) =
      x1 (ix3 (⟨n.val / 262144, by have := n.isLt; omega⟩ : Fin 64) (⟨n.val % 262144 / 512, by omega⟩ : Fin 512)
            (⟨n.val % 512, by omega⟩ : Fin 512)) + BitVec.ofNat 32 (n.val / 262144) * 256#32 := by
  rw [val_main_v15_apply, val_main_v9_apply, val_main_v8_apply, val_main_v2_apply, val_main_v7_apply,
    val_main_v6_apply, val_main_v5_apply, val_main_v3_apply, val_main_v4_apply, val_main_c_apply]
  show x1 _ + BitVec.ofNat 32 _ * 256#32 = _
  congr 1
  refine congrArg x1 ?_
  funext a
  match a with
  | ⟨0, _⟩ =>
    apply Fin.ext
    show (n.val / 262144 * 262144 + n.val % 262144) / 262144 = n.val / 262144
    omega
  | ⟨1, _⟩ =>
    apply Fin.ext
    show (n.val / 262144 * 262144 + n.val % 262144) / 512 % 512 = n.val % 262144 / 512
    omega
  | ⟨2, _⟩ =>
    apply Fin.ext
    show (n.val / 262144 * 262144 + n.val % 262144) % 512 = n.val % 512
    omega

/-- A label in [0, 256) plus 256 · m, m < 64, does not wrap: read signed, the word sum is the integer sum. -/
theorem toInt_lab_add (w : BitVec 32) (hw : 0 ≤ w.toInt ∧ w.toInt < 256) (m : ℕ) (hm : m < 64) :
    (w + BitVec.ofNat 32 m * 256#32).toInt = w.toInt + 256 * (m : ℤ) := by
  have hc := BitVec.toInt_eq_toNat_cond w
  have hlt := w.isLt
  have hn : w.toNat < 256 := by split at hc <;> omega
  have h1 : w.toInt = w.toNat := by split at hc <;> omega
  have h2 : (w + BitVec.ofNat 32 m * 256#32).toNat = w.toNat + 256 * m := by
    rw [BitVec.toNat_add, BitVec.toNat_mul, BitVec.toNat_ofNat]
    show (w.toNat + m % 2 ^ 32 * 256 % 2 ^ 32) % 2 ^ 32 = _
    omega
  have hc2 := BitVec.toInt_eq_toNat_cond (w + BitVec.ofNat 32 m * 256#32)
  rw [h2] at hc2
  split at hc2 <;> omega

/-- The f32 word 0x3F800000 denotes one. -/
theorem ofBits_one_f32 : Ideal.ofBits .f32 0x3F800000#32 = 1 := by
  simp [Ideal.ofBits, Ideal.ieee, -EReal.coe_mul]; norm_num

/-- Pixel `n` lands on node `s` of image `b` exactly when it is a pixel of image `b` and its label is `s`:
    label + 256 · image = 256 · b + s with both label and s in [0, 256). -/
theorem lands_iff (x1 : (⟨S64x512x512, .i32⟩ : BufTy).Contents (Elt Ideal))
    (hr : ∀ i, 0 ≤ (x1 i).toInt ∧ (x1 i).toInt < 256) (n : Fin 16777216) (b : Fin 64) (s : Fin 256) :
    D.resultIdx? (ix1 n) (val_main_v15 (F := Ideal) x1) = some (ix1 (Cert.Spec.node b s)) ↔
      n.val / 262144 = b.val ∧
        (x1 (ix3 (⟨n.val / 262144, by have := n.isLt; omega⟩ : Fin 64) (⟨n.val % 262144 / 512, by omega⟩ : Fin 512)
            (⟨n.val % 512, by omega⟩ : Fin 512))).toInt = (s.val : ℤ) := by
  have hn := n.isLt
  have hs := s.isLt
  rw [resultIdx_iff]
  show (val_main_v15 (F := Ideal) x1 (ix2 n 0)).toInt = _ ↔ _
  rw [ids_apply, toInt_lab_add _ (hr _) _ (by omega)]
  have hl := hr (ix3 (⟨n.val / 262144, by omega⟩ : Fin 64) (⟨n.val % 262144 / 512, by omega⟩ : Fin 512)
            (⟨n.val % 512, by omega⟩ : Fin 512))
  show _ = ((b.val * 256 + s.val : ℕ) : ℤ) ↔ _
  constructor
  · intro h
    constructor <;> omega
  · rintro ⟨h1, h2⟩
    omega

/-! ## The counts -/

/-- The count of image `b` and label `s` as a sum of ones over the pixels so labelled. -/
theorem cnt_eq (x1 : (⟨S64x512x512, .i32⟩ : BufTy).Contents (Elt Ideal)) (b : Fin 64) (s : Fin 256) :
    Cert.Spec.cnt x1 b s = ∑ k ∈ Finset.univ.filter (fun k : Fin 262144 =>
      (x1 (ix3 b (Cert.Spec.prow k) (Cert.Spec.pcol k))).toInt = (s.val : ℤ)), (1 : EReal) := by
  unfold Cert.Spec.cnt Cert.Spec.oh
  exact (Finset.sum_filter _ _).symm

/-- At the extended reals the accumulating scatter is the operand plus the sum of the updates that land there. -/
theorem scatterAdd_apply (x : (⟨S16384, .f32⟩ : BufTy).Contents (Elt Ideal))
    (idx : (⟨S16777216x1, .i32⟩ : BufTy).Contents (Elt Ideal))
    (upd : (⟨S16777216, .f32⟩ : BufTy).Contents (Elt Ideal)) (i : S16384.Idx) :
    Host.scatterAdd (F := Ideal) (φ := .f32) D x idx upd i = Ideal.hostScatterAdd D x idx upd i := rfl

/-- The reference's counts: zeros, plus a one from every pixel, at the pixel's index word. -/
theorem v16_step1 (x1 : (⟨S64x512x512, .i32⟩ : BufTy).Contents (Elt Ideal)) (i : S16384.Idx) :
    val_main_v16 (F := Ideal) x1 i =
      Ideal.hostScatterAdd D (fun _ => (0 : EReal)) (val_main_v15 (F := Ideal) x1) (fun _ => (1 : EReal)) i := by
  unfold val_main_v16
  rw [scatterAdd_apply]
  congr 1
  · funext a
    rw [val_main_v14_apply, val_main_cst_1_apply, Ideal.ofBits_def, Ideal.ofBits_zero_f32]
  · funext a
    rw [val_main_v13_apply, val_main_cst_0_apply, Ideal.ofBits_def, ofBits_one_f32]

/-- The reference's count at node `s` of image `b` is the number of pixels of image `b` labelled `s`: the pixels
    that land there are n = b · 262144 + k, k a pixel of the image labelled `s`, and k ↦ n is a bijection onto them. -/
theorem v16_apply (x1 : (⟨S64x512x512, .i32⟩ : BufTy).Contents (Elt Ideal))
    (hr : ∀ i, 0 ≤ (x1 i).toInt ∧ (x1 i).toInt < 256) (b : Fin 64) (s : Fin 256) :
    val_main_v16 (F := Ideal) x1 (ix1 (Cert.Spec.node b s)) = Cert.Spec.cnt x1 b s := by
  have hb := b.isLt
  rw [v16_step1, cnt_eq]
  unfold Ideal.hostScatterAdd
  rw [zero_add]
  refine Finset.sum_nbij' (fun j => (⟨(j 0).val % 262144, Nat.mod_lt _ (by decide)⟩ : Fin 262144))
    (fun k => ix1 (⟨b.val * 262144 + k.val, by have := k.isLt; omega⟩ : Fin 16777216)) ?_ ?_ ?_ ?_ ?_
  · -- a pixel that lands on the node is a pixel of image b, and its place in the image carries the label s
    intro j hj
    obtain ⟨n, rfl⟩ : ∃ n, j = ix1 n := ⟨j 0, eq_ix1 j⟩
    rw [Finset.mem_filter] at hj ⊢
    refine ⟨Finset.mem_univ _, ?_⟩
    obtain ⟨h1, h2⟩ := (lands_iff x1 hr n b s).1 hj.2
    rw [← h2]
    refine congrArg (fun t => (x1 t).toInt) ?_
    funext a
    match a with
    | ⟨0, _⟩ => exact Fin.ext h1.symm
    | ⟨1, _⟩ => rfl
    | ⟨2, _⟩ =>
      apply Fin.ext
      show n.val % 262144 % 512 = n.val % 512
      omega
  · -- a pixel of image b labelled s lands on the node
    intro k hk
    have hk' := k.isLt
    rw [Finset.mem_filter] at hk ⊢
    refine ⟨Finset.mem_univ _, ?_⟩
    rw [lands_iff x1 hr]
    refine ⟨?_, ?_⟩
    · show (b.val * 262144 + k.val) / 262144 = b.val
      omega
    · rw [← hk.2]
      refine congrArg (fun t => (x1 t).toInt) ?_
      funext a
      match a with
      | ⟨0, _⟩ =>
        apply Fin.ext
        show (b.val * 262144 + k.val) / 262144 = b.val
        omega
      | ⟨1, _⟩ =>
        apply Fin.ext
        show (b.val * 262144 + k.val) % 262144 / 512 = k.val / 512
        omega
      | ⟨2, _⟩ =>
        apply Fin.ext
        show (b.val * 262144 + k.val) % 512 = k.val % 512
        omega
  · -- n = b · 262144 + n % 262144 for a pixel of image b
    intro j hj
    obtain ⟨n, rfl⟩ : ∃ n, j = ix1 n := ⟨j 0, eq_ix1 j⟩
    rw [Finset.mem_filter] at hj
    obtain ⟨h1, _⟩ := (lands_iff x1 hr n b s).1 hj.2
    refine congrArg ix1 (Fin.ext ?_)
    show b.val * 262144 + n.val % 262144 = n.val
    omega
  · -- (b · 262144 + k) % 262144 = k
    intro k hk
    have hk' := k.isLt
    apply Fin.ext
    show (b.val * 262144 + k.val) % 262144 = k.val
    omega
  · -- both sides add a one per element
    intro j hj
    rfl

/-- The clamped count: the reference takes the maximum of the integer one, converted, and the count. -/
theorem v17_apply (x1 : (⟨S64x512x512, .i32⟩ : BufTy).Contents (Elt Ideal))
    (hr : ∀ i, 0 ≤ (x1 i).toInt ∧ (x1 i).toInt < 256) (b : Fin 64) (s : Fin 256) :
    Read.val_main_v17 (F := Ideal) x1 (ix1 (Cert.Spec.node b s)) = max (Cert.Spec.cnt x1 b s) 1 := by
  rw [val_main_v17_apply, val_main_call0_v1_apply, val_main_call0_v0_apply, val_main_c_2_apply, v16_apply x1 hr,
    Ideal.maximumf_def, max_comm]
  congr 1
  show (((1#32 : BitVec 32).toInt : ℝ) : EReal) = 1
  have : (1#32 : BitVec 32).toInt = 1 := by decide
  rw [this]
  norm_num

end Cert.ReferenceIdeal.RefCnt

end
-- ==== Proof.RefTail.lean ====
/-
  The reference program's result read at an index, given its segment sums and its clamped counts.

  From the per-node sums and counts the program forms the means (a quotient, the divisor clamped to one), projects each
  node's three means to 768 features (a sum over the channels, plus a bias), transforms them (a sum over the 768
  features), sums the 256 nodes of an image, divides by 256, adds a bias, and gives every node of the image that value.
  Each step below reads one array of that chain at an index built from its coordinates.
-/
import proofs.«410070_j4063039062509_3_alg».proof.Proof.Gen.ReferenceIdeal.Read
import proofs.«410070_j4063039062509_3_alg».proof.Proof.Spec
import Idealize.ShloMosaic.Lib.ValueIdx
import Idealize.ShloMosaic.PureOps.Ideal.Laws

noncomputable section

namespace Cert.ReferenceIdeal.RefTail

open Cert.ReferenceIdeal Cert.ReferenceIdeal.Gen Cert.ReferenceIdeal.Read Idealize.ShloMosaic Idealize.ShloMosaic.ValueIdx

variable [Cert.ReferenceIdeal.Facts]

/-- The mean of channel `c` at node `s` of image `b`: the node's sum over its clamped count. The array of means is the
    flat [16384, 3] array of quotients regrouped as [64, 256, 3]; entry (b, s, c) is the flat entry (256·b + s, c), and
    the divisor there is the count of that node, the same for each channel. -/
theorem v21_at (x0 : (⟨S64x3x512x512, .f32⟩ : BufTy).Contents (Elt Ideal)) (x1 : (⟨S64x512x512, .i32⟩ : BufTy).Contents (Elt Ideal))
    (h12 : ∀ (b : Fin 64) (s : Fin 256) (c : Fin 3), Read.val_main_v12 (F := Ideal) x0 x1 (ix2 (Cert.Spec.node b s) c) = Cert.Spec.ssum x0 x1 b c s)
    (h17 : ∀ (b : Fin 64) (s : Fin 256), Read.val_main_v17 (F := Ideal) x1 (ix1 (Cert.Spec.node b s)) = max (Cert.Spec.cnt x1 b s) 1)
    (b : Fin 64) (s : Fin 256) (c : Fin 3) :
    Read.val_main_v21 (F := Ideal) x0 x1 (ix3 b s c) = Cert.Spec.mean x0 x1 b c s := by
  have e : idx_main_v21 (ix3 b s c) = ix2 (Cert.Spec.node b s) c := funext fun a => Fin.ext (by
    have hb : b.val < 64 := b.isLt
    have hs : s.val < 256 := s.isLt
    have hc : c.val < 3 := c.isLt
    match a with
    | ⟨0, _⟩ => show ((b.val * 256 + s.val) * 3 + c.val) / 3 = b.val * 256 + s.val; omega
    | ⟨1, _⟩ => show ((b.val * 256 + s.val) * 3 + c.val) % 3 = c.val; omega)
  have e2 : idx_main_v18 (idx_main_v19 (ix2 (Cert.Spec.node b s) c)) = ix1 (Cert.Spec.node b s) :=
    funext fun a => Fin.ext (by match a with | ⟨0, _⟩ => rfl)
  rw [val_main_v21_apply, e, val_main_v20_apply, val_main_v19_apply, val_main_v18_apply, e2, h12, h17]
  rfl

/-- Node `s` of image `b` projected to feature `e`: the sum over the three channels of the mean times the weight,
    plus the bias, which is spread over the images and nodes. -/
theorem v25_at (x0 : (⟨S64x3x512x512, .f32⟩ : BufTy).Contents (Elt Ideal)) (x1 : (⟨S64x512x512, .i32⟩ : BufTy).Contents (Elt Ideal))
    (x2 : (⟨S3x768, .f32⟩ : BufTy).Contents (Elt Ideal)) (x3 : (⟨S768, .f32⟩ : BufTy).Contents (Elt Ideal))
    (h12 : ∀ (b : Fin 64) (s : Fin 256) (c : Fin 3), Read.val_main_v12 (F := Ideal) x0 x1 (ix2 (Cert.Spec.node b s) c) = Cert.Spec.ssum x0 x1 b c s)
    (h17 : ∀ (b : Fin 64) (s : Fin 256), Read.val_main_v17 (F := Ideal) x1 (ix1 (Cert.Spec.node b s)) = max (Cert.Spec.cnt x1 b s) 1)
    (b : Fin 64) (s : Fin 256) (e : Fin 768) :
    Read.val_main_v25 (F := Ideal) x0 x1 x2 x3 (ix3 b s e) = Cert.Spec.proj x0 x1 x2 x3 b s e := by
  rw [val_main_v25_apply, val_main_v22_apply, val_main_v24_apply, val_main_v23_apply, Ideal.addf_def]
  unfold Cert.Spec.proj
  refine congrArg₂ (· + ·) (Finset.sum_congr rfl fun k _ => ?_) ?_
  · have el : lidx_main_v22 (ix3 b s e) k = ix3 b s k :=
      funext fun a => Fin.ext (by match a with | ⟨0, _⟩ => rfl | ⟨1, _⟩ => rfl | ⟨2, _⟩ => rfl)
    have er : ridx_main_v22 (ix3 b s e) k = ix2 k e :=
      funext fun a => Fin.ext (by match a with | ⟨0, _⟩ => rfl | ⟨1, _⟩ => rfl)
    rw [el, er, v21_at x0 x1 h12 h17]
  · exact congrArg x3 (funext fun a => Fin.ext (by match a with | ⟨0, _⟩ => rfl))

/-- The projected node transformed to output feature `f`: the sum over the 768 features of the projection times the
    weight. -/
theorem v26_at (x0 : (⟨S64x3x512x512, .f32⟩ : BufTy).Contents (Elt Ideal)) (x1 : (⟨S64x512x512, .i32⟩ : BufTy).Contents (Elt Ideal))
    (x2 : (⟨S3x768, .f32⟩ : BufTy).Contents (Elt Ideal)) (x3 : (⟨S768, .f32⟩ : BufTy).Contents (Elt Ideal)) (x4 : (⟨S768x768, .f32⟩ : BufTy).Contents (Elt Ideal))
    (h12 : ∀ (b : Fin 64) (s : Fin 256) (c : Fin 3), Read.val_main_v12 (F := Ideal) x0 x1 (ix2 (Cert.Spec.node b s) c) = Cert.Spec.ssum x0 x1 b c s)
    (h17 : ∀ (b : Fin 64) (s : Fin 256), Read.val_main_v17 (F := Ideal) x1 (ix1 (Cert.Spec.node b s)) = max (Cert.Spec.cnt x1 b s) 1)
    (b : Fin 64) (s : Fin 256) (f : Fin 768) :
    Read.val_main_v26 (F := Ideal) x0 x1 x2 x3 x4 (ix3 b s f) = Cert.Spec.xw x0 x1 x2 x3 x4 b s f := by
  rw [val_main_v26_apply]
  unfold Cert.Spec.xw
  refine Finset.sum_congr rfl fun k _ => ?_
  have el : lidx_main_v26 (ix3 b s f) k = ix3 b s k :=
    funext fun a => Fin.ext (by match a with | ⟨0, _⟩ => rfl | ⟨1, _⟩ => rfl | ⟨2, _⟩ => rfl)
  have er : ridx_main_v26 (ix3 b s f) k = ix2 k f :=
    funext fun a => Fin.ext (by match a with | ⟨0, _⟩ => rfl | ⟨1, _⟩ => rfl)
  rw [el, er, v25_at x0 x1 x2 x3 h12 h17]

/-- The result: every node of image `b` holds, at feature `f`, the sum over the image's 256 nodes of the transformed
    projections (a sum started from zero), divided by 256, plus the bias. -/
theorem v34_eq (x0 : (⟨S64x3x512x512, .f32⟩ : BufTy).Contents (Elt Ideal)) (x1 : (⟨S64x512x512, .i32⟩ : BufTy).Contents (Elt Ideal))
    (x2 : (⟨S3x768, .f32⟩ : BufTy).Contents (Elt Ideal)) (x3 : (⟨S768, .f32⟩ : BufTy).Contents (Elt Ideal))
    (x4 : (⟨S768x768, .f32⟩ : BufTy).Contents (Elt Ideal)) (x5 : (⟨S768, .f32⟩ : BufTy).Contents (Elt Ideal))
    (h12 : ∀ (b : Fin 64) (s : Fin 256) (c : Fin 3), Read.val_main_v12 (F := Ideal) x0 x1 (ix2 (Cert.Spec.node b s) c) = Cert.Spec.ssum x0 x1 b c s)
    (h17 : ∀ (b : Fin 64) (s : Fin 256), Read.val_main_v17 (F := Ideal) x1 (ix1 (Cert.Spec.node b s)) = max (Cert.Spec.cnt x1 b s) 1) :
    Read.val_main_v34 (F := Ideal) x0 x1 x2 x3 x4 x5 = Cert.Spec.G x0 x1 x2 x3 x4 x5 := by
  funext i
  obtain ⟨b, s, f, rfl⟩ : ∃ b s f, i = ix3 b s f := ⟨i 0, i 1, i 2, eq_ix3 i⟩
  rw [val_main_v34_apply, val_main_v33_apply, val_main_v30_apply, val_main_v28_apply, val_main_v27_apply,
    val_main_v29_apply, val_main_cst_4_apply, val_main_cst_3_apply, val_main_v32_apply, val_main_v31_apply,
    Ideal.addf_def, Ideal.hostDivf_def, Ideal.ofBits_def, Ideal.ofBits_def, Ideal.ofBits_zero_f32, zero_add]
  show _ = Cert.Spec.out x0 x1 x2 x3 x4 x5 b f
  unfold Cert.Spec.out
  refine congrArg₂ (· + ·) (congrArg₂ Ideal.div (Finset.sum_congr rfl fun k _ => ?_) rfl) ?_
  · have ek : idx_main_v27 (idx_main_v28 (idx_main_v34 (ix3 b s f))) k = ix3 b k f :=
      funext fun a => Fin.ext (by match a with | ⟨0, _⟩ => rfl | ⟨1, _⟩ => rfl | ⟨2, _⟩ => rfl)
    rw [ek, v26_at x0 x1 x2 x3 x4 h12 h17]
  · exact congrArg x5 (funext fun a => Fin.ext (by match a with | ⟨0, _⟩ => rfl))

end Cert.ReferenceIdeal.RefTail

end
-- ==== Proof.RefVal.lean ====
/-
  The reference program's result, at the extended reals, is the specification's function of its arguments, whenever
  every label lies in [0, 256): its two accumulating scatters give each (image, label) node its channel sums and its
  pixel count — a pixel of image b' labelled l lands on node 256·b' + l, which is node (b, s) exactly when b' = b and
  l = s once the labels are in range —, the quotient by the clamped count is the mean, and the projection, the graph
  transform and the average over the nodes follow operation by operation.
-/
import proofs.«410070_j4063039062509_3_alg».proof.Proof.RefSums
import proofs.«410070_j4063039062509_3_alg».proof.Proof.RefCnt
import proofs.«410070_j4063039062509_3_alg».proof.Proof.RefTail

noncomputable section

namespace Cert.ReferenceIdeal.RefValue

open Cert.ReferenceIdeal Cert.ReferenceIdeal.Gen Cert.ReferenceIdeal.Read Idealize.ShloMosaic

variable [Cert.ReferenceIdeal.Facts]

theorem ref_value (x0 : (⟨S64x3x512x512, .f32⟩ : BufTy).Contents (Elt Ideal)) (x1 : (⟨S64x512x512, .i32⟩ : BufTy).Contents (Elt Ideal))
    (x2 : (⟨S3x768, .f32⟩ : BufTy).Contents (Elt Ideal)) (x3 : (⟨S768, .f32⟩ : BufTy).Contents (Elt Ideal))
    (x4 : (⟨S768x768, .f32⟩ : BufTy).Contents (Elt Ideal)) (x5 : (⟨S768, .f32⟩ : BufTy).Contents (Elt Ideal))
    (hr : ∀ i, 0 ≤ (x1 i).toInt ∧ (x1 i).toInt < 256) :
    Read.val_main_v34 (F := Ideal) x0 x1 x2 x3 x4 x5 = Cert.Spec.G x0 x1 x2 x3 x4 x5 :=
  Cert.ReferenceIdeal.RefTail.v34_eq x0 x1 x2 x3 x4 x5
    (fun b s c => Cert.ReferenceIdeal.RefSums.v12_apply x0 x1 hr b s c)
    (fun b s => Cert.ReferenceIdeal.RefCnt.v17_apply x1 hr b s)

end Cert.ReferenceIdeal.RefValue

end
-- ==== Proof.PreDecode.lean ====
/-
  The precondition's last conjunct, read back: every label word, read as a signed integer, lies in [0, 256).

  The precondition is a conjunction of bits whose last member is the conjunction, over all pixels of all images,
  of the bit (0 ≤ label) ∧ (label < 256). A conjunction of bits is 1 exactly when each member is 1; a signed
  comparison's bit is 1 exactly when the comparison holds between the words read as integers; the words 0 and 256
  read as the integers 0 and 256.
-/
import proofs.«410070_j4063039062509_3_alg».proof.Pre_finite_inputs
import Idealize.ShloMosaic.Lib.ReduceAll
import Idealize.ShloMosaic.Lib.ValueIdx

noncomputable section

namespace Cert.PreDecode

open Idealize.ShloMosaic Cert.Pre_finite_inputs

variable {F : FTy → Type} [FloatOps F] [Cert.Pre_finite_inputs.Facts]

/-- A scalar's shape has exactly one index. -/
instance : Subsingleton S_.Idx := ⟨fun a b => funext fun d => d.elim0⟩

/-- If the precondition holds (its one bit is 1), every label is at least 0 and below 256. -/
theorem seg_range (a0 : FVec F S64x3x512x512 .f32) (a1 : IVec S64x512x512 32) (a2 : FVec F S3x768 .f32)
    (a3 : FVec F S768 .f32) (a4 : FVec F S768x768 .f32) (a5 : FVec F S768 .f32)
    (h : Cert.Pre_finite_inputs.fn (F := F) a0 a1 a2 a3 a4 a5 = (fun _ => 1#1)) :
    ∀ i : S64x512x512.Idx, 0 ≤ (a1 i).toInt ∧ (a1 i).toInt < 256 := by
  intro i
  -- the precondition's bit, at the scalar's one index, spelt out as its chain of conjunctions
  have h0 := congrFun h ValueIdx.ix0
  unfold Cert.Pre_finite_inputs.fn at h0
  dsimp only at h0
  unfold Cert.Pre_finite_inputs.fn_part1 at h0
  dsimp only at h0
  -- the outer conjunction is 1, so its last member is: the conjunction over all pixels of the range bit
  have h1 : Host.reduce IntOp.andi
        (andi (cmpi CmpIPredicate.sge a1 (broadcastInDim S64x512x512 ![] Facts.bcast_S_S64x512x512 (constantI S_ 32 0#32)))
          (cmpi CmpIPredicate.slt a1 (broadcastInDim S64x512x512 ![] Facts.bcast_S_S64x512x512 (constantI S_ 32 256#32))))
        (constantI S_ 1 1#1) Facts.reducesTo_S64x512x512_S_d0_1_2 Facts.h_S_ ValueIdx.ix0 = 1#1 :=
    (IntOp.andi_eq_one.1 h0).2
  -- a conjunction over all pixels that is 1 has a 1 at every pixel
  have h2 := Host.reduce_andi_all _ _ _ _ _ h1 i
  -- at pixel i the bit is (label ≥ 0) ∧ (label < 256), both bounds being the same word at every pixel
  obtain ⟨hge, hlt⟩ := IntOp.andi_eq_one.1 h2
  -- a signed comparison's bit is 1 exactly when it holds between the words read as integers
  have hge' : (0#32 : BitVec 32).toInt ≤ (a1 i).toInt := IntOp.cmpi_sge.1 hge
  have hlt' : (a1 i).toInt < (256#32 : BitVec 32).toInt := IntOp.cmpi_slt.1 hlt
  have e0 : (0#32 : BitVec 32).toInt = 0 := by decide
  have e256 : (256#32 : BitVec 32).toInt = 256 := by decide
  rw [e0] at hge'
  rw [e256] at hlt'
  exact ⟨hge', hlt'⟩

end Cert.PreDecode

end
-- ==== Proof.lean ====
/-
  The certificate: a segment-mean pooling kernel followed by a node projection and graph-convolution kernel, against
  the plain reference, over the extended reals, for finite float inputs and labels in [0, 256).

  Both programs compute one function of the arguments (Proof/Spec.lean): per image and label the mean of each channel
  over the pixels carrying the label (divisor clamped to one), projected, transformed, averaged over the image's 256
  nodes and broadcast back to them.
  * The kernel program: its first region accumulates, tile by tile and chunk by chunk, a one-hot matrix product of the
    pixels (with a row of ones appended, which counts) against the labels, and at an image's last tile stores sums
    over clamped counts; its second region's block is the projection, transform and node average of that block. What
    each region leaves is read off the run of the program (Proof/KI/Launch.lean) and opened into that arithmetic
    (Proof/KI/Value.lean); no hypothesis on the labels is needed there.
  * The reference: its scatters put pixel n of image b' on node 256·b' + label, which is node (b, s) exactly when
    b' = b and label = s provided the labels are in range — where the precondition is used (Proof/RefVal.lean,
    Proof/PreDecode.lean).
  The three frames are the runs with their results dropped; the ideal pass rewrote nothing, so the kernel program read
  at the extended reals is the word-level program's sanctioned idealization with nothing to show.
-/
import proofs.«410070_j4063039062509_3_alg».proof.Defs
import proofs.«410070_j4063039062509_3_alg».proof.Proof.Gen.Kernel
import proofs.«410070_j4063039062509_3_alg».proof.Proof.Gen.KernelIdeal
import proofs.«410070_j4063039062509_3_alg».proof.Proof.Gen.ReferenceIdeal
import proofs.«410070_j4063039062509_3_alg».proof.Proof.Gen.Pre_finite_inputs
import proofs.«410070_j4063039062509_3_alg».proof.Proof.Gen.ReferenceIdeal.Run
import proofs.«410070_j4063039062509_3_alg».proof.Proof.Gen.ReferenceIdeal.Read
import proofs.«410070_j4063039062509_3_alg».proof.Proof.K.Launch
import proofs.«410070_j4063039062509_3_alg».proof.Proof.KI.Launch
import proofs.«410070_j4063039062509_3_alg».proof.Proof.KI.Value
import proofs.«410070_j4063039062509_3_alg».proof.Proof.RefVal
import proofs.«410070_j4063039062509_3_alg».proof.Proof.PreDecode
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Launch.frame (F := Bits) m ρ

/-- So does the kernel program read at the extended reals. -/
theorem frame_ki : Cert.frame_KernelIdeal := fun m ρ _ => Cert.KernelIdeal.Launch.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's function of the arguments in
    their result arrays: the kernel program's for any labels, the reference's because the precondition puts every
    label in [0, 256). -/
theorem algebraic : Cert.algebraic_KernelIdeal_ReferenceIdeal := by
  intro m ρ m' ρ' hpre hagree
  refine ⟨fun c => Cert.KernelIdeal.Launch.o5 (F := Ideal) m c, Cert.KernelIdeal.Launch.run_main (F := Ideal) m ρ, ?_⟩
  refine (θ_run Cert.ReferenceIdeal.defs _ _).mono (fun _ h c => ⟨(h c).1.trans ?_, (h c).2⟩)
    (Cert.ReferenceIdeal.Value.run (F := Ideal) m' ρ')
  have hr := Cert.PreDecode.seg_range (F := Ideal) _ _ _ _ _ _ (hpre c)
  obtain ⟨h0, h1, h2, h3, h4, h5⟩ := hagree c
  rw [h0, h1, h2, h3, h4, h5]
  exact ((Cert.ReferenceIdeal.Read.val_main_v34_eq _ _ _ _ _ _).trans
    (Cert.ReferenceIdeal.RefValue.ref_value _ _ _ _ _ _ hr)).trans (Cert.KernelIdeal.Launch.o5_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
